-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v38_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x64 : Shape := ⟨3, ![4096, 64, 64]⟩
abbrev S64x64 : Shape := ⟨2, ![64, 64]⟩
abbrev S64 : Shape := ⟨1, ![64]⟩
abbrev S64x192 : Shape := ⟨2, ![64, 192]⟩
abbrev S1x64 : Shape := ⟨2, ![1, 64]⟩
abbrev S1 : Shape := ⟨1, ![1]⟩
abbrev S192x64 : Shape := ⟨2, ![192, 64]⟩
abbrev S192 : Shape := ⟨1, ![192]⟩
abbrev S_ : Shape := ⟨0, ![]⟩

class Facts : Prop where
  bcast_S_S4096x64x64 : S_.BroadcastsInDim S4096x64x64 (![] : Fin 0 → Fin S4096x64x64.rank)
  reducesTo_S4096x64x64_S_d0_1_2 : S4096x64x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x192 : S_.BroadcastsInDim S64x192 (![] : Fin 0 → Fin S64x192.rank)
  reducesTo_S64x192_S_d0_1 : S64x192.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_

variable [Facts]

def fn_part5 {F : FTy → Type} [FloatOps F] (main_arg18 : FVec F S192 .f32) (main_arg19 : FVec F S192 .f32) (main_v83 : IVec S_ 1) (main_v84 : FVec F S192x64 .f32) (main_cst_32 : FVec F S_ .f32) : IVec S_ 1 :=
  let main_v85 : FVec F S192x64 .f32 := broadcastInDim S192x64 ![] bcast_S_S192x64 main_cst_32
  let main_v86 : IVec S192x64 1 := cmpf .olt main_v84 main_v85
  let main_c_33 : IVec S_ 1 := constantI S_ 1 1#1
  let main_v87 : IVec S_ 1 := (fun x v => Host.reduce IntOp.andi x v reducesTo_S192x64_S_d0_1 h_S_) main_v86 main_c_33
  let main_v88 : IVec S_ 1 := andi main_v83 main_v87
  let main_v89 : FVec F S192 .f32 := Host.absf main_arg18
  let main_cst_34 : FVec F S_ .f32 := constant S_ .f32 0x7F800000#32
  let main_v90 : FVec F S192 .f32 := broadcastInDim S192 ![] bcast_S_S192 main_cst_34
  let main_v91 : IVec S192 1 := cmpf .olt main_v89 main_v90
  let main_c_35 : IVec S_ 1 := constantI S_ 1 1#1
  let main_v92 : IVec S_ 1 := (fun x v => Host.reduce IntOp.andi x v reducesTo_S192_S_d0 h_S_) main_v91 main_c_35
  let main_v93 : IVec S_ 1 := andi main_v88 main_v92
  let main_v94 : FVec F S192 .f32 := Host.absf main_arg19
  let main_cst_36 : FVec F S_ .f32 := constant S_ .f32 0x7F800000#32
  let main_v95 : FVec F S192 .f32 := broadcastInDim S192 ![] bcast_S_S192 main_cst_36
  let main_v96 : IVec S192 1 := cmpf .olt main_v94 main_v95
  let main_c_37 : IVec S_ 1 := constantI S_ 1 1#1
  let main_v97 : IVec S_ 1 := (fun x v => Host.reduce IntOp.andi x v reducesTo_S192_S_d0 h_S_) main_v96 main_c_37
  let main_v98 : IVec S_ 1 := andi main_v93 main_v97
  main_v98

def fn_part4 {F : FTy → Type} [FloatOps F] (main_arg14 : FVec F S1x64 .f32) (main_arg15 : FVec F S1 .f32) (main_arg16 : FVec F S192x64 .f32) (main_arg17 : FVec F S192x64 .f32) (main_arg18 : FVec F S192 .f32) (main_arg19 : FVec F S192 .f32) (main_v63 : IVec S_ 1) (main_v67 : IVec S_ 1) : IVec S_ 1 :=
  let main_v68 : IVec S_ 1 := andi main_v63 main_v67
  let main_v69 : FVec F S1x64 .f32 := Host.absf main_arg14
  let main_cst_26 : FVec F S_ .f32 := constant S_ .f32 0x7F800000#32
  let main_v70 : FVec F S1x64 .f32 := broadcastInDim S1x64 ![] bcast_S_S1x64 main_cst_26
  let main_v71 : IVec S1x64 1 := cmpf .olt main_v69 main_v70
  let main_c_27 : IVec S_ 1 := constantI S_ 1 1#1
  let main_v72 : IVec S_ 1 := (fun x v => Host.reduce IntOp.andi x v reducesTo_S1x64_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : FVec F S192x64 .f32 := Host.absf main_arg16
  let main_cst_30 : FVec F S_ .f32 := constant S_ .f32 0x7F800000#32
  let main_v80 : FVec F S192x64 .f32 := broadcastInDim S192x64 ![] bcast_S_S192x64 main_cst_30
  let main_v81 : IVec S192x64 1 := cmpf .olt main_v79 main_v80
  let main_c_31 : IVec S_ 1 := constantI S_ 1 1#1
  let main_v82 : IVec S_ 1 := (fun x v => Host.reduce IntOp.andi x v reducesTo_S192x64_S_d0_1 h_S_) main_v81 main_c_31
  let main_v83 : IVec S_ 1 := andi main_v78 main_v82
  let main_v84 : FVec F S192x64 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S64 .f32) (main_arg12 : FVec F S64x192 .f32) (main_arg13 : FVec F S64 .f32) (main_arg14 : FVec F S1x64 .f32) (main_arg15 : FVec F S1 .f32) (main_arg16 : FVec F S192x64 .f32) (main_arg17 : FVec F S192x64 .f32) (main_arg18 : FVec F S192 .f32) (main_arg19 : FVec F S192 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x192 .f32 := Host.absf main_arg12
  let main_cst_22 : FVec F S_ .f32 := constant S_ .f32 0x7F800000#32
  let main_v60 : FVec F S64x192 .f32 := broadcastInDim S64x192 ![] bcast_S_S64x192 main_cst_22
  let main_v61 : IVec S64x192 1 := cmpf .olt main_v59 main_v60
  let main_c_23 : IVec S_ 1 := constantI S_ 1 1#1
  let main_v62 : IVec S_ 1 := (fun x v => Host.reduce IntOp.andi x v reducesTo_S64x192_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_arg19 main_v63 main_v67

def fn_part2 {F : FTy → Type} [FloatOps F] (main_arg7 : FVec F S64 .f32) (main_arg8 : FVec F S64x64 .f32) (main_arg9 : FVec F S64 .f32) (main_arg10 : FVec F S64x64 .f32) (main_arg11 : FVec F S64 .f32) (main_arg12 : FVec F S64x192 .f32) (main_arg13 : FVec F S64 .f32) (main_arg14 : FVec F S1x64 .f32) (main_arg15 : FVec F S1 .f32) (main_arg16 : FVec F S192x64 .f32) (main_arg17 : FVec F S192x64 .f32) (main_arg18 : FVec F S192 .f32) (main_arg19 : FVec F S192 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x192 .f32) (main_arg13 : FVec F S64 .f32) (main_arg14 : FVec F S1x64 .f32) (main_arg15 : FVec F S1 .f32) (main_arg16 : FVec F S192x64 .f32) (main_arg17 : FVec F S192x64 .f32) (main_arg18 : FVec F S192 .f32) (main_arg19 : FVec F S192 .f32) (main_v13 : IVec S_ 1) (main_v16 : IVec S4096x64x64 1) : IVec S_ 1 :=
  let main_c_5 : IVec S_ 1 := constantI S_ 1 1#1
  let main_v17 : IVec S_ 1 := (fun x v => Host.reduce IntOp.andi x v reducesTo_S4096x64x64_S_d0_1_2 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S4096x64x64 .f32) (main_arg1 : FVec F S4096x64x64 .f32) (main_arg2 : FVec F S4096x64x64 .f32) (main_arg3 : FVec F S4096x64x64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x192 .f32) (main_arg13 : FVec F S64 .f32) (main_arg14 : FVec F S1x64 .f32) (main_arg15 : FVec F S1 .f32) (main_arg16 : FVec F S192x64 .f32) (main_arg17 : FVec F S192x64 .f32) (main_arg18 : FVec F S192 .f32) (main_arg19 : FVec F S192 .f32) : IVec S_ 1 :=
  let main_v0 : FVec F S4096x64x64 .f32 := Host.absf main_arg0
  let main_cst : FVec F S_ .f32 := constant S_ .f32 0x7F800000#32
  let main_v1 : FVec F S4096x64x64 .f32 := broadcastInDim S4096x64x64 ![] bcast_S_S4096x64x64 main_cst
  let main_v2 : IVec S4096x64x64 1 := cmpf .olt main_v0 main_v1
  let main_c : IVec S_ 1 := constantI S_ 1 1#1
  let main_v3 : IVec S_ 1 := (fun x v => Host.reduce IntOp.andi x v reducesTo_S4096x64x64_S_d0_1_2 h_S_) main_v2 main_c
  let main_v4 : FVec F S4096x64x64 .f32 := Host.absf main_arg1
  let main_cst_0 : FVec F S_ .f32 := constant S_ .f32 0x7F800000#32
  let main_v5 : FVec F S4096x64x64 .f32 := broadcastInDim S4096x64x64 ![] bcast_S_S4096x64x64 main_cst_0
  let main_v6 : IVec S4096x64x64 1 := cmpf .olt main_v4 main_v5
  let main_c_1 : IVec S_ 1 := constantI S_ 1 1#1
  let main_v7 : IVec S_ 1 := (fun x v => Host.reduce IntOp.andi x v reducesTo_S4096x64x64_S_d0_1_2 h_S_) main_v6 main_c_1
  let main_v8 : IVec S_ 1 := andi main_v3 main_v7
  let main_v9 : FVec F S4096x64x64 .f32 := Host.absf main_arg2
  let main_cst_2 : FVec F S_ .f32 := constant S_ .f32 0x7F800000#32
  let main_v10 : FVec F S4096x64x64 .f32 := broadcastInDim S4096x64x64 ![] bcast_S_S4096x64x64 main_cst_2
  let main_v11 : IVec S4096x64x64 1 := cmpf .olt main_v9 main_v10
  let main_c_3 : IVec S_ 1 := constantI S_ 1 1#1
  let main_v12 : IVec S_ 1 := (fun x v => Host.reduce IntOp.andi x v reducesTo_S4096x64x64_S_d0_1_2 h_S_) main_v11 main_c_3
  let main_v13 : IVec S_ 1 := andi main_v8 main_v12
  let main_v14 : FVec F S4096x64x64 .f32 := Host.absf main_arg3
  let main_cst_4 : FVec F S_ .f32 := constant S_ .f32 0x7F800000#32
  let main_v15 : FVec F S4096x64x64 .f32 := broadcastInDim S4096x64x64 ![] bcast_S_S4096x64x64 main_cst_4
  let main_v16 : IVec S4096x64x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S4096x64x64 : Shape := ⟨3, ![4096, 64, 64]⟩
abbrev S64x64 : Shape := ⟨2, ![64, 64]⟩
abbrev S64 : Shape := ⟨1, ![64]⟩
abbrev S64x192 : Shape := ⟨2, ![64, 192]⟩
abbrev S1x64 : Shape := ⟨2, ![1, 64]⟩
abbrev S1 : Shape := ⟨1, ![1]⟩
abbrev S192x64 : Shape := ⟨2, ![192, 64]⟩
abbrev S192 : Shape := ⟨1, ![192]⟩
abbrev S_ : Shape := ⟨0, ![]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S64x1 : Shape := ⟨2, ![64, 1]⟩
abbrev S64x257 : Shape := ⟨2, ![64, 257]⟩
abbrev S128x257 : Shape := ⟨2, ![128, 257]⟩
abbrev S257 : Shape := ⟨1, ![257]⟩
abbrev S1x257 : Shape := ⟨2, ![1, 257]⟩
abbrev S4096x64 : Shape := ⟨2, ![4096, 64]⟩
abbrev S128x64x64 : Shape := ⟨3, ![128, 64, 64]⟩
abbrev S128x64 : Shape := ⟨2, ![128, 64]⟩
abbrev S8192x64 : Shape := ⟨2, ![8192, 64]⟩
abbrev S128x128x64 : Shape := ⟨3, ![128, 128, 64]⟩
abbrev S128x64x128 : Shape := ⟨3, ![128, 64, 128]⟩
abbrev S8192x128 : Shape := ⟨2, ![8192, 128]⟩
abbrev S8192x192 : Shape := ⟨2, ![8192, 192]⟩
abbrev S8192x257 : Shape := ⟨2, ![8192, 257]⟩
abbrev S8192x1 : Shape := ⟨2, ![8192, 1]⟩
abbrev S4096x64x1 : Shape := ⟨3, ![4096, 64, 1]⟩

abbrev nBuf : Space → Nat
  | .hbm => 64
  | .vmem => 22
  | .smem => 0
  | _ => 0

abbrev bufTy : (tb : Table) → Fin (tcTables nBuf tb) → BufTy
  | .hbm, ⟨0, _⟩ => ⟨S4096x64x64, .f32⟩
  | .hbm, ⟨1, _⟩ => ⟨S4096x64x64, .f32⟩
  | .hbm, ⟨2, _⟩ => ⟨S4096x64x64, .f32⟩
  | .hbm, ⟨3, _⟩ => ⟨S4096x64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x192, .f32⟩
  | .hbm, ⟨13, _⟩ => ⟨S64, .f32⟩
  | .hbm, ⟨14, _⟩ => ⟨S1x64, .f32⟩
  | .hbm, ⟨15, _⟩ => ⟨S1, .f32⟩
  | .hbm, ⟨16, _⟩ => ⟨S192x64, .f32⟩
  | .hbm, ⟨17, _⟩ => ⟨S192x64, .f32⟩
  | .hbm, ⟨18, _⟩ => ⟨S192, .f32⟩
  | .hbm, ⟨19, _⟩ => ⟨S192, .f32⟩
  | .hbm, ⟨20, _⟩ => ⟨S64x64, .f32⟩
  | .hbm, ⟨21, _⟩ => ⟨S1x64, .f32⟩
  | .hbm, ⟨22, _⟩ => ⟨S64x64, .f32⟩
  | .hbm, ⟨23, _⟩ => ⟨S1x64, .f32⟩
  | .hbm, ⟨24, _⟩ => ⟨S64x64, .f32⟩
  | .hbm, ⟨25, _⟩ => ⟨S64x64, .f32⟩
  | .hbm, ⟨26, _⟩ => ⟨S_, .f32⟩
  | .hbm, ⟨27, _⟩ => ⟨S64x64, .f32⟩
  | .hbm, ⟨28, _⟩ => ⟨S64x128, .f32⟩
  | .hbm, ⟨29, _⟩ => ⟨S64x128, .f32⟩
  | .hbm, ⟨30, _⟩ => ⟨S128x128, .f32⟩
  | .hbm, ⟨31, _⟩ => ⟨S128, .f32⟩
  | .hbm, ⟨32, _⟩ => ⟨S1x128, .f32⟩
  | .hbm, ⟨33, _⟩ => ⟨S192x64, .f32⟩
  | .hbm, ⟨34, _⟩ => ⟨S1x64, .f32⟩
  | .hbm, ⟨35, _⟩ => ⟨S64x192, .f32⟩
  | .hbm, ⟨36, _⟩ => ⟨S64x192, .f32⟩
  | .hbm, ⟨37, _⟩ => ⟨S64x64, .f32⟩
  | .hbm, ⟨38, _⟩ => ⟨S64x64, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x1, .f32⟩
  | .hbm, ⟨44, _⟩ => ⟨S_, .f32⟩
  | .hbm, ⟨45, _⟩ => ⟨S64x64, .f32⟩
  | .hbm, ⟨46, _⟩ => ⟨S_, .f32⟩
  | .hbm, ⟨47, _⟩ => ⟨S64x1, .f32⟩
  | .hbm, ⟨48, _⟩ => ⟨S64x257, .f32⟩
  | .hbm, ⟨49, _⟩ => ⟨S64x257, .f32⟩
  | .hbm, ⟨50, _⟩ => ⟨S128x257, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S64, .f32⟩
  | .hbm, ⟨56, _⟩ => ⟨S64, .f32⟩
  | .hbm, ⟨57, _⟩ => ⟨S64, .f32⟩
  | .hbm, ⟨58, _⟩ => ⟨S64, .f32⟩
  | .hbm, ⟨59, _⟩ => ⟨S257, .f32⟩
  | .hbm, ⟨60, _⟩ => ⟨S1x257, .f32⟩
  | .hbm, ⟨61, _⟩ => ⟨S4096x64, .f32⟩
  | .hbm, ⟨62, _⟩ => ⟨S4096x64x64, .f32⟩
  | .hbm, ⟨63, _⟩ => ⟨S4096x64x1, .f32⟩
  | .local _ .vmem, ⟨0, _⟩ => ⟨S128x64x64, .f32⟩
  | .local _ .vmem, ⟨1, _⟩ => ⟨S128x64x64, .f32⟩
  | .local _ .vmem, ⟨2, _⟩ => ⟨S128x64x64, .f32⟩
  | .local _ .vmem, ⟨3, _⟩ => ⟨S128x64x64, .f32⟩
  | .local _ .vmem, ⟨4, _⟩ => ⟨S128x64x64, .f32⟩
  | .local _ .vmem, ⟨5, _⟩ => ⟨S128x64x64, .f32⟩
  | .local _ .vmem, ⟨6, _⟩ => ⟨S128x64x64, .f32⟩
  | .local _ .vmem, ⟨7, _⟩ => ⟨S128x64x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S128x128, .f32⟩
  | .local _ .vmem, ⟨13, _⟩ => ⟨S1x128, .f32⟩
  | .local _ .vmem, ⟨14, _⟩ => ⟨S192x64, .f32⟩
  | .local _ .vmem, ⟨15, _⟩ => ⟨S1x64, .f32⟩
  | .local _ .vmem, ⟨16, _⟩ => ⟨S128x257, .f32⟩
  | .local _ .vmem, ⟨17, _⟩ => ⟨S1x257, .f32⟩
  | .local _ .vmem, ⟨18, _⟩ => ⟨S128x64, .f32⟩
  | .local _ .vmem, ⟨19, _⟩ => ⟨S128x64, .f32⟩
  | .local _ .vmem, ⟨20, _⟩ => ⟨S128x64x64, .f32⟩
  | .local _ .vmem, ⟨21, _⟩ => ⟨S128x64x64, .f32⟩
  | _, _ => ⟨S4096x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_cst : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_0 : Ref sig .tc := ⟨.hbm, 44, rfl⟩
abbrev main_v23 : Ref sig .tc := ⟨.hbm, 45, rfl⟩
abbrev main_cst_1 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38_0 : Ref sig .tc := ⟨.hbm, 61, rfl⟩
abbrev main_v38_1 : Ref sig .tc := ⟨.hbm, 62, rfl⟩
abbrev main_v39 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S192x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x257 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x257 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S128x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x64x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  transposes_S64x64_S64x64_1_0 : S64x64.Transposes [1, 0] S64x64
  shapeCasts_S64_S1x64 : S64.ShapeCasts S1x64
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  shapeCasts_S128_S1x128 : S128.ShapeCasts S1x128
  transposes_S64x192_S192x64_1_0 : S64x192.Transposes [1, 0] S192x64
  transposes_S192x64_S64x192_1_0 : S192x64.Transposes [1, 0] S64x192
  slices_S64x192_S64x64_0_0 : S64x192.Slices ![0, 0] S64x64
  slices_S64x192_S64x64_0_64 : S64x192.Slices ![0, 64] S64x64
  slices_S64x192_S64x64_0_128 : S64x192.Slices ![0, 128] S64x64
  transposes_S1x64_S64x1_1_0 : S1x64.Transposes [1, 0] S64x1
  bcast_S_S64x1 : S_.BroadcastsInDim S64x1 (![] : Fin 0 → Fin S64x1.rank)
  concatenates_S64x64_S64x64_S64x64_S64x64_S64x1_S64x257_d1 : Shape.Concatenates [S64x64, S64x64, S64x64, S64x64, S64x1] S64x257 1
  concatenates_S64x257_S64x257_S128x257_d0 : Shape.Concatenates [S64x257, S64x257] S128x257 0
  slices_S192_S64_0 : S192.Slices ![0] S64
  slices_S192_S64_64 : S192.Slices ![64] S64
  slices_S192_S64_128 : S192.Slices ![128] S64
  concatenates_S64_S64_S64_S64_S1_S257_d0 : Shape.Concatenates [S64, S64, S64, S64, S1] S257 0
  shapeCasts_S257_S1x257 : S257.ShapeCasts S1x257
  inb_S128x64x64_S128x64x64_0_0_0 : ∀ a, (![0, 0, 0] : Fin 3 → Nat) a + S128x64x64.size a ≤ S128x64x64.size a
  h_S128x64x64 : 0 < S128x64x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S192x64_S192x64_0_0 : ∀ a, (![0, 0] : Fin 2 → Nat) a + S192x64.size a ≤ S192x64.size a
  h_S192x64 : 0 < S192x64.numel
  shapeCasts_S192x64_S192x64 : S192x64.ShapeCasts S192x64
  inb_S128x257_S128x257_0_0 : ∀ a, (![0, 0] : Fin 2 → Nat) a + S128x257.size a ≤ S128x257.size a
  h_S128x257 : 0 < S128x257.numel
  shapeCasts_S128x257_S128x257 : S128x257.ShapeCasts S128x257
  inb_S1x257_S1x257_0_0 : ∀ a, (![0, 0] : Fin 2 → Nat) a + S1x257.size a ≤ S1x257.size a
  h_S1x257 : 0 < S1x257.numel
  shapeCasts_S1x257_S1x257 : S1x257.ShapeCasts S1x257
  shapeCasts_S128x64x64_S8192x64 : S128x64x64.ShapeCasts S8192x64
  broadcasts_S1x64_S8192x64 : S1x64.Broadcasts S8192x64
  shapeCasts_S8192x64_S128x64x64 : S8192x64.ShapeCasts S128x64x64
  concatenates_S128x64x64_S128x64x64_S128x128x64_d1 : Shape.Concatenates [S128x64x64, S128x64x64] S128x128x64 1
  slices_S128x128x64_o0_0_0_S128x64x64 : S128x128x64.Slices ![0, 0, 0] S128x64x64
  slices_S128x128x64_o0_64_0_S128x64x64 : S128x128x64.Slices ![0, 64, 0] S128x64x64
  concatenates_S128x64x64_S128x64x64_S128x64x128_d2 : Shape.Concatenates [S128x64x64, S128x64x64] S128x64x128 2
  shapeCasts_S128x64x128_S8192x128 : S128x64x128.ShapeCasts S8192x128
  broadcasts_S1x128_S8192x128 : S1x128.Broadcasts S8192x128
  concatenates_S8192x64_S8192x128_S8192x192_d1 : Shape.Concatenates [S8192x64, S8192x128] S8192x192 1
  concatenates_S8192x64_S8192x64_S8192x128_d1 : Shape.Concatenates [S8192x64, S8192x64] S8192x128 1
  broadcasts_S1x257_S8192x257 : S1x257.Broadcasts S8192x257
  slices_S8192x257_o0_0_S8192x64 : S8192x257.Slices ![0, 0] S8192x64
  slices_S8192x257_o0_64_S8192x64 : S8192x257.Slices ![0, 64] S8192x64
  slices_S8192x257_o0_128_S8192x64 : S8192x257.Slices ![0, 128] S8192x64
  slices_S8192x257_o0_192_S8192x64 : S8192x257.Slices ![0, 192] S8192x64
  slices_S8192x257_o0_256_S8192x1 : S8192x257.Slices ![0, 256] S8192x1
  shapeCasts_S8192x1_S128x64 : S8192x1.ShapeCasts S128x64
  inb_S128x64_S128x64_0_0 : ∀ a, (![0, 0] : Fin 2 → Nat) a + S128x64.size a ≤ S128x64.size a
  h_S128x64 : 0 < S128x64.numel
  shapeCasts_S4096x64_S4096x64x1 : S4096x64.ShapeCasts S4096x64x1
  dot_S8192x64_S64x64_S8192x64_1_0_0_1_n_n_wf : DotDims.WF S8192x64 S64x64 S8192x64 [1] [0] [0] [1] [] []
  dot_S128x128x64_S128x64x64_S128x128x64_2_1_1_2_0_0_wf : DotDims.WF S128x128x64 S128x64x64 S128x128x64 [2] [1] [1] [2] [0] [0]
  dot_S8192x128_S128x128_S8192x128_1_0_0_1_n_n_wf : DotDims.WF S8192x128 S128x128 S8192x128 [1] [0] [0] [1] [] []
  dot_S8192x192_S192x64_S8192x64_1_0_0_1_n_n_wf : DotDims.WF S8192x192 S192x64 S8192x64 [1] [0] [0] [1] [] []
  dot_S8192x128_S128x257_S8192x257_1_0_0_1_n_n_wf : DotDims.WF S8192x128 S128x257 S8192x257 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x64.size a ≤ S4096x64x64.size a
  hwx0_0 : ∀ i : grid0.Coords, EltTy.bits .f32 = 32 ∨ (Rect.block (s := S4096x64x64) S128x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x64.size a ≤ S4096x64x64.size a
  hwx0_1 : ∀ i : grid0.Coords, EltTy.bits .f32 = 32 ∨ (Rect.block (s := S4096x64x64) S128x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64x64.size a ≤ S4096x64x64.size a
  hwx0_2 : ∀ i : grid0.Coords, EltTy.bits .f32 = 32 ∨ (Rect.block (s := S4096x64x64) S128x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x64x64.size a ≤ S4096x64x64.size a
  hwx0_3 : ∀ i : grid0.Coords, EltTy.bits .f32 = 32 ∨ (Rect.block (s := S4096x64x64) S128x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S192x64.size a ≤ S192x64.size a
  hwx0_10 : ∀ i : grid0.Coords, EltTy.bits .f32 = 32 ∨ (Rect.block (s := S192x64) S192x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x257.size a ≤ S128x257.size a
  hwx0_12 : ∀ i : grid0.Coords, EltTy.bits .f32 = 32 ∨ (Rect.block (s := S128x257) S128x257.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x257.size a ≤ S1x257.size a
  hwx0_13 : ∀ i : grid0.Coords, EltTy.bits .f32 = 32 ∨ (Rect.block (s := S1x257) S1x257.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S128x64.size a ≤ S4096x64.size a
  hwx0_14 : ∀ i : grid0.Coords, EltTy.bits .f32 = 32 ∨ (Rect.block (s := S4096x64) S128x64.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S128x64x64.size a ≤ S4096x64x64.size a
  hwx0_15 : ∀ i : grid0.Coords, EltTy.bits .f32 = 32 ∨ (Rect.block (s := S4096x64x64) S128x64x64.size (cc0_transform_15 i) (hinb0_15 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S128x128x64_S128x64x64_S128x128x64_2_1_1_2_0_0 : DotDims S128x128x64 S128x64x64 S128x128x64 where
  lhsContracting := [2]
  rhsContracting := [1]
  lhsNonContracting := [1]
  rhsNonContracting := [2]
  lhsBatch := [0]
  rhsBatch := [0]
  wf := dot_S128x128x64_S128x64x64_S128x128x64_2_1_1_2_0_0_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x192_S192x64_S8192x64_1_0_0_1_n_n : DotDims S8192x192 S192x64 S8192x64 where
  lhsContracting := [1]
  rhsContracting := [0]
  lhsNonContracting := [0]
  rhsNonContracting := [1]
  lhsBatch := []
  rhsBatch := []
  wf := dot_S8192x192_S192x64_S8192x64_1_0_0_1_n_n_wf
def dot_S8192x128_S128x257_S8192x257_1_0_0_1_n_n : DotDims S8192x128 S128x257 S8192x257 where
  lhsContracting := [1]
  rhsContracting := [0]
  lhsNonContracting := [0]
  rhsNonContracting := [1]
  lhsBatch := []
  rhsBatch := []
  wf := dot_S8192x128_S128x257_S8192x257_1_0_0_1_n_n_wf

abbrev win0_0 : Pipeline.Window sig grid0 :=
  Pipeline.Window.ofSpec (Memref.whole main_arg0) S128x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S192x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v27) S128x257.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v37) S1x257.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v38_0) S128x64.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v38_1) S128x64x64.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S4096x64x64 : Shape := ⟨3, ![4096, 64, 64]⟩
abbrev S64x64 : Shape := ⟨2, ![64, 64]⟩
abbrev S64 : Shape := ⟨1, ![64]⟩
abbrev S64x192 : Shape := ⟨2, ![64, 192]⟩
abbrev S1x64 : Shape := ⟨2, ![1, 64]⟩
abbrev S1 : Shape := ⟨1, ![1]⟩
abbrev S192x64 : Shape := ⟨2, ![192, 64]⟩
abbrev S192 : Shape := ⟨1, ![192]⟩
abbrev S1x1x64 : Shape := ⟨3, ![1, 1, 64]⟩
abbrev S_ : Shape := ⟨0, ![]⟩
abbrev S4096x64x192 : Shape := ⟨3, ![4096, 64, 192]⟩
abbrev S1x1x192 : Shape := ⟨3, ![1, 1, 192]⟩
abbrev S4096x64x1 : Shape := ⟨3, ![4096, 64, 1]⟩
abbrev S1x1x1 : Shape := ⟨3, ![1, 1, 1]⟩

abbrev nBuf : Space → Nat
  | .hbm => 111
  | .vmem => 0
  | .smem => 0
  | _ => 0

abbrev bufTy : (tb : Table) → Fin (tcTables nBuf tb) → BufTy
  | .hbm, ⟨0, _⟩ => ⟨S4096x64x64, .f32⟩
  | .hbm, ⟨1, _⟩ => ⟨S4096x64x64, .f32⟩
  | .hbm, ⟨2, _⟩ => ⟨S4096x64x64, .f32⟩
  | .hbm, ⟨3, _⟩ => ⟨S4096x64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x192, .f32⟩
  | .hbm, ⟨13, _⟩ => ⟨S64, .f32⟩
  | .hbm, ⟨14, _⟩ => ⟨S1x64, .f32⟩
  | .hbm, ⟨15, _⟩ => ⟨S1, .f32⟩
  | .hbm, ⟨16, _⟩ => ⟨S192x64, .f32⟩
  | .hbm, ⟨17, _⟩ => ⟨S192x64, .f32⟩
  | .hbm, ⟨18, _⟩ => ⟨S192, .f32⟩
  | .hbm, ⟨19, _⟩ => ⟨S192, .f32⟩
  | .hbm, ⟨20, _⟩ => ⟨S4096x64x64, .f32⟩
  | .hbm, ⟨21, _⟩ => ⟨S1x1x64, .f32⟩
  | .hbm, ⟨22, _⟩ => ⟨S4096x64x64, .f32⟩
  | .hbm, ⟨23, _⟩ => ⟨S4096x64x64, .f32⟩
  | .hbm, ⟨24, _⟩ => ⟨S_, .f32⟩
  | .hbm, ⟨25, _⟩ => ⟨S4096x64x64, .f32⟩
  | .hbm, ⟨26, _⟩ => ⟨S4096x64x64, .f32⟩
  | .hbm, ⟨27, _⟩ => ⟨S4096x64x64, .f32⟩
  | .hbm, ⟨28, _⟩ => ⟨S1x1x64, .f32⟩
  | .hbm, ⟨29, _⟩ => ⟨S4096x64x64, .f32⟩
  | .hbm, ⟨30, _⟩ => ⟨S4096x64x64, .f32⟩
  | .hbm, ⟨31, _⟩ => ⟨S_, .f32⟩
  | .hbm, ⟨32, _⟩ => ⟨S4096x64x64, .f32⟩
  | .hbm, ⟨33, _⟩ => ⟨S4096x64x64, .f32⟩
  | .hbm, ⟨34, _⟩ => ⟨S4096x64x64, .f32⟩
  | .hbm, ⟨35, _⟩ => ⟨S4096x64x64, .f32⟩
  | .hbm, ⟨36, _⟩ => ⟨S1x1x64, .f32⟩
  | .hbm, ⟨37, _⟩ => ⟨S4096x64x64, .f32⟩
  | .hbm, ⟨38, _⟩ => ⟨S4096x64x64, .f32⟩
  | .hbm, ⟨39, _⟩ => ⟨S_, .f32⟩
  | .hbm, ⟨40, _⟩ => ⟨S4096x64x64, .f32⟩
  | .hbm, ⟨41, _⟩ => ⟨S4096x64x64, .f32⟩
  | .hbm, ⟨42, _⟩ => ⟨S4096x64x64, .f32⟩
  | .hbm, ⟨43, _⟩ => ⟨S4096x64x64, .f32⟩
  | .hbm, ⟨44, _⟩ => ⟨S1x1x64, .f32⟩
  | .hbm, ⟨45, _⟩ => ⟨S4096x64x64, .f32⟩
  | .hbm, ⟨46, _⟩ => ⟨S4096x64x64, .f32⟩
  | .hbm, ⟨47, _⟩ => ⟨S_, .f32⟩
  | .hbm, ⟨48, _⟩ => ⟨S4096x64x64, .f32⟩
  | .hbm, ⟨49, _⟩ => ⟨S4096x64x64, .f32⟩
  | .hbm, ⟨50, _⟩ => ⟨S4096x64x192, .f32⟩
  | .hbm, ⟨51, _⟩ => ⟨S4096x64x64, .f32⟩
  | .hbm, ⟨52, _⟩ => ⟨S1x1x64, .f32⟩
  | .hbm, ⟨53, _⟩ => ⟨S4096x64x64, .f32⟩
  | .hbm, ⟨54, _⟩ => ⟨S4096x64x64, .f32⟩
  | .hbm, ⟨55, _⟩ => ⟨S_, .f32⟩
  | .hbm, ⟨56, _⟩ => ⟨S4096x64x64, .f32⟩
  | .hbm, ⟨57, _⟩ => ⟨S4096x64x64, .f32⟩
  | .hbm, ⟨58, _⟩ => ⟨S4096x64x192, .f32⟩
  | .hbm, ⟨59, _⟩ => ⟨S1x1x192, .f32⟩
  | .hbm, ⟨60, _⟩ => ⟨S4096x64x192, .f32⟩
  | .hbm, ⟨61, _⟩ => ⟨S4096x64x192, .f32⟩
  | .hbm, ⟨62, _⟩ => ⟨S4096x64x192, .f32⟩
  | .hbm, ⟨63, _⟩ => ⟨S1x1x192, .f32⟩
  | .hbm, ⟨64, _⟩ => ⟨S4096x64x192, .f32⟩
  | .hbm, ⟨65, _⟩ => ⟨S4096x64x192, .f32⟩
  | .hbm, ⟨66, _⟩ => ⟨S4096x64x64, .f32⟩
  | .hbm, ⟨67, _⟩ => ⟨S4096x64x64, .f32⟩
  | .hbm, ⟨68, _⟩ => ⟨S4096x64x64, .f32⟩
  | .hbm, ⟨69, _⟩ => ⟨S4096x64x64, .f32⟩
  | .hbm, ⟨70, _⟩ => ⟨S4096x64x64, .f32⟩
  | .hbm, ⟨71, _⟩ => ⟨S4096x64x64, .f32⟩
  | .hbm, ⟨72, _⟩ => ⟨S4096x64x64, .f32⟩
  | .hbm, ⟨73, _⟩ => ⟨S4096x64x64, .f32⟩
  | .hbm, ⟨74, _⟩ => ⟨S4096x64x64, .f32⟩
  | .hbm, ⟨75, _⟩ => ⟨S_, .f32⟩
  | .hbm, ⟨76, _⟩ => ⟨S4096x64x64, .f32⟩
  | .hbm, ⟨77, _⟩ => ⟨S4096x64x64, .f32⟩
  | .hbm, ⟨78, _⟩ => ⟨S_, .f32⟩
  | .hbm, ⟨79, _⟩ => ⟨S4096x64x64, .f32⟩
  | .hbm, ⟨80, _⟩ => ⟨S4096x64x64, .f32⟩
  | .hbm, ⟨81, _⟩ => ⟨S4096x64x64, .f32⟩
  | .hbm, ⟨82, _⟩ => ⟨S4096x64x64, .f32⟩
  | .hbm, ⟨83, _⟩ => ⟨S4096x64x64, .f32⟩
  | .hbm, ⟨84, _⟩ => ⟨S_, .f32⟩
  | .hbm, ⟨85, _⟩ => ⟨S4096x64x64, .f32⟩
  | .hbm, ⟨86, _⟩ => ⟨S4096x64x64, .f32⟩
  | .hbm, ⟨87, _⟩ => ⟨S_, .f32⟩
  | .hbm, ⟨88, _⟩ => ⟨S4096x64x64, .f32⟩
  | .hbm, ⟨89, _⟩ => ⟨S4096x64x64, .f32⟩
  | .hbm, ⟨90, _⟩ => ⟨S4096x64x64, .f32⟩
  | .hbm, ⟨91, _⟩ => ⟨S4096x64x64, .f32⟩
  | .hbm, ⟨92, _⟩ => ⟨S4096x64x64, .f32⟩
  | .hbm, ⟨93, _⟩ => ⟨S_, .f32⟩
  | .hbm, ⟨94, _⟩ => ⟨S4096x64x64, .f32⟩
  | .hbm, ⟨95, _⟩ => ⟨S4096x64x64, .f32⟩
  | .hbm, ⟨96, _⟩ => ⟨S4096x64x64, .f32⟩
  | .hbm, ⟨97, _⟩ => ⟨S4096x64x64, .f32⟩
  | .hbm, ⟨98, _⟩ => ⟨S4096x64x64, .f32⟩
  | .hbm, ⟨99, _⟩ => ⟨S4096x64x1, .f32⟩
  | .hbm, ⟨100, _⟩ => ⟨S1x1x1, .f32⟩
  | .hbm, ⟨101, _⟩ => ⟨S4096x64x1, .f32⟩
  | .hbm, ⟨102, _⟩ => ⟨S4096x64x1, .f32⟩
  | .hbm, ⟨103, _⟩ => ⟨S4096x64x1, .f32⟩
  | .hbm, ⟨104, _⟩ => ⟨S4096x64x1, .f32⟩
  | .hbm, ⟨105, _⟩ => ⟨S_, .f32⟩
  | .hbm, ⟨106, _⟩ => ⟨S4096x64x1, .f32⟩
  | .hbm, ⟨107, _⟩ => ⟨S4096x64x1, .f32⟩
  | .hbm, ⟨108, _⟩ => ⟨S_, .f32⟩
  | .hbm, ⟨109, _⟩ => ⟨S4096x64x1, .f32⟩
  | .hbm, ⟨110, _⟩ => ⟨S4096x64x1, .f32⟩
  | _, _ => ⟨S4096x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_call0_cst : Ref sig .tc := ⟨.hbm, 24, rfl⟩
abbrev main_call0_v0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_call1_cst : Ref sig .tc := ⟨.hbm, 31, rfl⟩
abbrev main_call1_v0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_call2_cst : Ref sig .tc := ⟨.hbm, 39, rfl⟩
abbrev main_call2_v0 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_call3_cst : Ref sig .tc := ⟨.hbm, 47, rfl⟩
abbrev main_call3_v0 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_call4_cst : Ref sig .tc := ⟨.hbm, 55, rfl⟩
abbrev main_call4_v0 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst : Ref sig .tc := ⟨.hbm, 75, rfl⟩
abbrev main_v45 : Ref sig .tc := ⟨.hbm, 76, rfl⟩
abbrev main_v46 : Ref sig .tc := ⟨.hbm, 77, rfl⟩
abbrev main_cst_0 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_1 : Ref sig .tc := ⟨.hbm, 84, rfl⟩
abbrev main_v52 : Ref sig .tc := ⟨.hbm, 85, rfl⟩
abbrev main_v53 : Ref sig .tc := ⟨.hbm, 86, rfl⟩
abbrev main_cst_2 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_3 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_4 : Ref sig .tc := ⟨.hbm, 105, rfl⟩
abbrev main_v70 : Ref sig .tc := ⟨.hbm, 106, rfl⟩
abbrev main_v71 : Ref sig .tc := ⟨.hbm, 107, rfl⟩
abbrev main_cst_5 : Ref sig .tc := ⟨.hbm, 108, rfl⟩
abbrev main_v72 : Ref sig .tc := ⟨.hbm, 109, rfl⟩
abbrev main_v73 : Ref sig .tc := ⟨.hbm, 110, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4096x64x64_0_1_2 : S1x1x64.BroadcastsInDim S4096x64x64 (![0, 1, 2] : Fin 3 → Fin S4096x64x64.rank)
  bcast_S_S4096x64x64 : S_.BroadcastsInDim S4096x64x64 (![] : Fin 0 → Fin S4096x64x64.rank)
  concatenates_S4096x64x64_S4096x64x64_S4096x64x64_S4096x64x192_d2 : Shape.Concatenates [S4096x64x64, S4096x64x64, S4096x64x64] S4096x64x192 2
  bcast_S192_S1x1x192_2 : S192.BroadcastsInDim S1x1x192 (![2] : Fin 1 → Fin S1x1x192.rank)
  bcast_S1x1x192_S4096x64x192_0_1_2 : S1x1x192.BroadcastsInDim S4096x64x192 (![0, 1, 2] : Fin 3 → Fin S4096x64x192.rank)
  slices_S4096x64x192_S4096x64x64_0_0_0 : S4096x64x192.Slices ![0, 0, 0] S4096x64x64
  slices_S4096x64x192_S4096x64x64_0_0_64 : S4096x64x192.Slices ![0, 0, 64] S4096x64x64
  slices_S4096x64x192_S4096x64x64_0_0_128 : S4096x64x192.Slices ![0, 0, 128] S4096x64x64
  bcast_S1_S1x1x1_2 : S1.BroadcastsInDim S1x1x1 (![2] : Fin 1 → Fin S1x1x1.rank)
  bcast_S1x1x1_S4096x64x1_0_1_2 : S1x1x1.BroadcastsInDim S4096x64x1 (![0, 1, 2] : Fin 3 → Fin S4096x64x1.rank)
  bcast_S_S4096x64x1 : S_.BroadcastsInDim S4096x64x1 (![] : Fin 0 → Fin S4096x64x1.rank)
  dot_S4096x64x64_S64x64_S4096x64x64_2_1_01_0_n_n_wf : DotDims.WF S4096x64x64 S64x64 S4096x64x64 [2] [1] [0, 1] [0] [] []
  dot_S4096x64x64_S4096x64x64_S4096x64x64_2_1_1_2_0_0_wf : DotDims.WF S4096x64x64 S4096x64x64 S4096x64x64 [2] [1] [1] [2] [0] [0]
  dot_S4096x64x192_S64x192_S4096x64x64_2_1_01_0_n_n_wf : DotDims.WF S4096x64x192 S64x192 S4096x64x64 [2] [1] [0, 1] [0] [] []
  dot_S4096x64x64_S192x64_S4096x64x192_2_1_01_0_n_n_wf : DotDims.WF S4096x64x64 S192x64 S4096x64x192 [2] [1] [0, 1] [0] [] []
  dot_S4096x64x64_S1x64_S4096x64x1_2_1_01_0_n_n_wf : DotDims.WF S4096x64x64 S1x64 S4096x64x1 [2] [1] [0, 1] [0] [] []

variable [Facts₀]

def dot_S4096x64x64_S64x64_S4096x64x64_2_1_01_0_n_n : DotDims S4096x64x64 S64x64 S4096x64x64 where
  lhsContracting := [2]
  rhsContracting := [1]
  lhsNonContracting := [0, 1]
  rhsNonContracting := [0]
  lhsBatch := []
  rhsBatch := []
  wf := dot_S4096x64x64_S64x64_S4096x64x64_2_1_01_0_n_n_wf
def dot_S4096x64x64_S4096x64x64_S4096x64x64_2_1_1_2_0_0 : DotDims S4096x64x64 S4096x64x64 S4096x64x64 where
  lhsContracting := [2]
  rhsContracting := [1]
  lhsNonContracting := [1]
  rhsNonContracting := [2]
  lhsBatch := [0]
  rhsBatch := [0]
  wf := dot_S4096x64x64_S4096x64x64_S4096x64x64_2_1_1_2_0_0_wf
def dot_S4096x64x192_S64x192_S4096x64x64_2_1_01_0_n_n : DotDims S4096x64x192 S64x192 S4096x64x64 where
  lhsContracting := [2]
  rhsContracting := [1]
  lhsNonContracting := [0, 1]
  rhsNonContracting := [0]
  lhsBatch := []
  rhsBatch := []
  wf := dot_S4096x64x192_S64x192_S4096x64x64_2_1_01_0_n_n_wf
def dot_S4096x64x64_S192x64_S4096x64x192_2_1_01_0_n_n : DotDims S4096x64x64 S192x64 S4096x64x192 where
  lhsContracting := [2]
  rhsContracting := [1]
  lhsNonContracting := [0, 1]
  rhsNonContracting := [0]
  lhsBatch := []
  rhsBatch := []
  wf := dot_S4096x64x64_S192x64_S4096x64x192_2_1_01_0_n_n_wf
def dot_S4096x64x64_S1x64_S4096x64x1_2_1_01_0_n_n : DotDims S4096x64x64 S1x64 S4096x64x1 where
  lhsContracting := [2]
  rhsContracting := [1]
  lhsNonContracting := [0, 1]
  rhsNonContracting := [0]
  lhsBatch := []
  rhsBatch := []
  wf := dot_S4096x64x64_S1x64_S4096x64x1_2_1_01_0_n_n_wf

class Facts : Prop extends Facts₀ where

variable [Facts]
-- ==== Proof.KDefsB.lean ====
/-
  What the kernel body stores, as pure functions of the fourteen input blocks it loads.

  The body loads each input block whole, computes, and stores two values whole: the new hidden vectors into the
  128 × 64 × 64 output block and the output head into the 128 × 64 one. Each stored value is the body's arithmetic,
  already named piece by piece by the generated payload definitions, applied to the loaded blocks. The blocks are
  numbered by window: 0 the node states, 1 and 2 the two adjacency blocks, 3 the hidden vectors, 4 to 13 the ten
  parameter arrays. (The body's own value numbering loads the hidden block second: hence the order of the first
  four arguments below.)
-/
import proofs.«402217_j80994493268285_3_alg».proof.Proof.Gen.Kernel.Skeleton

noncomputable section

namespace Cert.Kernel.KD

open Idealize.ShloMosaic Cert.Kernel Cert.Kernel.Gen

variable {F : FTy → Type} [FloatOps F]

/-- The value stored into the hidden-vector output block. -/
def hBlk (x0 x1 x2 x3 : Vec F S128x64x64 .f32) (x4 : Vec F S64x64 .f32) (x5 : Vec F S1x64 .f32) (x6 : Vec F S64x64 .f32) (x7 : Vec F S1x64 .f32) (x8 : Vec F S128x128 .f32) (x9 : Vec F S1x128 .f32) (x10 : Vec F S192x64 .f32) (x11 : Vec F S1x64 .f32) (x12 : Vec F S128x257 .f32) (x13 : Vec F S1x257 .f32) : FVec F S128x64x64 .f32 :=
  k0_pay1 (k0_pay12 x3) (k0_pay14 x0 x3 x1 x2 (k0_pay3 x4) (k0_pay4 x5) (k0_pay5 x6) (k0_pay6 x7) (k0_pay7 x8) (k0_pay8 x9) (k0_pay9 x10) (k0_pay10 x11) (k0_pay11 x12) x13) (k0_pay15 x0 x3 x1 x2 (k0_pay3 x4) (k0_pay4 x5) (k0_pay5 x6) (k0_pay6 x7) (k0_pay7 x8) (k0_pay8 x9) (k0_pay9 x10) (k0_pay10 x11) (k0_pay11 x12) x13)
    (k0_pay16 x0 x3 x1 x2 (k0_pay3 x4) (k0_pay4 x5) (k0_pay5 x6) (k0_pay6 x7) (k0_pay7 x8) (k0_pay8 x9) (k0_pay9 x10) (k0_pay10 x11) (k0_pay11 x12) x13) (k0_pay17 x0 x3 x1 x2 (k0_pay3 x4) (k0_pay4 x5) (k0_pay5 x6) (k0_pay6 x7) (k0_pay7 x8) (k0_pay8 x9) (k0_pay9 x10) (k0_pay10 x11) (k0_pay11 x12) x13)

/-- The value stored into the output-head block. -/
def aBlk (x0 x1 x2 x3 : Vec F S128x64x64 .f32) (x4 : Vec F S64x64 .f32) (x5 : Vec F S1x64 .f32) (x6 : Vec F S64x64 .f32) (x7 : Vec F S1x64 .f32) (x8 : Vec F S128x128 .f32) (x9 : Vec F S1x128 .f32) (x10 : Vec F S192x64 .f32) (x11 : Vec F S1x64 .f32) (x12 : Vec F S128x257 .f32) (x13 : Vec F S1x257 .f32) : FVec F S128x64 .f32 :=
  k0_pay2 (k0_pay18 x0 x3 x1 x2 (k0_pay3 x4) (k0_pay4 x5) (k0_pay5 x6) (k0_pay6 x7) (k0_pay7 x8) (k0_pay8 x9) (k0_pay9 x10) (k0_pay10 x11) (k0_pay11 x12) x13)

end Cert.Kernel.KD

end
-- ==== Proof.FrameB.lean ====
/-
  The kernel's program runs to its end from any memory, faults nowhere, and leaves its twenty argument arrays as it
  found them; and, for whoever wants the values, each output array ends at what the grid points wrote back.

  The program is host lines, one pipelined region over a grid of 32 points, and one host line. At a point the
  pipeline hands the body the current staging buffers of its sixteen windows: fourteen inputs, each holding its
  block (a block of 128 batch elements of the four big arrays, moving with the point; the ten parameter arrays whole,
  fetched once), and two outputs. The body loads the inputs whole, computes, and stores both outputs whole, so after
  the body each output buffer holds the stored value whatever it held before, and each input buffer still holds its
  block. With that as the proof data, the library's launch theorem for host lines around one region gives the run;
  the argument arrays are read off its post: the four staged ones are input windows (an input array ends as it
  started), the sixteen others are touched by no window and written by no host line.
-/
import proofs.«402217_j80994493268285_3_alg».proof.Proof.Gen.Kernel.Launch
import proofs.«402217_j80994493268285_3_alg».proof.Proof.Gen.Kernel.Skeleton
import proofs.«402217_j80994493268285_3_alg».proof.Proof.Gen.Kernel.Points
import proofs.«402217_j80994493268285_3_alg».proof.Proof.KDefsB
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.KD

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- Core `c`'s buffer contents when the region is entered: the launch memory after the host lines before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The host lines allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, and the host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches only the pipeline's arrays and buffers no window uses. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: only its own result. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are written by no host line -/

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 19: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it, and no window stages argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- Nor does the line after it, and no window stages argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- Nor does the line after it, and no window stages argument 6: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- Nor does the line after it, and no window stages argument 7: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- Nor does the line after it, and no window stages argument 8: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- Nor does the line after it, and no window stages argument 9: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- Nor does the line after it, and no window stages argument 10: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- Nor does the line after it, and no window stages argument 11: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- Nor does the line after it, and no window stages argument 12: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-- Nor does the line after it, and no window stages argument 13: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

/-- Nor does the line after it, and no window stages argument 14: it ends as launched. -/
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c

/-- Nor does the line after it, and no window stages argument 15: it ends as launched. -/
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c

/-- Nor does the line after it, and no window stages argument 16: it ends as launched. -/
theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c

/-- Nor does the line after it, and no window stages argument 17: it ends as launched. -/
theorem W_main_arg17 (dats : (p : Fin _) → (c : Dev nD) → Dat τ (Elt F) Unit ℕ (UR sig nD τ) ℕ (cfgs p) c) (c : Dev nD) :
    Pipeline.afterTail₀ cfgs dats 0 (V0 m) [hostOps1] c main_arg17 = m ((c : Thread nD τ).loc main_arg17) := by
  unfold Pipeline.afterTail₀
  rw [StableHlo.after_of_forall_not_mem (b := Proc.devRef .tc main_arg17) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg17 (by exact (by decide : ∀ w, Pipeline.arrRef spec0 w ≠ main_arg17))]
  exact V_main_arg17 m c

/-- Nor does the line after it, and no window stages argument 18: it ends as launched. -/
theorem W_main_arg18 (dats : (p : Fin _) → (c : Dev nD) → Dat τ (Elt F) Unit ℕ (UR sig nD τ) ℕ (cfgs p) c) (c : Dev nD) :
    Pipeline.afterTail₀ cfgs dats 0 (V0 m) [hostOps1] c main_arg18 = m ((c : Thread nD τ).loc main_arg18) := by
  unfold Pipeline.afterTail₀
  rw [StableHlo.after_of_forall_not_mem (b := Proc.devRef .tc main_arg18) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg18 (by exact (by decide : ∀ w, Pipeline.arrRef spec0 w ≠ main_arg18))]
  exact V_main_arg18 m c

/-- Nor does the line after it, and no window stages argument 19: it ends as launched. -/
theorem W_main_arg19 (dats : (p : Fin _) → (c : Dev nD) → Dat τ (Elt F) Unit ℕ (UR sig nD τ) ℕ (cfgs p) c) (c : Dev nD) :
    Pipeline.afterTail₀ cfgs dats 0 (V0 m) [hostOps1] c main_arg19 = m ((c : Thread nD τ).loc main_arg19) := by
  unfold Pipeline.afterTail₀
  rw [StableHlo.after_of_forall_not_mem (b := Proc.devRef .tc main_arg19) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg19 (by exact (by decide : ∀ w, Pipeline.arrRef spec0 w ≠ main_arg19))]
  exact V_main_arg19 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, whether fetched there or kept from the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current buffer holds its block at every point, whether fetched there or kept from the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current buffer holds its block at every point, whether fetched there or kept from the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current buffer holds its block at every point, whether fetched there or kept from the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current buffer holds its block at every point, whether fetched there or kept from the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current buffer holds its block at every point, whether fetched there or kept from the point before. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current buffer holds its block at every point, whether fetched there or kept from the point before. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current buffer holds its block at every point, whether fetched there or kept from the point before. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current buffer holds its block at every point, whether fetched there or kept from the point before. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current buffer holds its block at every point, whether fetched there or kept from the point before. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current buffer holds its block at every point, whether fetched there or kept from the point before. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's current buffer holds its block at every point, whether fetched there or kept from the point before. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12's current buffer holds its block at every point, whether fetched there or kept from the point before. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- Input window 13's current buffer holds its block at every point, whether fetched there or kept from the point before. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the two output buffers -/

/-- The output-head buffer after the body: its one whole store, of the value computed from the loaded blocks. -/
def out0_14 (x0 : Vec F S128x64x64 .f32) (x1 : Vec F S128x64x64 .f32) (x2 : Vec F S128x64x64 .f32) (x3 : Vec F S128x64x64 .f32) (x4 : Vec F S64x64 .f32) (x5 : Vec F S1x64 .f32) (x6 : Vec F S64x64 .f32) (x7 : Vec F S1x64 .f32) (x8 : Vec F S128x128 .f32) (x9 : Vec F S1x128 .f32) (x10 : Vec F S192x64 .f32) (x11 : Vec F S1x64 .f32) (x12 : Vec F S128x257 .f32) (x13 : Vec F S1x257 .f32) : Vec F S128x64 .f32 :=
  View.canon [⟨(Rect.unit (s := S128x64) ![0, 0] S128x64.size inb_S128x64_S128x64_0_0), aBlk (View.ld x0 (Rect.unit (s := S128x64x64) ![0, 0, 0] S128x64x64.size inb_S128x64x64_S128x64x64_0_0_0)) (View.ld x1 (Rect.unit (s := S128x64x64) ![0, 0, 0] S128x64x64.size inb_S128x64x64_S128x64x64_0_0_0)) (View.ld x2 (Rect.unit (s := S128x64x64) ![0, 0, 0] S128x64x64.size inb_S128x64x64_S128x64x64_0_0_0)) (View.ld x3 (Rect.unit (s := S128x64x64) ![0, 0, 0] S128x64x64.size inb_S128x64x64_S128x64x64_0_0_0)) (View.ld x4 (Rect.unit (s := S64x64) ![0, 0] S64x64.size inb_S64x64_S64x64_0_0)) (View.ld x5 (Rect.unit (s := S1x64) ![0, 0] S1x64.size inb_S1x64_S1x64_0_0)) (View.ld x6 (Rect.unit (s := S64x64) ![0, 0] S64x64.size inb_S64x64_S64x64_0_0)) (View.ld x7 (Rect.unit (s := S1x64) ![0, 0] S1x64.size inb_S1x64_S1x64_0_0)) (View.ld x8 (Rect.unit (s := S128x128) ![0, 0] S128x128.size inb_S128x128_S128x128_0_0)) (View.ld x9 (Rect.unit (s := S1x128) ![0, 0] S1x128.size inb_S1x128_S1x128_0_0)) (View.ld x10 (Rect.unit (s := S192x64) ![0, 0] S192x64.size inb_S192x64_S192x64_0_0)) (View.ld x11 (Rect.unit (s := S1x64) ![0, 0] S1x64.size inb_S1x64_S1x64_0_0)) (View.ld x12 (Rect.unit (s := S128x257) ![0, 0] S128x257.size inb_S128x257_S128x257_0_0)) (View.ld x13 (Rect.unit (s := S1x257) ![0, 0] S1x257.size inb_S1x257_S1x257_0_0))⟩]

/-- The hidden-vector buffer after the body: its one whole store. -/
def out0_15 (x0 : Vec F S128x64x64 .f32) (x1 : Vec F S128x64x64 .f32) (x2 : Vec F S128x64x64 .f32) (x3 : Vec F S128x64x64 .f32) (x4 : Vec F S64x64 .f32) (x5 : Vec F S1x64 .f32) (x6 : Vec F S64x64 .f32) (x7 : Vec F S1x64 .f32) (x8 : Vec F S128x128 .f32) (x9 : Vec F S1x128 .f32) (x10 : Vec F S192x64 .f32) (x11 : Vec F S1x64 .f32) (x12 : Vec F S128x257 .f32) (x13 : Vec F S1x257 .f32) : Vec F S128x64x64 .f32 :=
  View.canon [⟨(Rect.unit (s := S128x64x64) ![0, 0, 0] S128x64x64.size inb_S128x64x64_S128x64x64_0_0_0), hBlk (View.ld x0 (Rect.unit (s := S128x64x64) ![0, 0, 0] S128x64x64.size inb_S128x64x64_S128x64x64_0_0_0)) (View.ld x1 (Rect.unit (s := S128x64x64) ![0, 0, 0] S128x64x64.size inb_S128x64x64_S128x64x64_0_0_0)) (View.ld x2 (Rect.unit (s := S128x64x64) ![0, 0, 0] S128x64x64.size inb_S128x64x64_S128x64x64_0_0_0)) (View.ld x3 (Rect.unit (s := S128x64x64) ![0, 0, 0] S128x64x64.size inb_S128x64x64_S128x64x64_0_0_0)) (View.ld x4 (Rect.unit (s := S64x64) ![0, 0] S64x64.size inb_S64x64_S64x64_0_0)) (View.ld x5 (Rect.unit (s := S1x64) ![0, 0] S1x64.size inb_S1x64_S1x64_0_0)) (View.ld x6 (Rect.unit (s := S64x64) ![0, 0] S64x64.size inb_S64x64_S64x64_0_0)) (View.ld x7 (Rect.unit (s := S1x64) ![0, 0] S1x64.size inb_S1x64_S1x64_0_0)) (View.ld x8 (Rect.unit (s := S128x128) ![0, 0] S128x128.size inb_S128x128_S128x128_0_0)) (View.ld x9 (Rect.unit (s := S1x128) ![0, 0] S1x128.size inb_S1x128_S1x128_0_0)) (View.ld x10 (Rect.unit (s := S192x64) ![0, 0] S192x64.size inb_S192x64_S192x64_0_0)) (View.ld x11 (Rect.unit (s := S1x64) ![0, 0] S1x64.size inb_S1x64_S1x64_0_0)) (View.ld x12 (Rect.unit (s := S128x257) ![0, 0] S128x257.size inb_S128x257_S128x257_0_0)) (View.ld x13 (Rect.unit (s := S1x257) ![0, 0] S1x257.size inb_S1x257_S1x257_0_0))⟩]

/-- A whole store covers the buffer. -/
theorem cover0_14 (p0 : Vec F S128x64 .f32) (y : S128x64.Idx) :
    ∃ pc ∈ ([⟨(Rect.unit (s := S128x64) ![0, 0] S128x64.size inb_S128x64_S128x64_0_0), p0⟩] : List (View.Piece (Elt F) S128x64 .f32)), y ∈ pc.1.set :=
  View.cover_of_tiled [⟨(Rect.unit (s := S128x64) ![0, 0] S128x64.size inb_S128x64_S128x64_0_0), p0⟩] S128x64.size (by rfl) y
theorem cover0_15 (p0 : Vec F S128x64x64 .f32) (y : S128x64x64.Idx) :
    ∃ pc ∈ ([⟨(Rect.unit (s := S128x64x64) ![0, 0, 0] S128x64x64.size inb_S128x64x64_S128x64x64_0_0_0), p0⟩] : List (View.Piece (Elt F) S128x64x64 .f32)), y ∈ pc.1.set :=
  View.cover_of_tiled [⟨(Rect.unit (s := S128x64x64) ![0, 0, 0] S128x64x64.size inb_S128x64x64_S128x64x64_0_0_0), p0⟩] S128x64x64.size (by rfl) y

/-! ## The body's triple -/

set_option maxHeartbeats 4000000 in
/-- The body on whole staging buffers, the inputs' at contents `xK` and the outputs' at anything, runs to the
    continuation with the inputs' as they were and the outputs' at the stored values. -/
theorem sound_kernel (c : Dev nD) (E : Set ℕ) (i : grid0.Coords) (arg1 : Memref sig .tc .vmem S128x64x64 .f32) (harg1 : arg1.IsWhole) (arg2 : Memref sig .tc .vmem S128x64x64 .f32) (harg2 : arg2.IsWhole) (arg3 : Memref sig .tc .vmem S128x64x64 .f32) (harg3 : arg3.IsWhole) (arg4 : Memref sig .tc .vmem S128x64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S192x64 .f32) (harg11 : arg11.IsWhole) (arg12 : Memref sig .tc .vmem S1x64 .f32) (harg12 : arg12.IsWhole) (arg13 : Memref sig .tc .vmem S128x257 .f32) (harg13 : arg13.IsWhole) (arg14 : Memref sig .tc .vmem S1x257 .f32) (harg14 : arg14.IsWhole) (arg15 : Memref sig .tc .vmem S128x64 .f32) (harg15 : arg15.IsWhole) (arg16 : Memref sig .tc .vmem S128x64x64 .f32) (harg16 : arg16.IsWhole)
    (x0 : Vec F S128x64x64 .f32) (x1 : Vec F S128x64x64 .f32) (x2 : Vec F S128x64x64 .f32) (x3 : Vec F S128x64x64 .f32) (x4 : Vec F S64x64 .f32) (x5 : Vec F S1x64 .f32) (x6 : Vec F S64x64 .f32) (x7 : Vec F S1x64 .f32) (x8 : Vec F S128x128 .f32) (x9 : Vec F S1x128 .f32) (x10 : Vec F S192x64 .f32) (x11 : Vec F S1x64 .f32) (x12 : Vec F S128x257 .f32) (x13 : Vec F S1x257 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
        ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
            ∗ owns (c : Thread nD τ) arg15 fullShare (out0_14 x0 x1 x2 x3 x4 x5 x6 x7 x8 x9 x10 x11 x12 x13) ∗ owns (c : Thread nD τ) arg16 fullShare (out0_15 x0 x1 x2 x3 x4 x5 x6 x7 x8 x9 x10 x11 x12 x13)) -∗ K ⟨⟩))
      ⊢ wp frame (wpE (defs₀ (F := F)) Variants.none c none) E (cc0__gnn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__gnn_kernel_eq_skeleton]; unfold cc0__gnn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0; subst hf1; subst hf2; subst hf3; subst hf4; subst hf5; subst hf6; subst hf7; subst hf8; subst hf9; subst hf10; subst hf11; subst hf12; subst hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    exact View.read_writes_eq_canon _ _ _ (cover0_14 _)
  iexists _; isplitr
  swap; · iexact H15
  ipureintro
  exact View.read_writes_eq_canon _ _ _ (cover0_15 _)

/-! ## The pipeline's proof data -/

/-- On core `c`: the arrays as the region finds them; after the body at point `t` each input buffer at its block and
    each output buffer at the stored value of the input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨_ + 16, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 1000000 in
/-- The body at any point: the input buffers hold their blocks, so the body's triple applies; what else is held passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, with every array of the
    pipeline at what the grid points wrote back and every other buffer as the last host line leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program terminates without a fault and the twenty argument arrays end as they started. The four
    staged arrays are input windows' arrays; the other sixteen are touched by no window and written by no host line. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨((h c).1 0).trans ((((dats m) 0 c).arrAt_in 0 rfl _).trans ((A_eq m c 0).trans (V_main_arg0 m c))),
    ((h c).1 1).trans ((((dats m) 0 c).arrAt_in 1 rfl _).trans ((A_eq m c 1).trans (V_main_arg1 m c))),
    ((h c).1 2).trans ((((dats m) 0 c).arrAt_in 2 rfl _).trans ((A_eq m c 2).trans (V_main_arg2 m c))),
    ((h c).1 3).trans ((((dats m) 0 c).arrAt_in 3 rfl _).trans ((A_eq m c 3).trans (V_main_arg3 m c))),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c),
    ((h c).2 main_arg15 (Pipeline.mem_restRefs_of main_arg15 (by decide) (by decide))).trans (W_main_arg15 m (dats m) c),
    ((h c).2 main_arg16 (Pipeline.mem_restRefs_of main_arg16 (by decide) (by decide))).trans (W_main_arg16 m (dats m) c),
    ((h c).2 main_arg17 (Pipeline.mem_restRefs_of main_arg17 (by decide) (by decide))).trans (W_main_arg17 m (dats m) c),
    ((h c).2 main_arg18 (Pipeline.mem_restRefs_of main_arg18 (by decide) (by decide))).trans (W_main_arg18 m (dats m) c),
    ((h c).2 main_arg19 (Pipeline.mem_restRefs_of main_arg19 (by decide) (by decide))).trans (W_main_arg19 m (dats m) c)⟩) (run_main m ρ)

end Cert.Kernel.Fr

end
-- ==== Proof.KDefsI.lean ====
/-
  What the kernel body stores, as pure functions of the fourteen input blocks it loads.

  The body loads each input block whole, computes, and stores two values whole: the new hidden vectors into the
  128 × 64 × 64 output block and the output head into the 128 × 64 one. Each stored value is the body's arithmetic,
  already named piece by piece by the generated payload definitions, applied to the loaded blocks. The blocks are
  numbered by window: 0 the node states, 1 and 2 the two adjacency blocks, 3 the hidden vectors, 4 to 13 the ten
  parameter arrays. (The body's own value numbering loads the hidden block second: hence the order of the first
  four arguments below.)
-/
import proofs.«402217_j80994493268285_3_alg».proof.Proof.Gen.KernelIdeal.Skeleton

noncomputable section

namespace Cert.KernelIdeal.KD

open Idealize.ShloMosaic Cert.KernelIdeal Cert.KernelIdeal.Gen

variable {F : FTy → Type} [FloatOps F]

/-- The value stored into the hidden-vector output block. -/
def hBlk (x0 x1 x2 x3 : Vec F S128x64x64 .f32) (x4 : Vec F S64x64 .f32) (x5 : Vec F S1x64 .f32) (x6 : Vec F S64x64 .f32) (x7 : Vec F S1x64 .f32) (x8 : Vec F S128x128 .f32) (x9 : Vec F S1x128 .f32) (x10 : Vec F S192x64 .f32) (x11 : Vec F S1x64 .f32) (x12 : Vec F S128x257 .f32) (x13 : Vec F S1x257 .f32) : FVec F S128x64x64 .f32 :=
  k0_pay1 (k0_pay12 x3) (k0_pay14 x0 x3 x1 x2 (k0_pay3 x4) (k0_pay4 x5) (k0_pay5 x6) (k0_pay6 x7) (k0_pay7 x8) (k0_pay8 x9) (k0_pay9 x10) (k0_pay10 x11) (k0_pay11 x12) x13) (k0_pay15 x0 x3 x1 x2 (k0_pay3 x4) (k0_pay4 x5) (k0_pay5 x6) (k0_pay6 x7) (k0_pay7 x8) (k0_pay8 x9) (k0_pay9 x10) (k0_pay10 x11) (k0_pay11 x12) x13)
    (k0_pay16 x0 x3 x1 x2 (k0_pay3 x4) (k0_pay4 x5) (k0_pay5 x6) (k0_pay6 x7) (k0_pay7 x8) (k0_pay8 x9) (k0_pay9 x10) (k0_pay10 x11) (k0_pay11 x12) x13) (k0_pay17 x0 x3 x1 x2 (k0_pay3 x4) (k0_pay4 x5) (k0_pay5 x6) (k0_pay6 x7) (k0_pay7 x8) (k0_pay8 x9) (k0_pay9 x10) (k0_pay10 x11) (k0_pay11 x12) x13)

/-- The value stored into the output-head block. -/
def aBlk (x0 x1 x2 x3 : Vec F S128x64x64 .f32) (x4 : Vec F S64x64 .f32) (x5 : Vec F S1x64 .f32) (x6 : Vec F S64x64 .f32) (x7 : Vec F S1x64 .f32) (x8 : Vec F S128x128 .f32) (x9 : Vec F S1x128 .f32) (x10 : Vec F S192x64 .f32) (x11 : Vec F S1x64 .f32) (x12 : Vec F S128x257 .f32) (x13 : Vec F S1x257 .f32) : FVec F S128x64 .f32 :=
  k0_pay2 (k0_pay18 x0 x3 x1 x2 (k0_pay3 x4) (k0_pay4 x5) (k0_pay5 x6) (k0_pay6 x7) (k0_pay7 x8) (k0_pay8 x9) (k0_pay9 x10) (k0_pay10 x11) (k0_pay11 x12) x13)

end Cert.KernelIdeal.KD

end
-- ==== Proof.FrameI.lean ====
/-
  The kernel's program runs to its end from any memory, faults nowhere, and leaves its twenty argument arrays as it
  found them; and, for whoever wants the values, each output array ends at what the grid points wrote back.

  The program is host lines, one pipelined region over a grid of 32 points, and one host line. At a point the
  pipeline hands the body the current staging buffers of its sixteen windows: fourteen inputs, each holding its
  block (a block of 128 batch elements of the four big arrays, moving with the point; the ten parameter arrays whole,
  fetched once), and two outputs. The body loads the inputs whole, computes, and stores both outputs whole, so after
  the body each output buffer holds the stored value whatever it held before, and each input buffer still holds its
  block. With that as the proof data, the library's launch theorem for host lines around one region gives the run;
  the argument arrays are read off its post: the four staged ones are input windows (an input array ends as it
  started), the sixteen others are touched by no window and written by no host line.
-/
import proofs.«402217_j80994493268285_3_alg».proof.Proof.Gen.KernelIdeal.Launch
import proofs.«402217_j80994493268285_3_alg».proof.Proof.Gen.KernelIdeal.Skeleton
import proofs.«402217_j80994493268285_3_alg».proof.Proof.Gen.KernelIdeal.Points
import proofs.«402217_j80994493268285_3_alg».proof.Proof.KDefsI
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.KD

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- Core `c`'s buffer contents when the region is entered: the launch memory after the host lines before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The host lines allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, and the host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches only the pipeline's arrays and buffers no window uses. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: only its own result. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are written by no host line -/

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes argument 19: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it, and no window stages argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- Nor does the line after it, and no window stages argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- Nor does the line after it, and no window stages argument 6: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- Nor does the line after it, and no window stages argument 7: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- Nor does the line after it, and no window stages argument 8: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- Nor does the line after it, and no window stages argument 9: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- Nor does the line after it, and no window stages argument 10: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- Nor does the line after it, and no window stages argument 11: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- Nor does the line after it, and no window stages argument 12: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-- Nor does the line after it, and no window stages argument 13: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

/-- Nor does the line after it, and no window stages argument 14: it ends as launched. -/
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c

/-- Nor does the line after it, and no window stages argument 15: it ends as launched. -/
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c

/-- Nor does the line after it, and no window stages argument 16: it ends as launched. -/
theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c

/-- Nor does the line after it, and no window stages argument 17: it ends as launched. -/
theorem W_main_arg17 (dats : (p : Fin _) → (c : Dev nD) → Dat τ (Elt F) Unit ℕ (UR sig nD τ) ℕ (cfgs p) c) (c : Dev nD) :
    Pipeline.afterTail₀ cfgs dats 0 (V0 m) [hostOps1] c main_arg17 = m ((c : Thread nD τ).loc main_arg17) := by
  unfold Pipeline.afterTail₀
  rw [StableHlo.after_of_forall_not_mem (b := Proc.devRef .tc main_arg17) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg17 (by exact (by decide : ∀ w, Pipeline.arrRef spec0 w ≠ main_arg17))]
  exact V_main_arg17 m c

/-- Nor does the line after it, and no window stages argument 18: it ends as launched. -/
theorem W_main_arg18 (dats : (p : Fin _) → (c : Dev nD) → Dat τ (Elt F) Unit ℕ (UR sig nD τ) ℕ (cfgs p) c) (c : Dev nD) :
    Pipeline.afterTail₀ cfgs dats 0 (V0 m) [hostOps1] c main_arg18 = m ((c : Thread nD τ).loc main_arg18) := by
  unfold Pipeline.afterTail₀
  rw [StableHlo.after_of_forall_not_mem (b := Proc.devRef .tc main_arg18) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg18 (by exact (by decide : ∀ w, Pipeline.arrRef spec0 w ≠ main_arg18))]
  exact V_main_arg18 m c

/-- Nor does the line after it, and no window stages argument 19: it ends as launched. -/
theorem W_main_arg19 (dats : (p : Fin _) → (c : Dev nD) → Dat τ (Elt F) Unit ℕ (UR sig nD τ) ℕ (cfgs p) c) (c : Dev nD) :
    Pipeline.afterTail₀ cfgs dats 0 (V0 m) [hostOps1] c main_arg19 = m ((c : Thread nD τ).loc main_arg19) := by
  unfold Pipeline.afterTail₀
  rw [StableHlo.after_of_forall_not_mem (b := Proc.devRef .tc main_arg19) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg19 (by exact (by decide : ∀ w, Pipeline.arrRef spec0 w ≠ main_arg19))]
  exact V_main_arg19 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, whether fetched there or kept from the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current buffer holds its block at every point, whether fetched there or kept from the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current buffer holds its block at every point, whether fetched there or kept from the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current buffer holds its block at every point, whether fetched there or kept from the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current buffer holds its block at every point, whether fetched there or kept from the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current buffer holds its block at every point, whether fetched there or kept from the point before. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current buffer holds its block at every point, whether fetched there or kept from the point before. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current buffer holds its block at every point, whether fetched there or kept from the point before. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current buffer holds its block at every point, whether fetched there or kept from the point before. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current buffer holds its block at every point, whether fetched there or kept from the point before. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current buffer holds its block at every point, whether fetched there or kept from the point before. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's current buffer holds its block at every point, whether fetched there or kept from the point before. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12's current buffer holds its block at every point, whether fetched there or kept from the point before. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- Input window 13's current buffer holds its block at every point, whether fetched there or kept from the point before. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the two output buffers -/

/-- The output-head buffer after the body: its one whole store, of the value computed from the loaded blocks. -/
def out0_14 (x0 : Vec F S128x64x64 .f32) (x1 : Vec F S128x64x64 .f32) (x2 : Vec F S128x64x64 .f32) (x3 : Vec F S128x64x64 .f32) (x4 : Vec F S64x64 .f32) (x5 : Vec F S1x64 .f32) (x6 : Vec F S64x64 .f32) (x7 : Vec F S1x64 .f32) (x8 : Vec F S128x128 .f32) (x9 : Vec F S1x128 .f32) (x10 : Vec F S192x64 .f32) (x11 : Vec F S1x64 .f32) (x12 : Vec F S128x257 .f32) (x13 : Vec F S1x257 .f32) : Vec F S128x64 .f32 :=
  View.canon [⟨(Rect.unit (s := S128x64) ![0, 0] S128x64.size inb_S128x64_S128x64_0_0), aBlk (View.ld x0 (Rect.unit (s := S128x64x64) ![0, 0, 0] S128x64x64.size inb_S128x64x64_S128x64x64_0_0_0)) (View.ld x1 (Rect.unit (s := S128x64x64) ![0, 0, 0] S128x64x64.size inb_S128x64x64_S128x64x64_0_0_0)) (View.ld x2 (Rect.unit (s := S128x64x64) ![0, 0, 0] S128x64x64.size inb_S128x64x64_S128x64x64_0_0_0)) (View.ld x3 (Rect.unit (s := S128x64x64) ![0, 0, 0] S128x64x64.size inb_S128x64x64_S128x64x64_0_0_0)) (View.ld x4 (Rect.unit (s := S64x64) ![0, 0] S64x64.size inb_S64x64_S64x64_0_0)) (View.ld x5 (Rect.unit (s := S1x64) ![0, 0] S1x64.size inb_S1x64_S1x64_0_0)) (View.ld x6 (Rect.unit (s := S64x64) ![0, 0] S64x64.size inb_S64x64_S64x64_0_0)) (View.ld x7 (Rect.unit (s := S1x64) ![0, 0] S1x64.size inb_S1x64_S1x64_0_0)) (View.ld x8 (Rect.unit (s := S128x128) ![0, 0] S128x128.size inb_S128x128_S128x128_0_0)) (View.ld x9 (Rect.unit (s := S1x128) ![0, 0] S1x128.size inb_S1x128_S1x128_0_0)) (View.ld x10 (Rect.unit (s := S192x64) ![0, 0] S192x64.size inb_S192x64_S192x64_0_0)) (View.ld x11 (Rect.unit (s := S1x64) ![0, 0] S1x64.size inb_S1x64_S1x64_0_0)) (View.ld x12 (Rect.unit (s := S128x257) ![0, 0] S128x257.size inb_S128x257_S128x257_0_0)) (View.ld x13 (Rect.unit (s := S1x257) ![0, 0] S1x257.size inb_S1x257_S1x257_0_0))⟩]

/-- The hidden-vector buffer after the body: its one whole store. -/
def out0_15 (x0 : Vec F S128x64x64 .f32) (x1 : Vec F S128x64x64 .f32) (x2 : Vec F S128x64x64 .f32) (x3 : Vec F S128x64x64 .f32) (x4 : Vec F S64x64 .f32) (x5 : Vec F S1x64 .f32) (x6 : Vec F S64x64 .f32) (x7 : Vec F S1x64 .f32) (x8 : Vec F S128x128 .f32) (x9 : Vec F S1x128 .f32) (x10 : Vec F S192x64 .f32) (x11 : Vec F S1x64 .f32) (x12 : Vec F S128x257 .f32) (x13 : Vec F S1x257 .f32) : Vec F S128x64x64 .f32 :=
  View.canon [⟨(Rect.unit (s := S128x64x64) ![0, 0, 0] S128x64x64.size inb_S128x64x64_S128x64x64_0_0_0), hBlk (View.ld x0 (Rect.unit (s := S128x64x64) ![0, 0, 0] S128x64x64.size inb_S128x64x64_S128x64x64_0_0_0)) (View.ld x1 (Rect.unit (s := S128x64x64) ![0, 0, 0] S128x64x64.size inb_S128x64x64_S128x64x64_0_0_0)) (View.ld x2 (Rect.unit (s := S128x64x64) ![0, 0, 0] S128x64x64.size inb_S128x64x64_S128x64x64_0_0_0)) (View.ld x3 (Rect.unit (s := S128x64x64) ![0, 0, 0] S128x64x64.size inb_S128x64x64_S128x64x64_0_0_0)) (View.ld x4 (Rect.unit (s := S64x64) ![0, 0] S64x64.size inb_S64x64_S64x64_0_0)) (View.ld x5 (Rect.unit (s := S1x64) ![0, 0] S1x64.size inb_S1x64_S1x64_0_0)) (View.ld x6 (Rect.unit (s := S64x64) ![0, 0] S64x64.size inb_S64x64_S64x64_0_0)) (View.ld x7 (Rect.unit (s := S1x64) ![0, 0] S1x64.size inb_S1x64_S1x64_0_0)) (View.ld x8 (Rect.unit (s := S128x128) ![0, 0] S128x128.size inb_S128x128_S128x128_0_0)) (View.ld x9 (Rect.unit (s := S1x128) ![0, 0] S1x128.size inb_S1x128_S1x128_0_0)) (View.ld x10 (Rect.unit (s := S192x64) ![0, 0] S192x64.size inb_S192x64_S192x64_0_0)) (View.ld x11 (Rect.unit (s := S1x64) ![0, 0] S1x64.size inb_S1x64_S1x64_0_0)) (View.ld x12 (Rect.unit (s := S128x257) ![0, 0] S128x257.size inb_S128x257_S128x257_0_0)) (View.ld x13 (Rect.unit (s := S1x257) ![0, 0] S1x257.size inb_S1x257_S1x257_0_0))⟩]

/-- A whole store covers the buffer. -/
theorem cover0_14 (p0 : Vec F S128x64 .f32) (y : S128x64.Idx) :
    ∃ pc ∈ ([⟨(Rect.unit (s := S128x64) ![0, 0] S128x64.size inb_S128x64_S128x64_0_0), p0⟩] : List (View.Piece (Elt F) S128x64 .f32)), y ∈ pc.1.set :=
  View.cover_of_tiled [⟨(Rect.unit (s := S128x64) ![0, 0] S128x64.size inb_S128x64_S128x64_0_0), p0⟩] S128x64.size (by rfl) y
theorem cover0_15 (p0 : Vec F S128x64x64 .f32) (y : S128x64x64.Idx) :
    ∃ pc ∈ ([⟨(Rect.unit (s := S128x64x64) ![0, 0, 0] S128x64x64.size inb_S128x64x64_S128x64x64_0_0_0), p0⟩] : List (View.Piece (Elt F) S128x64x64 .f32)), y ∈ pc.1.set :=
  View.cover_of_tiled [⟨(Rect.unit (s := S128x64x64) ![0, 0, 0] S128x64x64.size inb_S128x64x64_S128x64x64_0_0_0), p0⟩] S128x64x64.size (by rfl) y

/-! ## The body's triple -/

set_option maxHeartbeats 4000000 in
/-- The body on whole staging buffers, the inputs' at contents `xK` and the outputs' at anything, runs to the
    continuation with the inputs' as they were and the outputs' at the stored values. -/
theorem sound_kernel (c : Dev nD) (E : Set ℕ) (i : grid0.Coords) (arg1 : Memref sig .tc .vmem S128x64x64 .f32) (harg1 : arg1.IsWhole) (arg2 : Memref sig .tc .vmem S128x64x64 .f32) (harg2 : arg2.IsWhole) (arg3 : Memref sig .tc .vmem S128x64x64 .f32) (harg3 : arg3.IsWhole) (arg4 : Memref sig .tc .vmem S128x64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S192x64 .f32) (harg11 : arg11.IsWhole) (arg12 : Memref sig .tc .vmem S1x64 .f32) (harg12 : arg12.IsWhole) (arg13 : Memref sig .tc .vmem S128x257 .f32) (harg13 : arg13.IsWhole) (arg14 : Memref sig .tc .vmem S1x257 .f32) (harg14 : arg14.IsWhole) (arg15 : Memref sig .tc .vmem S128x64 .f32) (harg15 : arg15.IsWhole) (arg16 : Memref sig .tc .vmem S128x64x64 .f32) (harg16 : arg16.IsWhole)
    (x0 : Vec F S128x64x64 .f32) (x1 : Vec F S128x64x64 .f32) (x2 : Vec F S128x64x64 .f32) (x3 : Vec F S128x64x64 .f32) (x4 : Vec F S64x64 .f32) (x5 : Vec F S1x64 .f32) (x6 : Vec F S64x64 .f32) (x7 : Vec F S1x64 .f32) (x8 : Vec F S128x128 .f32) (x9 : Vec F S1x128 .f32) (x10 : Vec F S192x64 .f32) (x11 : Vec F S1x64 .f32) (x12 : Vec F S128x257 .f32) (x13 : Vec F S1x257 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
        ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
            ∗ owns (c : Thread nD τ) arg15 fullShare (out0_14 x0 x1 x2 x3 x4 x5 x6 x7 x8 x9 x10 x11 x12 x13) ∗ owns (c : Thread nD τ) arg16 fullShare (out0_15 x0 x1 x2 x3 x4 x5 x6 x7 x8 x9 x10 x11 x12 x13)) -∗ K ⟨⟩))
      ⊢ wp frame (wpE (defs₀ (F := F)) Variants.none c none) E (cc0__gnn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__gnn_kernel_eq_skeleton]; unfold cc0__gnn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0; subst hf1; subst hf2; subst hf3; subst hf4; subst hf5; subst hf6; subst hf7; subst hf8; subst hf9; subst hf10; subst hf11; subst hf12; subst hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    exact View.read_writes_eq_canon _ _ _ (cover0_14 _)
  iexists _; isplitr
  swap; · iexact H15
  ipureintro
  exact View.read_writes_eq_canon _ _ _ (cover0_15 _)

/-! ## The pipeline's proof data -/

/-- On core `c`: the arrays as the region finds them; after the body at point `t` each input buffer at its block and
    each output buffer at the stored value of the input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨_ + 16, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 1000000 in
/-- The body at any point: the input buffers hold their blocks, so the body's triple applies; what else is held passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, with every array of the
    pipeline at what the grid points wrote back and every other buffer as the last host line leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program terminates without a fault and the twenty argument arrays end as they started. The four
    staged arrays are input windows' arrays; the other sixteen are touched by no window and written by no host line. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨((h c).1 0).trans ((((dats m) 0 c).arrAt_in 0 rfl _).trans ((A_eq m c 0).trans (V_main_arg0 m c))),
    ((h c).1 1).trans ((((dats m) 0 c).arrAt_in 1 rfl _).trans ((A_eq m c 1).trans (V_main_arg1 m c))),
    ((h c).1 2).trans ((((dats m) 0 c).arrAt_in 2 rfl _).trans ((A_eq m c 2).trans (V_main_arg2 m c))),
    ((h c).1 3).trans ((((dats m) 0 c).arrAt_in 3 rfl _).trans ((A_eq m c 3).trans (V_main_arg3 m c))),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c),
    ((h c).2 main_arg15 (Pipeline.mem_restRefs_of main_arg15 (by decide) (by decide))).trans (W_main_arg15 m (dats m) c),
    ((h c).2 main_arg16 (Pipeline.mem_restRefs_of main_arg16 (by decide) (by decide))).trans (W_main_arg16 m (dats m) c),
    ((h c).2 main_arg17 (Pipeline.mem_restRefs_of main_arg17 (by decide) (by decide))).trans (W_main_arg17 m (dats m) c),
    ((h c).2 main_arg18 (Pipeline.mem_restRefs_of main_arg18 (by decide) (by decide))).trans (W_main_arg18 m (dats m) c),
    ((h c).2 main_arg19 (Pipeline.mem_restRefs_of main_arg19 (by decide) (by decide))).trans (W_main_arg19 m (dats m) c)⟩) (run_main m ρ)

end Cert.KernelIdeal.Fr

end
-- ==== Proof.Spec.lean ====
/-
  The network both programs compute, for one batch element: a graph of 64 nodes, each with a 64-wide state and a
  64-wide hidden vector, and two 64 × 64 adjacency matrices.

  Two spellings over the extended reals. The first is the layer-by-layer one: two dense layers with a rectifier,
  the two neighbourhood sums, a dense layer on each, a dense layer on the three feature vectors side by side, and a
  gated recurrent step (reset gate, update gate, candidate) with an output head. The second is the same network over
  FUSED weights: the two neighbourhood layers as one product with a block-diagonal matrix, and the five products of the
  recurrent step and the head as ONE product of the row (features | hidden) with a 128 × 257 matrix whose blocks are the
  five weight blocks and zeros, the biases added once.  `fuse` builds the fused weights from the plain ones, and
  `khNew_fuse` / `kact_fuse` say the two spellings agree: a sum over 128 = 64 + 64 terms splits in two halves, a
  half whose weights are zero vanishes (`x * 0 = 0` for every extended real), and the sums of the biases regroup by
  commutativity and associativity of the extended reals' addition. No finiteness is needed.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx
open scoped BigOperators

/-- The rectifier. -/
def relu (v : EReal) : EReal := max v 0

/-- The logistic function `1 / (1 + e⁻ˣ)` of the extended reals. -/
def sg (v : EReal) : EReal := Ideal.logistic v

/-- The hyperbolic tangent of the extended reals. -/
def th (v : EReal) : EReal := Ideal.tanh v

/-- A dense layer on one feature vector: output `o` is `∑ k, x k * w o k + b o` (weights stored output-major). -/
def lin {K N : Nat} (x : Fin K → EReal) (w : Fin N → Fin K → EReal) (b : Fin N → EReal) (o : Fin N) : EReal :=
  ∑ k : Fin K, x k * w o k + b o

/-- The plain weights (each matrix output-major, as the network stores them). -/
structure Weights where
  fc1w : Fin 64 → Fin 64 → EReal
  fc1b : Fin 64 → EReal
  fc2w : Fin 64 → Fin 64 → EReal
  fc2b : Fin 64 → EReal
  compw : Fin 64 → Fin 64 → EReal
  compb : Fin 64 → EReal
  coopw : Fin 64 → Fin 64 → EReal
  coopb : Fin 64 → EReal
  fc3w : Fin 64 → Fin 192 → EReal
  fc3b : Fin 64 → EReal
  outw : Fin 64 → EReal
  outb : EReal
  wih : Fin 192 → Fin 64 → EReal
  whh : Fin 192 → Fin 64 → EReal
  bih : Fin 192 → EReal
  bhh : Fin 192 → EReal

/-- Three 64-wide vectors side by side. -/
def cat3 (u v w : Fin 64 → EReal) (k : Fin 192) : EReal :=
  if h : k.val < 64 then u ⟨k.val, h⟩
  else if h2 : k.val < 128 then v ⟨k.val - 64, by omega⟩
  else w ⟨k.val - 128, by omega⟩

/-- Two 64-wide vectors side by side. -/
def cat2 (u v : Fin 64 → EReal) (k : Fin 128) : EReal :=
  if h : k.val < 64 then u ⟨k.val, h⟩ else v ⟨k.val - 64, by omega⟩

section Plain

variable (W : Weights) (st adjc adjo hid : Fin 64 → Fin 64 → EReal)

/-- First dense layer, rectified. -/
def x1 (n o : Fin 64) : EReal := relu (lin (st n) W.fc1w W.fc1b o)
/-- Second dense layer, rectified. -/
def x2 (n o : Fin 64) : EReal := relu (lin (x1 W st n) W.fc2w W.fc2b o)
/-- The neighbourhood sum of the node features under an adjacency matrix. -/
def agg (adj : Fin 64 → Fin 64 → EReal) (i h : Fin 64) : EReal := ∑ j : Fin 64, adj i j * x2 W st j h
/-- The dense layer on the first neighbourhood sum, rectified. -/
def xc (n o : Fin 64) : EReal := relu (lin (agg W st adjc n) W.compw W.compb o)
/-- The dense layer on the second neighbourhood sum, rectified. -/
def xo (n o : Fin 64) : EReal := relu (lin (agg W st adjo n) W.coopw W.coopb o)
/-- The dense layer on the three feature vectors side by side, rectified. -/
def x3 (n o : Fin 64) : EReal :=
  relu (lin (cat3 (x2 W st n) (xc W st adjc n) (xo W st adjo n)) W.fc3w W.fc3b o)
/-- The recurrent step's input products. -/
def gi (n : Fin 64) (g : Fin 192) : EReal := lin (x3 W st adjc adjo n) W.wih W.bih g
/-- The recurrent step's hidden products. -/
def gh (n : Fin 64) (g : Fin 192) : EReal := lin (hid n) W.whh W.bhh g
/-- Reset gate. -/
def rg (n h : Fin 64) : EReal :=
  sg (gi W st adjc adjo n ⟨h.val, by omega⟩ + gh W hid n ⟨h.val, by omega⟩)
/-- Update gate. -/
def zg (n h : Fin 64) : EReal :=
  sg (gi W st adjc adjo n ⟨64 + h.val, by omega⟩ + gh W hid n ⟨64 + h.val, by omega⟩)
/-- Candidate. -/
def ng (n h : Fin 64) : EReal :=
  th (gi W st adjc adjo n ⟨128 + h.val, by omega⟩ + rg W st adjc adjo hid n h * gh W hid n ⟨128 + h.val, by omega⟩)
/-- The new hidden vector. -/
def hNew (n h : Fin 64) : EReal :=
  (1 - zg W st adjc adjo hid n h) * ng W st adjc adjo hid n h + zg W st adjc adjo hid n h * hid n h
/-- The output head. -/
def act (n : Fin 64) : EReal := sg (∑ k : Fin 64, x3 W st adjc adjo n k * W.outw k + W.outb)

end Plain

/-- The fused weights (each matrix INPUT-major: row `k` is input feature `k`). -/
structure KWeights where
  w1 : Fin 64 → Fin 64 → EReal
  b1 : Fin 64 → EReal
  w2 : Fin 64 → Fin 64 → EReal
  b2 : Fin 64 → EReal
  wcc : Fin 128 → Fin 128 → EReal
  bcc : Fin 128 → EReal
  w3 : Fin 192 → Fin 64 → EReal
  b3 : Fin 64 → EReal
  wcomb : Fin 128 → Fin 257 → EReal
  bcomb : Fin 257 → EReal

section Fused

variable (Q : KWeights) (st adjc adjo hid : Fin 64 → Fin 64 → EReal)

def kx1 (n o : Fin 64) : EReal := relu (∑ k : Fin 64, st n k * Q.w1 k o + Q.b1 o)
def kx2 (n o : Fin 64) : EReal := relu (∑ k : Fin 64, kx1 Q st n k * Q.w2 k o + Q.b2 o)
/-- The two adjacency matrices stacked (128 rows), times the node features. -/
def kagg (i : Fin 128) (h : Fin 64) : EReal :=
  ∑ j : Fin 64, (if hi : i.val < 64 then adjc ⟨i.val, hi⟩ j else adjo ⟨i.val - 64, by omega⟩ j) * kx2 Q st j h
/-- The two neighbourhood sums of node `n` side by side. -/
def kaggcat (n : Fin 64) (k : Fin 128) : EReal :=
  if hk : k.val < 64 then kagg Q st adjc adjo ⟨n.val, by omega⟩ ⟨k.val, hk⟩
  else kagg Q st adjc adjo ⟨64 + n.val, by omega⟩ ⟨k.val - 64, by omega⟩
/-- The product with the block-diagonal matrix, rectified: both neighbourhood layers at once. -/
def kcc (n : Fin 64) (c : Fin 128) : EReal :=
  relu (∑ k : Fin 128, kaggcat Q st adjc adjo n k * Q.wcc k c + Q.bcc c)
/-- Node features and the 128 neighbourhood features side by side. -/
def kcomb (n : Fin 64) (k : Fin 192) : EReal :=
  if hk : k.val < 64 then kx2 Q st n ⟨k.val, hk⟩ else kcc Q st adjc adjo n ⟨k.val - 64, by omega⟩
def kx3 (n o : Fin 64) : EReal := relu (∑ k : Fin 192, kcomb Q st adjc adjo n k * Q.w3 k o + Q.b3 o)
/-- The features and the hidden vector side by side. -/
def kxh (n : Fin 64) (k : Fin 128) : EReal :=
  if hk : k.val < 64 then kx3 Q st adjc adjo n ⟨k.val, hk⟩ else hid n ⟨k.val - 64, by omega⟩
/-- The one product of the recurrent step and the head. -/
def kgate (n : Fin 64) (c : Fin 257) : EReal :=
  ∑ k : Fin 128, kxh Q st adjc adjo hid n k * Q.wcomb k c + Q.bcomb c
def kr (n h : Fin 64) : EReal := sg (kgate Q st adjc adjo hid n ⟨h.val, by omega⟩)
def kz (n h : Fin 64) : EReal := sg (kgate Q st adjc adjo hid n ⟨64 + h.val, by omega⟩)
def kn (n h : Fin 64) : EReal :=
  th (kgate Q st adjc adjo hid n ⟨192 + h.val, by omega⟩
    + kr Q st adjc adjo hid n h * kgate Q st adjc adjo hid n ⟨128 + h.val, by omega⟩)
def khNew (n h : Fin 64) : EReal :=
  (1 - kz Q st adjc adjo hid n h) * kn Q st adjc adjo hid n h + kz Q st adjc adjo hid n h * hid n h
def kact (n : Fin 64) : EReal := sg (kgate Q st adjc adjo hid n ⟨256, by omega⟩)

end Fused

/-- The fused weights of plain ones. -/
def fuse (W : Weights) : KWeights where
  w1 k o := W.fc1w o k
  b1 := W.fc1b
  w2 k o := W.fc2w o k
  b2 := W.fc2b
  wcc k c :=
    if hk : k.val < 64 then
      (if hc : c.val < 64 then W.compw ⟨c.val, hc⟩ ⟨k.val, hk⟩ else 0)
    else
      (if hc : c.val < 64 then 0 else W.coopw ⟨c.val - 64, by omega⟩ ⟨k.val - 64, by omega⟩)
  bcc c := if hc : c.val < 64 then W.compb ⟨c.val, hc⟩ else W.coopb ⟨c.val - 64, by omega⟩
  w3 k o := W.fc3w o k
  b3 := W.fc3b
  wcomb k c :=
    if hk : k.val < 64 then
      (if h1 : c.val < 128 then W.wih ⟨c.val, by omega⟩ ⟨k.val, hk⟩
       else if h2 : c.val < 192 then 0
       else if h3 : c.val < 256 then W.wih ⟨c.val - 64, by omega⟩ ⟨k.val, hk⟩
       else W.outw ⟨k.val, hk⟩)
    else
      (if h1 : c.val < 192 then W.whh ⟨c.val, h1⟩ ⟨k.val - 64, by omega⟩ else 0)
  bcomb c :=
    if h1 : c.val < 128 then W.bih ⟨c.val, by omega⟩ + W.bhh ⟨c.val, by omega⟩
    else if h2 : c.val < 192 then W.bhh ⟨c.val, h2⟩
    else if h3 : c.val < 256 then W.bih ⟨c.val - 64, by omega⟩
    else W.outb

section FuseLaw

variable (W : Weights) (st adjc adjo hid : Fin 64 → Fin 64 → EReal)

/-! ### Splitting a sum over 128 terms in its two halves -/

/-- A sum over 128 terms is the sum over the first 64 plus the sum over the last 64. -/
theorem sum128 (f : Fin 128 → EReal) :
    ∑ k : Fin 128, f k
      = ∑ k : Fin 64, f ⟨k.val, by omega⟩ + ∑ k : Fin 64, f ⟨64 + k.val, by omega⟩ :=
  Fin.sum_univ_add (a := 64) (b := 64) f

/-! ### The fused weights, block by block -/

theorem wcc_lo_lo (k c : Fin 64) :
    (fuse W).wcc ⟨k.val, by omega⟩ ⟨c.val, by omega⟩ = W.compw c k := by
  simp only [fuse, dif_pos k.isLt, dif_pos c.isLt]

theorem wcc_hi_lo (k c : Fin 64) :
    (fuse W).wcc ⟨64 + k.val, by omega⟩ ⟨c.val, by omega⟩ = 0 := by
  simp only [fuse, dif_neg (show ¬ 64 + k.val < 64 by omega), dif_pos c.isLt]

theorem wcc_lo_hi (k c : Fin 64) :
    (fuse W).wcc ⟨k.val, by omega⟩ ⟨64 + c.val, by omega⟩ = 0 := by
  simp only [fuse, dif_pos k.isLt, dif_neg (show ¬ 64 + c.val < 64 by omega)]

theorem wcc_hi_hi (k c : Fin 64) :
    (fuse W).wcc ⟨64 + k.val, by omega⟩ ⟨64 + c.val, by omega⟩ = W.coopw c k := by
  simp only [fuse, dif_neg (show ¬ 64 + k.val < 64 by omega), dif_neg (show ¬ 64 + c.val < 64 by omega)]
  congr 1 <;> exact Fin.ext (by simp)

theorem bcc_lo (c : Fin 64) : (fuse W).bcc ⟨c.val, by omega⟩ = W.compb c := by
  simp only [fuse, dif_pos c.isLt]

theorem bcc_hi (c : Fin 64) : (fuse W).bcc ⟨64 + c.val, by omega⟩ = W.coopb c := by
  simp only [fuse, dif_neg (show ¬ 64 + c.val < 64 by omega)]
  congr 1; exact Fin.ext (by simp)

/-! ### The first two layers and the neighbourhood sums -/

theorem kx1_fuse (n o : Fin 64) : kx1 (fuse W) st n o = x1 W st n o := rfl

theorem kx2_fuse (n o : Fin 64) : kx2 (fuse W) st n o = x2 W st n o := by
  unfold kx2 x2 lin
  simp only [kx1_fuse]
  rfl

theorem kagg_fuse_lo (i h : Fin 64) :
    kagg (fuse W) st adjc adjo ⟨i.val, by omega⟩ h = agg W st adjc i h := by
  unfold kagg agg
  simp only [dif_pos i.isLt, kx2_fuse]

theorem kagg_fuse_hi (i h : Fin 64) :
    kagg (fuse W) st adjc adjo ⟨64 + i.val, by omega⟩ h = agg W st adjo i h := by
  unfold kagg agg
  simp only [dif_neg (show ¬ 64 + i.val < 64 by omega), kx2_fuse]
  refine Finset.sum_congr rfl fun j _ => ?_
  congr 2; exact Fin.ext (by simp)

theorem kaggcat_fuse_lo (n k : Fin 64) :
    kaggcat (fuse W) st adjc adjo n ⟨k.val, by omega⟩ = agg W st adjc n k := by
  unfold kaggcat
  simp only [dif_pos k.isLt]
  exact kagg_fuse_lo W st adjc adjo n k

theorem kaggcat_fuse_hi (n k : Fin 64) :
    kaggcat (fuse W) st adjc adjo n ⟨64 + k.val, by omega⟩ = agg W st adjo n k := by
  unfold kaggcat
  simp only [dif_neg (show ¬ 64 + k.val < 64 by omega)]
  have e : (⟨64 + k.val - 64, by omega⟩ : Fin 64) = k := Fin.ext (by simp)
  rw [e]
  exact kagg_fuse_hi W st adjc adjo n k

/-! ### The two neighbourhood layers as one block-diagonal product -/

theorem kcc_fuse_lo (n c : Fin 64) :
    kcc (fuse W) st adjc adjo n ⟨c.val, by omega⟩ = xc W st adjc n c := by
  unfold kcc xc lin
  rw [sum128]
  simp only [kaggcat_fuse_lo, kaggcat_fuse_hi, wcc_lo_lo, wcc_hi_lo, bcc_lo, mul_zero,
    Finset.sum_const_zero, add_zero]

theorem kcc_fuse_hi (n c : Fin 64) :
    kcc (fuse W) st adjc adjo n ⟨64 + c.val, by omega⟩ = xo W st adjo n c := by
  unfold kcc xo lin
  rw [sum128]
  simp only [kaggcat_fuse_lo, kaggcat_fuse_hi, wcc_lo_hi, wcc_hi_hi, bcc_hi, mul_zero,
    Finset.sum_const_zero, zero_add]

/-! ### The three feature vectors side by side, and the third dense layer -/

theorem kcomb_fuse (n : Fin 64) (k : Fin 192) :
    kcomb (fuse W) st adjc adjo n k
      = cat3 (x2 W st n) (xc W st adjc n) (xo W st adjo n) k := by
  unfold kcomb cat3
  by_cases hk : k.val < 64
  · rw [dif_pos hk, dif_pos hk]
    exact kx2_fuse W st n ⟨k.val, hk⟩
  · rw [dif_neg hk, dif_neg hk]
    by_cases h2 : k.val < 128
    · rw [dif_pos h2]
      exact kcc_fuse_lo W st adjc adjo n ⟨k.val - 64, by omega⟩
    · rw [dif_neg h2]
      have e : (⟨k.val - 64, by omega⟩ : Fin 128) = ⟨64 + (k.val - 128), by omega⟩ :=
        Fin.ext (by show k.val - 64 = 64 + (k.val - 128); omega)
      rw [e]
      exact kcc_fuse_hi W st adjc adjo n ⟨k.val - 128, by omega⟩

theorem kx3_fuse (n o : Fin 64) :
    kx3 (fuse W) st adjc adjo n o = x3 W st adjc adjo n o := by
  unfold kx3 x3 lin
  simp only [kcomb_fuse]
  rfl

/-! ### The row (features | hidden) -/

theorem kxh_fuse_lo (n k : Fin 64) :
    kxh (fuse W) st adjc adjo hid n ⟨k.val, by omega⟩ = x3 W st adjc adjo n k := by
  unfold kxh
  simp only [dif_pos k.isLt]
  exact kx3_fuse W st adjc adjo n k

theorem kxh_fuse_hi (n k : Fin 64) :
    kxh (fuse W) st adjc adjo hid n ⟨64 + k.val, by omega⟩ = hid n k := by
  unfold kxh
  simp only [dif_neg (show ¬ 64 + k.val < 64 by omega)]
  congr 1; exact Fin.ext (by simp)

/-- The one product, split in its features half and its hidden half. -/
theorem kgate_split (n : Fin 64) (c : Fin 257) :
    kgate (fuse W) st adjc adjo hid n c
      = (∑ k : Fin 64, x3 W st adjc adjo n k * (fuse W).wcomb ⟨k.val, by omega⟩ c
          + ∑ k : Fin 64, hid n k * (fuse W).wcomb ⟨64 + k.val, by omega⟩ c)
        + (fuse W).bcomb c := by
  unfold kgate
  rw [sum128]
  simp only [kxh_fuse_lo, kxh_fuse_hi]

/-! ### The blocks of the 128 × 257 matrix and of its bias row -/

theorem wcomb_lo_rz (k : Fin 64) (g : Fin 128) :
    (fuse W).wcomb ⟨k.val, by omega⟩ ⟨g.val, by omega⟩ = W.wih ⟨g.val, by omega⟩ k := by
  simp only [fuse, dif_pos k.isLt, dif_pos g.isLt]

theorem wcomb_hi_rz (k : Fin 64) (g : Fin 128) :
    (fuse W).wcomb ⟨64 + k.val, by omega⟩ ⟨g.val, by omega⟩ = W.whh ⟨g.val, by omega⟩ k := by
  simp only [fuse, dif_neg (show ¬ 64 + k.val < 64 by omega), dif_pos (show g.val < 192 by omega)]
  congr 1; exact Fin.ext (by simp)

theorem bcomb_rz (g : Fin 128) :
    (fuse W).bcomb ⟨g.val, by omega⟩ = W.bih ⟨g.val, by omega⟩ + W.bhh ⟨g.val, by omega⟩ := by
  simp only [fuse, dif_pos g.isLt]

theorem wcomb_lo_ghn (k h : Fin 64) :
    (fuse W).wcomb ⟨k.val, by omega⟩ ⟨128 + h.val, by omega⟩ = 0 := by
  simp only [fuse, dif_pos k.isLt, dif_neg (show ¬ 128 + h.val < 128 by omega),
    dif_pos (show 128 + h.val < 192 by omega)]

theorem wcomb_hi_ghn (k h : Fin 64) :
    (fuse W).wcomb ⟨64 + k.val, by omega⟩ ⟨128 + h.val, by omega⟩
      = W.whh ⟨128 + h.val, by omega⟩ k := by
  simp only [fuse, dif_neg (show ¬ 64 + k.val < 64 by omega),
    dif_pos (show 128 + h.val < 192 by omega)]
  congr 1; exact Fin.ext (by simp)

theorem bcomb_ghn (h : Fin 64) :
    (fuse W).bcomb ⟨128 + h.val, by omega⟩ = W.bhh ⟨128 + h.val, by omega⟩ := by
  simp only [fuse, dif_neg (show ¬ 128 + h.val < 128 by omega),
    dif_pos (show 128 + h.val < 192 by omega)]

theorem wcomb_lo_gin (k h : Fin 64) :
    (fuse W).wcomb ⟨k.val, by omega⟩ ⟨192 + h.val, by omega⟩
      = W.wih ⟨128 + h.val, by omega⟩ k := by
  simp only [fuse, dif_pos k.isLt, dif_neg (show ¬ 192 + h.val < 128 by omega),
    dif_neg (show ¬ 192 + h.val < 192 by omega), dif_pos (show 192 + h.val < 256 by omega)]
  congr 1; exact Fin.ext (by show 192 + h.val - 64 = 128 + h.val; omega)

theorem wcomb_hi_gin (k h : Fin 64) :
    (fuse W).wcomb ⟨64 + k.val, by omega⟩ ⟨192 + h.val, by omega⟩ = 0 := by
  simp only [fuse, dif_neg (show ¬ 64 + k.val < 64 by omega),
    dif_neg (show ¬ 192 + h.val < 192 by omega)]

theorem bcomb_gin (h : Fin 64) :
    (fuse W).bcomb ⟨192 + h.val, by omega⟩ = W.bih ⟨128 + h.val, by omega⟩ := by
  simp only [fuse, dif_neg (show ¬ 192 + h.val < 128 by omega),
    dif_neg (show ¬ 192 + h.val < 192 by omega), dif_pos (show 192 + h.val < 256 by omega)]
  congr 1; exact Fin.ext (by show 192 + h.val - 64 = 128 + h.val; omega)

theorem wcomb_lo_out (k : Fin 64) :
    (fuse W).wcomb ⟨k.val, by omega⟩ ⟨256, by omega⟩ = W.outw k := by
  simp only [fuse, dif_pos k.isLt, dif_neg (show ¬ 256 < 128 by omega),
    dif_neg (show ¬ 256 < 192 by omega), dif_neg (show ¬ 256 < 256 by omega)]

theorem wcomb_hi_out (k : Fin 64) :
    (fuse W).wcomb ⟨64 + k.val, by omega⟩ ⟨256, by omega⟩ = 0 := by
  simp only [fuse, dif_neg (show ¬ 64 + k.val < 64 by omega), dif_neg (show ¬ 256 < 192 by omega)]

theorem bcomb_out : (fuse W).bcomb ⟨256, by omega⟩ = W.outb := by
  simp only [fuse, dif_neg (show ¬ 256 < 128 by omega), dif_neg (show ¬ 256 < 192 by omega),
    dif_neg (show ¬ 256 < 256 by omega)]

/-! ### The one product, column range by column range -/

/-- Reset and update columns: both products and both biases. -/
theorem kgate_fuse_rz (n : Fin 64) (g : Fin 128) :
    kgate (fuse W) st adjc adjo hid n ⟨g.val, by omega⟩
      = gi W st adjc adjo n ⟨g.val, by omega⟩ + gh W hid n ⟨g.val, by omega⟩ := by
  rw [kgate_split]
  simp only [wcomb_lo_rz, wcomb_hi_rz, bcomb_rz]
  unfold gi gh lin
  exact add_add_add_comm _ _ _ _

theorem kgate_fuse_r (n h : Fin 64) :
    kgate (fuse W) st adjc adjo hid n ⟨h.val, by omega⟩
      = gi W st adjc adjo n ⟨h.val, by omega⟩ + gh W hid n ⟨h.val, by omega⟩ :=
  kgate_fuse_rz W st adjc adjo hid n ⟨h.val, by omega⟩

theorem kgate_fuse_z (n h : Fin 64) :
    kgate (fuse W) st adjc adjo hid n ⟨64 + h.val, by omega⟩
      = gi W st adjc adjo n ⟨64 + h.val, by omega⟩ + gh W hid n ⟨64 + h.val, by omega⟩ :=
  kgate_fuse_rz W st adjc adjo hid n ⟨64 + h.val, by omega⟩

/-- The candidate's hidden columns: the features half vanishes. -/
theorem kgate_fuse_ghn (n h : Fin 64) :
    kgate (fuse W) st adjc adjo hid n ⟨128 + h.val, by omega⟩
      = gh W hid n ⟨128 + h.val, by omega⟩ := by
  rw [kgate_split]
  simp only [wcomb_lo_ghn, wcomb_hi_ghn, bcomb_ghn, mul_zero, Finset.sum_const_zero, zero_add]
  rfl

/-- The candidate's input columns: the hidden half vanishes. -/
theorem kgate_fuse_gin (n h : Fin 64) :
    kgate (fuse W) st adjc adjo hid n ⟨192 + h.val, by omega⟩
      = gi W st adjc adjo n ⟨128 + h.val, by omega⟩ := by
  rw [kgate_split]
  simp only [wcomb_lo_gin, wcomb_hi_gin, bcomb_gin, mul_zero, Finset.sum_const_zero, add_zero]
  rfl

/-- The head's column: the hidden half vanishes. -/
theorem kgate_fuse_out (n : Fin 64) :
    kgate (fuse W) st adjc adjo hid n ⟨256, by omega⟩
      = ∑ k : Fin 64, x3 W st adjc adjo n k * W.outw k + W.outb := by
  rw [kgate_split]
  simp only [wcomb_lo_out, wcomb_hi_out, bcomb_out, mul_zero, Finset.sum_const_zero, add_zero]

/-! ### The gates -/

theorem kr_fuse (n h : Fin 64) :
    kr (fuse W) st adjc adjo hid n h = rg W st adjc adjo hid n h := by
  unfold kr rg
  rw [kgate_fuse_r]

theorem kz_fuse (n h : Fin 64) :
    kz (fuse W) st adjc adjo hid n h = zg W st adjc adjo hid n h := by
  unfold kz zg
  rw [kgate_fuse_z]

theorem kn_fuse (n h : Fin 64) :
    kn (fuse W) st adjc adjo hid n h = ng W st adjc adjo hid n h := by
  unfold kn ng
  rw [kgate_fuse_gin, kgate_fuse_ghn, kr_fuse]

/-- The fused spelling computes the new hidden vector. -/
theorem khNew_fuse (n h : Fin 64) : khNew (fuse W) st adjc adjo hid n h = hNew W st adjc adjo hid n h := by
  unfold khNew hNew
  rw [kz_fuse, kn_fuse]

/-- The fused spelling computes the output head. -/
theorem kact_fuse (n : Fin 64) : kact (fuse W) st adjc adjo hid n = act W st adjc adjo n := by
  unfold kact act
  rw [kgate_fuse_out]

end FuseLaw

/-! ## The two results as functions of the twenty argument arrays -/

/-- The twenty argument arrays of both programs, at the extended reals, in the programs' order: the node states, the
    two adjacency arrays and the hidden vectors (each 4096 × 64 × 64), then the sixteen parameter arrays. -/
structure Args where
  a0 : (⟨3, ![4096, 64, 64]⟩ : Shape).Idx → EReal
  a1 : (⟨3, ![4096, 64, 64]⟩ : Shape).Idx → EReal
  a2 : (⟨3, ![4096, 64, 64]⟩ : Shape).Idx → EReal
  a3 : (⟨3, ![4096, 64, 64]⟩ : Shape).Idx → EReal
  a4 : (⟨2, ![64, 64]⟩ : Shape).Idx → EReal
  a5 : (⟨1, ![64]⟩ : Shape).Idx → EReal
  a6 : (⟨2, ![64, 64]⟩ : Shape).Idx → EReal
  a7 : (⟨1, ![64]⟩ : Shape).Idx → EReal
  a8 : (⟨2, ![64, 64]⟩ : Shape).Idx → EReal
  a9 : (⟨1, ![64]⟩ : Shape).Idx → EReal
  a10 : (⟨2, ![64, 64]⟩ : Shape).Idx → EReal
  a11 : (⟨1, ![64]⟩ : Shape).Idx → EReal
  a12 : (⟨2, ![64, 192]⟩ : Shape).Idx → EReal
  a13 : (⟨1, ![64]⟩ : Shape).Idx → EReal
  a14 : (⟨2, ![1, 64]⟩ : Shape).Idx → EReal
  a15 : (⟨1, ![1]⟩ : Shape).Idx → EReal
  a16 : (⟨2, ![192, 64]⟩ : Shape).Idx → EReal
  a17 : (⟨2, ![192, 64]⟩ : Shape).Idx → EReal
  a18 : (⟨1, ![192]⟩ : Shape).Idx → EReal
  a19 : (⟨1, ![192]⟩ : Shape).Idx → EReal

/-- The plain weights read off the parameter arrays. -/
def Args.weights (A : Args) : Weights where
  fc1w o k := A.a4 (ix2 o k)
  fc1b o := A.a5 (ix1 o)
  fc2w o k := A.a6 (ix2 o k)
  fc2b o := A.a7 (ix1 o)
  compw o k := A.a8 (ix2 o k)
  compb o := A.a9 (ix1 o)
  coopw o k := A.a10 (ix2 o k)
  coopb o := A.a11 (ix1 o)
  fc3w o k := A.a12 (ix2 o k)
  fc3b o := A.a13 (ix1 o)
  outw k := A.a14 (ix2 (0 : Fin 1) k)
  outb := A.a15 (ix1 (0 : Fin 1))
  wih g k := A.a16 (ix2 g k)
  whh g k := A.a17 (ix2 g k)
  bih g := A.a18 (ix1 g)
  bhh g := A.a19 (ix1 g)

/-- Batch element `b` of a 4096 × 64 × 64 array, as a 64 × 64 table. -/
def slab (x : (⟨3, ![4096, 64, 64]⟩ : Shape).Idx → EReal) (b : Fin 4096) : Fin 64 → Fin 64 → EReal :=
  fun n k => x (ix3 b n k)

/-- The new hidden vectors: entry `(b, n, h)`. -/
def Hout (A : Args) (b : Fin 4096) (n h : Fin 64) : EReal :=
  hNew A.weights (slab A.a0 b) (slab A.a1 b) (slab A.a2 b) (slab A.a3 b) n h

/-- The output head: entry `(b, n)`. -/
def Aout (A : Args) (b : Fin 4096) (n : Fin 64) : EReal :=
  act A.weights (slab A.a0 b) (slab A.a1 b) (slab A.a2 b) n

/-- The new hidden vectors through the fused weights. -/
theorem Hout_eq_fused (A : Args) (b : Fin 4096) (n h : Fin 64) :
    khNew (fuse A.weights) (slab A.a0 b) (slab A.a1 b) (slab A.a2 b) (slab A.a3 b) n h = Hout A b n h :=
  khNew_fuse _ _ _ _ _ n h

/-- The output head through the fused weights. -/
theorem Aout_eq_fused (A : Args) (b : Fin 4096) (n : Fin 64) :
    kact (fuse A.weights) (slab A.a0 b) (slab A.a1 b) (slab A.a2 b) (slab A.a3 b) n = Aout A b n :=
  kact_fuse _ _ _ _ _ n

end Cert.Spec

end
-- ==== Proof.LibDot.lean ====
/-
  A plain matrix product read at an index, at the ideal values.

  For dimension numbers that contract the left operand's axis 1 with the right operand's axis 0 and keep the
  left's axis 0 and the right's axis 1, with no batch axis — an `M × K` by `K × N` product —, the result at
  `(a, b)` is `∑ k, l (a, k) · r (k, b)` over `k : Fin K`: for the kernel's matrix unit accumulating into a
  zero vector and for the host's `dot_general` alike. The library states both as a sum over the contraction
  shape's indices at the operand indices `lhsIdx` / `rhsIdx`; here those are read off, coordinate by
  coordinate, and the sum is re-indexed by the contraction shape's one coordinate.
-/
import Idealize.ShloMosaic.PureOps.Ideal.Laws
import Idealize.ShloMosaic.Lib.ValueIdx

noncomputable section

namespace Cert.LibDot

open Idealize.ShloMosaic Idealize.ShloMosaic.ValueIdx

variable {M K N : Nat} (D : DotDims ⟨2, ![M, K]⟩ ⟨2, ![K, N]⟩ ⟨2, ![M, N]⟩)

/-- The left operand's row is the result's row. -/
theorem lhs_row (hlb : D.lhsBatch = []) (hln : D.lhsNonContracting = [0]) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column is the contraction coordinate. -/
theorem lhs_col (hlc : D.lhsContracting = [1]) (j : (⟨2, ![M, N]⟩ : Shape).Idx) (k : D.contr.Idx) :
    (D.lhsIdx j k 1).val = (k ⟨0, by rw [D.rank_contr, hlc]; exact Nat.one_pos⟩).val :=
  D.lhsIdx_val_of_single hlc j k

/-- The right operand's row is the contraction coordinate. -/
theorem rhs_row (hrc : D.rhsContracting = [0]) (j : (⟨2, ![M, N]⟩ : Shape).Idx) (k : D.contr.Idx) :
    (D.rhsIdx j k 0).val = (k ⟨0, by rw [D.rank_contr, ← D.length_contracting, hrc]; exact Nat.one_pos⟩).val :=
  D.rhsIdx_val_of_single hrc j k

/-- The right operand's column is the result's column. -/
theorem rhs_col (hlb : D.lhsBatch = []) (hrb : D.rhsBatch = []) (hln : D.lhsNonContracting = [0]) (hrn : D.rhsNonContracting = [1])
    (j : (⟨2, ![M, N]⟩ : Shape).Idx) (k : D.contr.Idx) :
    (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The contraction shape has one axis, of extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  have h := D.size_contr 0 (by rw [hlc]; exact Nat.one_pos)
  rw [h]
  simp [hlc]

/-- The library's sum over the contraction indices, as the sum over `Fin K` of the products along row `a` of the left
    operand and column `b` of the right. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have e1 : D.lhsIdx (ix2 a b) ((contrEquiv1 D K (contr_rank D hlc) (contr_size D hlc)).symm k) = ix2 a k := by
    funext x; refine Fin.ext ?_
    match x with
    | ⟨0, _⟩ => exact lhs_row D hlb hln _ _
    | ⟨1, _⟩ => exact (lhs_col D hlc _ _).trans hk
  have e2 : D.rhsIdx (ix2 a b) ((contrEquiv1 D K (contr_rank D hlc) (contr_size D hlc)).symm k) = ix2 k b := by
    funext x; refine Fin.ext ?_
    match x with
    | ⟨0, _⟩ => exact (rhs_row D hrc _ _).trans hk
    | ⟨1, _⟩ => exact rhs_col D hlb hrb hln hrn _ _
  rw [e1, e2]

/-- The kernel's matrix product into a zero accumulator, read at `(a, b)`. -/
theorem matmul_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  show FloatOps.matmul D prec l r (constant ⟨2, ![M, N]⟩ .f32 0x00000000#32) (ix2 a b) = _
  rw [Ideal.matmul_constant_zero_apply]
  exact sum_plain D hlc hrc hln hrn hlb hrb l r a b

/-- The host's product read at `(a, b)`. -/
theorem dotGeneral_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    Host.dotGeneral D prec l r (ix2 a b) = ∑ k : Fin K, l (ix2 a k) * r (ix2 k b) := by
  show FloatOps.dotGeneral D prec .single l r (ix2 a b) = _
  rw [Ideal.dotGeneral_apply]
  exact sum_plain D hlc hrc hln hrn hlb hrb l r a b

end Cert.LibDot

end
-- ==== Proof.KBlock.lean ====
/-
  What the kernel body stores, entry by entry, at the extended reals: the fused spelling of the network, applied to
  the batch element the entry belongs to.

  The body flattens the 128 × 64 × 64 blocks to 8192 rows (row `p * 64 + n` is node `n` of batch element `p`), so every
  dense layer is one product of the 8192-row matrix with a weight matrix, read at a row as a sum over the input
  features; the neighbourhood sums are one batched product of the two adjacency blocks stacked along the rows with the
  node features; a change of float format is the identity here; a concatenation reads the piece the coordinate falls in.
-/
import proofs.«402217_j80994493268285_3_alg».proof.Proof.KDefsI
import proofs.«402217_j80994493268285_3_alg».proof.Proof.Spec
import proofs.«402217_j80994493268285_3_alg».proof.Proof.LibDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

namespace Cert.KernelIdeal.KBlock

open Idealize.ShloMosaic Idealize.ShloMosaic.ValueIdx
open Cert.KernelIdeal Cert.KernelIdeal.Gen Cert.KernelIdeal.KD

/-- The fused weights read off the ten parameter blocks (each block is its whole array). -/
def Q (x4 : Vec Ideal S64x64 .f32) (x5 : Vec Ideal S1x64 .f32) (x6 : Vec Ideal S64x64 .f32) (x7 : Vec Ideal S1x64 .f32) (x8 : Vec Ideal S128x128 .f32) (x9 : Vec Ideal S1x128 .f32) (x10 : Vec Ideal S192x64 .f32) (x11 : Vec Ideal S1x64 .f32) (x12 : Vec Ideal S128x257 .f32) (x13 : Vec Ideal S1x257 .f32) : Cert.Spec.KWeights where
  w1 k o := x4 (ix2 k o)
  b1 o := x5 (ix2 (0 : Fin 1) o)
  w2 k o := x6 (ix2 k o)
  b2 o := x7 (ix2 (0 : Fin 1) o)
  wcc k c := x8 (ix2 k c)
  bcc c := x9 (ix2 (0 : Fin 1) c)
  w3 k o := x10 (ix2 k o)
  b3 o := x11 (ix2 (0 : Fin 1) o)
  wcomb k c := x12 (ix2 k c)
  bcomb c := x13 (ix2 (0 : Fin 1) c)

/-- Batch element `p` of a 128 × 64 × 64 block, as a 64 × 64 table. -/
def bslab (x : Vec Ideal S128x64x64 .f32) (p : Fin 128) : Fin 64 → Fin 64 → EReal := fun n k => x (ix3 p n k)

/-- Row `p * 64 + n` of a flattened block: node `n` of batch element `p`. -/
abbrev row (p : Fin 128) (n : Fin 64) : Fin 8192 := ⟨p.val * 64 + n.val, by omega⟩

variable {α : Type}

/-- Flattening a 128 × 64 × 64 block: row `p * 64 + n` is `(p, n)`. -/
theorem flat64_apply (x : S128x64x64.Idx → α) (h : S128x64x64.ShapeCasts S8192x64) (p : Fin 128) (n k : Fin 64) :
    shapeCast S8192x64 x h (ix2 (row p n) k) = x (ix3 p n k) :=
  shapeCast_apply x h _ (ix3 p n k) (by rw [Shape.rowMajor_val_three, Shape.rowMajor_val_two]; rfl)

/-- Unflattening 8192 rows to a 128 × 64 × 64 block. -/
theorem unflat64_apply (v : S8192x64.Idx → α) (h : S8192x64.ShapeCasts S128x64x64) (p : Fin 128) (n k : Fin 64) :
    shapeCast S128x64x64 v h (ix3 p n k) = v (ix2 (row p n) k) :=
  shapeCast_apply v h _ (ix2 (row p n) k) (by rw [Shape.rowMajor_val_three, Shape.rowMajor_val_two]; rfl)

/-- Flattening a 128 × 64 × 128 block. -/
theorem flat128_apply (x : S128x64x128.Idx → α) (h : S128x64x128.ShapeCasts S8192x128) (p : Fin 128) (n : Fin 64) (k : Fin 128) :
    shapeCast S8192x128 x h (ix2 (row p n) k) = x (ix3 p n k) :=
  shapeCast_apply x h _ (ix3 p n k) (by rw [Shape.rowMajor_val_three, Shape.rowMajor_val_two]; rfl)

/-- The 8192 × 1 column as a 128 × 64 table. -/
theorem uncol_apply (v : S8192x1.Idx → α) (h : S8192x1.ShapeCasts S128x64) (p : Fin 128) (n : Fin 64) :
    shapeCast S128x64 v h (ix2 p n) = v (ix2 (row p n) (0 : Fin 1)) :=
  shapeCast_apply v h _ (ix2 (row p n) (0 : Fin 1)) (by rw [Shape.rowMajor_val_two, Shape.rowMajor_val_two]; show (p.val * 64 + n.val) * 1 + 0 = p.val * 64 + n.val; omega)

/-- A dense layer on the flattened rows, read at a row: the product with the weight matrix into a zero accumulator,
    plus the bias row, rectified. A change of float format is the identity. -/
theorem dense_relu_apply {K N : Nat} (D : DotDims ⟨2, ![8192, K]⟩ ⟨2, ![K, N]⟩ ⟨2, ![8192, N]⟩)
    (hlc : D.lhsContracting = [1]) (hrc : D.rhsContracting = [0]) (hln : D.lhsNonContracting = [0])
    (hrn : D.rhsNonContracting = [1]) (hlb : D.lhsBatch = []) (hrb : D.rhsBatch = [])
    (l : FVec Ideal ⟨2, ![8192, K]⟩ .f32) (w : FVec Ideal ⟨2, ![K, N]⟩ .bf16) (b : FVec Ideal ⟨2, ![1, N]⟩ .f32)
    (hb : (⟨2, ![1, N]⟩ : Shape).Broadcasts ⟨2, ![8192, N]⟩) (hlt : FTy.bits .bf16 < FTy.bits .f32) (r : Fin 8192) (o : Fin N) :
    maximumf (addf (matmul D none (truncf .bf16 l hlt) w (constant ⟨2, ![8192, N]⟩ .f32 0x00000000#32)) (broadcastTo ⟨2, ![8192, N]⟩ b hb))
        (broadcast ⟨2, ![8192, N]⟩ (Scalar.ofBits (F := Ideal) .f32 0x00000000#32)) (ix2 r o)
      = max (∑ k : Fin K, l (ix2 r k) * w (ix2 k o) + b (ix2 (0 : Fin 1) o)) 0 := by
  rw [maximumf_apply, addf_apply, broadcast_apply, Cert.LibDot.matmul_plain_apply D hlc hrc hln hrn hlb hrb,
    broadcastTo_1b_ab_apply]
  show max _ (Ideal.ofBits .f32 0x00000000#32) = _
  rw [Ideal.ofBits_zero_f32]
  rfl

/-! ## The batched neighbourhood product -/

/-- Left operand, batch axis. -/
theorem lhs_bat_0 (i : S128x128x64.Idx) (q : dot_S128x128x64_S128x64x64_S128x128x64_2_1_1_2_0_0.contr.Idx) :
    (dot_S128x128x64_S128x64x64_S128x128x64_2_1_1_2_0_0.lhsIdx i q 0).val = (i 0).val := by
  unfold DotDims.lhsIdx
  rw [dif_pos (show (0 : Fin S128x128x64.rank) ∈ dot_S128x128x64_S128x64x64_S128x128x64_2_1_1_2_0_0.lhsBatch by decide)]
  rfl
/-- Left operand, row axis. -/
theorem lhs_bat_1 (i : S128x128x64.Idx) (q : dot_S128x128x64_S128x64x64_S128x128x64_2_1_1_2_0_0.contr.Idx) :
    (dot_S128x128x64_S128x64x64_S128x128x64_2_1_1_2_0_0.lhsIdx i q 1).val = (i 1).val := by
  unfold DotDims.lhsIdx
  rw [dif_neg (show ¬(1 : Fin S128x128x64.rank) ∈ dot_S128x128x64_S128x64x64_S128x128x64_2_1_1_2_0_0.lhsBatch by decide), dif_pos (show (1 : Fin S128x128x64.rank) ∈ dot_S128x128x64_S128x64x64_S128x128x64_2_1_1_2_0_0.lhsNonContracting by decide)]
  rfl
/-- Left operand, contracted axis. -/
theorem lhs_bat_2 (i : S128x128x64.Idx) (q : dot_S128x128x64_S128x64x64_S128x128x64_2_1_1_2_0_0.contr.Idx) :
    (dot_S128x128x64_S128x64x64_S128x128x64_2_1_1_2_0_0.lhsIdx i q 2).val = (q ⟨0, by decide⟩).val :=
  dot_S128x128x64_S128x64x64_S128x128x64_2_1_1_2_0_0.lhsIdx_val_of_single rfl i q
/-- Right operand, batch axis. -/
theorem rhs_bat_0 (i : S128x128x64.Idx) (q : dot_S128x128x64_S128x64x64_S128x128x64_2_1_1_2_0_0.contr.Idx) :
    (dot_S128x128x64_S128x64x64_S128x128x64_2_1_1_2_0_0.rhsIdx i q 0).val = (i 0).val := by
  unfold DotDims.rhsIdx
  rw [dif_pos (show (0 : Fin S128x64x64.rank) ∈ dot_S128x128x64_S128x64x64_S128x128x64_2_1_1_2_0_0.rhsBatch by decide)]
  rfl
/-- Right operand, contracted axis. -/
theorem rhs_bat_1 (i : S128x128x64.Idx) (q : dot_S128x128x64_S128x64x64_S128x128x64_2_1_1_2_0_0.contr.Idx) :
    (dot_S128x128x64_S128x64x64_S128x128x64_2_1_1_2_0_0.rhsIdx i q 1).val = (q ⟨0, by decide⟩).val :=
  dot_S128x128x64_S128x64x64_S128x128x64_2_1_1_2_0_0.rhsIdx_val_of_single rfl i q
/-- Right operand, column axis. -/
theorem rhs_bat_2 (i : S128x128x64.Idx) (q : dot_S128x128x64_S128x64x64_S128x128x64_2_1_1_2_0_0.contr.Idx) :
    (dot_S128x128x64_S128x64x64_S128x128x64_2_1_1_2_0_0.rhsIdx i q 2).val = (i 2).val := by
  unfold DotDims.rhsIdx
  rw [dif_neg (show ¬(2 : Fin S128x64x64.rank) ∈ dot_S128x128x64_S128x64x64_S128x128x64_2_1_1_2_0_0.rhsBatch by decide), dif_pos (show (2 : Fin S128x64x64.rank) ∈ dot_S128x128x64_S128x64x64_S128x128x64_2_1_1_2_0_0.rhsNonContracting by decide)]
  rfl

/-- The batched product into a zero accumulator at `(p, i, h)`: batch element `p`'s 128 × 64 matrix times its 64 × 64 one. -/
theorem bmm_apply {φ₁ φ₂ : FTy} (l : FVec Ideal S128x128x64 φ₁) (r : FVec Ideal S128x64x64 φ₂) (p i : Fin 128) (h : Fin 64) :
    matmul dot_S128x128x64_S128x64x64_S128x128x64_2_1_1_2_0_0 none l r (constant S128x128x64 .f32 0x00000000#32) (ix3 p i h)
      = ∑ j : Fin 64, l (ix3 p i j) * r (ix3 p j h) := by
  show FloatOps.matmul dot_S128x128x64_S128x64x64_S128x128x64_2_1_1_2_0_0 none l r (constant S128x128x64 .f32 0x00000000#32) (ix3 p i h) = _
  rw [Ideal.matmul_constant_zero_apply, ← Equiv.sum_comp (contrEquiv1 dot_S128x128x64_S128x64x64_S128x128x64_2_1_1_2_0_0 64 rfl rfl).symm]
  refine Finset.sum_congr rfl fun k _ => ?_
  have hk := contrEquiv1_symm_val dot_S128x128x64_S128x64x64_S128x128x64_2_1_1_2_0_0 64 rfl rfl k
  have el : dot_S128x128x64_S128x64x64_S128x128x64_2_1_1_2_0_0.lhsIdx (ix3 p i h) ((contrEquiv1 dot_S128x128x64_S128x64x64_S128x128x64_2_1_1_2_0_0 64 rfl rfl).symm k) = ix3 p i k := funext fun a => Fin.ext (by
    match a with
    | ⟨0, _⟩ => exact lhs_bat_0 _ _
    | ⟨1, _⟩ => exact lhs_bat_1 _ _
    | ⟨2, _⟩ => exact (lhs_bat_2 _ _).trans hk)
  have er : dot_S128x128x64_S128x64x64_S128x128x64_2_1_1_2_0_0.rhsIdx (ix3 p i h) ((contrEquiv1 dot_S128x128x64_S128x64x64_S128x128x64_2_1_1_2_0_0 64 rfl rfl).symm k) = ix3 p k h := funext fun a => Fin.ext (by
    match a with
    | ⟨0, _⟩ => exact rhs_bat_0 _ _
    | ⟨1, _⟩ => exact (rhs_bat_1 _ _).trans hk
    | ⟨2, _⟩ => exact rhs_bat_2 _ _)
  rw [el, er]

/-! ## Side-by-side joins read at an index -/

/-- Two 8192-row matrices side by side: the column says which one is read. -/
theorem cat_cols_apply {A B C : Nat} (hC : C = A + B) (l : (⟨2, ![8192, A]⟩ : Shape).Idx → α) (r : (⟨2, ![8192, B]⟩ : Shape).Idx → α)
    (h : Shape.Concatenates [⟨2, ![8192, A]⟩, ⟨2, ![8192, B]⟩] ⟨2, ![8192, C]⟩ 1) (ro : Fin 8192) (k : Fin C) :
    concatenate ⟨2, ![8192, C]⟩ 1 [⟨⟨2, ![8192, A]⟩, l⟩, ⟨⟨2, ![8192, B]⟩, r⟩] h (ix2 ro k)
      = if hk : k.val < A then l (ix2 ro ⟨k.val, hk⟩) else r (ix2 ro ⟨k.val - A, by have := k.isLt; omega⟩) := by
  split
  · next hk =>
    exact concatenate_pair_apply_left 1 l r h (ix2 ro k) rfl (ix2 ro ⟨k.val, hk⟩) (fun b => by
      match b with
      | ⟨0, _⟩ => rfl
      | ⟨1, _⟩ => rfl)
  · next hk =>
    exact concatenate_pair_apply_right 1 l r h (ix2 ro k) rfl rfl (ix2 ro ⟨k.val - A, by have := k.isLt; omega⟩) (fun b hb => by
      match b, hb with
      | ⟨0, _⟩, _ => rfl
      | ⟨1, _⟩, hb => exact absurd (Fin.ext rfl) hb) (by show (k.val - A) + A = k.val; omega)

/-- The two adjacency blocks stacked along the rows. -/
theorem stack_rows_apply (a c : S128x64x64.Idx → α) (h : Shape.Concatenates [S128x64x64, S128x64x64] S128x128x64 1)
    (p i : Fin 128) (j : Fin 64) :
    concatenate S128x128x64 1 [⟨S128x64x64, a⟩, ⟨S128x64x64, c⟩] h (ix3 p i j)
      = if hi : i.val < 64 then a (ix3 p ⟨i.val, hi⟩ j) else c (ix3 p ⟨i.val - 64, by have := i.isLt; omega⟩ j) := by
  split
  · next hi =>
    exact concatenate_pair_apply_left 1 a c h (ix3 p i j) rfl (ix3 p ⟨i.val, hi⟩ j) (fun b => by
      match b with
      | ⟨0, _⟩ => rfl
      | ⟨1, _⟩ => rfl
      | ⟨2, _⟩ => rfl)
  · next hi =>
    exact concatenate_pair_apply_right 1 a c h (ix3 p i j) rfl rfl (ix3 p ⟨i.val - 64, by have := i.isLt; omega⟩ j) (fun b hb => by
      match b, hb with
      | ⟨0, _⟩, _ => rfl
      | ⟨1, _⟩, hb => exact absurd (Fin.ext rfl) hb
      | ⟨2, _⟩, _ => rfl) (by show (i.val - 64) + 64 = i.val; omega)

/-- Two feature blocks side by side along the last axis. -/
theorem cat_feat_apply (a c : S128x64x64.Idx → α) (h : Shape.Concatenates [S128x64x64, S128x64x64] S128x64x128 2)
    (p : Fin 128) (n : Fin 64) (k : Fin 128) :
    concatenate S128x64x128 2 [⟨S128x64x64, a⟩, ⟨S128x64x64, c⟩] h (ix3 p n k)
      = if hk : k.val < 64 then a (ix3 p n ⟨k.val, hk⟩) else c (ix3 p n ⟨k.val - 64, by have := k.isLt; omega⟩) := by
  split
  · next hk =>
    exact concatenate_pair_apply_left 2 a c h (ix3 p n k) rfl (ix3 p n ⟨k.val, hk⟩) (fun b => by
      match b with
      | ⟨0, _⟩ => rfl
      | ⟨1, _⟩ => rfl
      | ⟨2, _⟩ => rfl)
  · next hk =>
    exact concatenate_pair_apply_right 2 a c h (ix3 p n k) rfl rfl (ix3 p n ⟨k.val - 64, by have := k.isLt; omega⟩) (fun b hb => by
      match b, hb with
      | ⟨0, _⟩, _ => rfl
      | ⟨1, _⟩, _ => rfl
      | ⟨2, _⟩, hb => exact absurd (Fin.ext rfl) hb) (by show (k.val - 64) + 64 = k.val; omega)

/-! ## The body's intermediate vectors, named -/

/-- A dense layer on the 8192 flattened rows, rectified: the product with the weight matrix into a zero accumulator,
    plus the bias row, then the maximum with zero. -/
def denseRelu {K N : Nat} (D : DotDims ⟨2, ![8192, K]⟩ ⟨2, ![K, N]⟩ ⟨2, ![8192, N]⟩) (l : FVec Ideal ⟨2, ![8192, K]⟩ .f32)
    (w : FVec Ideal ⟨2, ![K, N]⟩ .bf16) (b : FVec Ideal ⟨2, ![1, N]⟩ .f32) (hb : (⟨2, ![1, N]⟩ : Shape).Broadcasts ⟨2, ![8192, N]⟩) :
    FVec Ideal ⟨2, ![8192, N]⟩ .f32 :=
  maximumf (addf (matmul D none (truncf .bf16 l bitsLt_bf16_f32) w (constant ⟨2, ![8192, N]⟩ .f32 0x00000000#32)) (broadcastTo ⟨2, ![8192, N]⟩ b hb))
    (broadcast ⟨2, ![8192, N]⟩ (Scalar.ofBits (F := Ideal) .f32 0x00000000#32))

/-- The batched neighbourhood product: the two adjacency blocks stacked along the rows, times the node features. -/
def nbrProd (adjc adjo : Vec Ideal S128x64x64 .f32) (f : FVec Ideal S8192x64 .f32) : FVec Ideal S128x128x64 .f32 :=
  matmul dot_S128x128x64_S128x64x64_S128x128x64_2_1_1_2_0_0 none
    (truncf .bf16 (concatenate S128x128x64 1 [⟨S128x64x64, adjc⟩, ⟨S128x64x64, adjo⟩] concatenates_S128x64x64_S128x64x64_S128x128x64_d1) bitsLt_bf16_f32)
    (truncf .bf16 (shapeCast S128x64x64 f shapeCasts_S8192x64_S128x64x64) bitsLt_bf16_f32) (constant S128x128x64 .f32 0x00000000#32)

/-- The two neighbourhood sums of every node side by side, on the flattened rows. -/
def nbrFlat (adjc adjo : Vec Ideal S128x64x64 .f32) (f : FVec Ideal S8192x64 .f32) : FVec Ideal S8192x128 .f32 :=
  shapeCast S8192x128
    (concatenate S128x64x128 2
      [⟨S128x64x64, extractStridedSlice S128x64x64 ![0, 0, 0] (nbrProd adjc adjo f) slices_S128x128x64_o0_0_0_S128x64x64⟩,
       ⟨S128x64x64, extractStridedSlice S128x64x64 ![0, 64, 0] (nbrProd adjc adjo f) slices_S128x128x64_o0_64_0_S128x64x64⟩]
      concatenates_S128x64x64_S128x64x64_S128x64x128_d2)
    shapeCasts_S128x64x128_S8192x128

section Named

variable (v0 v1 v2 v3 : Vec Ideal S128x64x64 .f32) (v6 : FVec Ideal S64x64 .bf16) (v8 : FVec Ideal S1x64 .f32)
  (v11 : FVec Ideal S64x64 .bf16) (v13 : FVec Ideal S1x64 .f32) (v16 : FVec Ideal S128x128 .bf16) (v18 : FVec Ideal S1x128 .f32)
  (v21 : FVec Ideal S192x64 .bf16) (v23 : FVec Ideal S1x64 .f32) (v26 : FVec Ideal S128x257 .bf16) (v27 : Vec Ideal S1x257 .f32)

/-- First dense layer. -/
def a35 : FVec Ideal S8192x64 .f32 :=
  denseRelu dot_S8192x64_S64x64_S8192x64_1_0_0_1_n_n (shapeCast S8192x64 v0 shapeCasts_S128x64x64_S8192x64) v6 v8 broadcasts_S1x64_S8192x64
/-- Second dense layer: the node features. -/
def a41 : FVec Ideal S8192x64 .f32 :=
  denseRelu dot_S8192x64_S64x64_S8192x64_1_0_0_1_n_n (a35 v0 v6 v8) v11 v13 broadcasts_S1x64_S8192x64
/-- The block-diagonal layer on the two neighbourhood sums. -/
def a56 : FVec Ideal S8192x128 .f32 :=
  denseRelu dot_S8192x128_S128x128_S8192x128_1_0_0_1_n_n (nbrFlat v2 v3 (a41 v0 v6 v8 v11 v13)) v16 v18 broadcasts_S1x128_S8192x128
/-- Node features and neighbourhood features side by side. -/
def a57 : FVec Ideal S8192x192 .f32 :=
  concatenate S8192x192 1 [⟨S8192x64, a41 v0 v6 v8 v11 v13⟩, ⟨S8192x128, a56 v0 v2 v3 v6 v8 v11 v13 v16 v18⟩] concatenates_S8192x64_S8192x128_S8192x192_d1
/-- The third dense layer. -/
def a63 : FVec Ideal S8192x64 .f32 :=
  denseRelu dot_S8192x192_S192x64_S8192x64_1_0_0_1_n_n (a57 v0 v2 v3 v6 v8 v11 v13 v16 v18) v21 v23 broadcasts_S1x64_S8192x64
/-- Features and hidden vectors side by side. -/
def a65 : FVec Ideal S8192x128 .f32 :=
  concatenate S8192x128 1 [⟨S8192x64, a63 v0 v2 v3 v6 v8 v11 v13 v16 v18 v21 v23⟩, ⟨S8192x64, k0_pay12 v1⟩] concatenates_S8192x64_S8192x64_S8192x128_d1

/-- The body's gate product is the composition of the named vectors. -/
theorem pay13_eq :
    k0_pay13 (F := Ideal) v0 v1 v2 v3 v6 v8 v11 v13 v16 v18 v21 v23 v26 v27
      = addf (matmul dot_S8192x128_S128x257_S8192x257_1_0_0_1_n_n none
            (truncf .bf16 (a65 v0 v1 v2 v3 v6 v8 v11 v13 v16 v18 v21 v23) bitsLt_bf16_f32) v26 (constant S8192x257 .f32 0x00000000#32))
          (broadcastTo S8192x257 (shapeCast S1x257 v27 shapeCasts_S1x257_S1x257) broadcasts_S1x257_S8192x257) := rfl

end Named

/-! ## The named vectors read at a row -/

/-- A dense layer with rectifier at a row, for given values of the operand's row, the weight column and the bias entry. -/
theorem denseRelu_row {K N : Nat} (D : DotDims ⟨2, ![8192, K]⟩ ⟨2, ![K, N]⟩ ⟨2, ![8192, N]⟩)
    (hlc : D.lhsContracting = [1]) (hrc : D.rhsContracting = [0]) (hln : D.lhsNonContracting = [0])
    (hrn : D.rhsNonContracting = [1]) (hlb : D.lhsBatch = []) (hrb : D.rhsBatch = [])
    (l : FVec Ideal ⟨2, ![8192, K]⟩ .f32) (w : FVec Ideal ⟨2, ![K, N]⟩ .bf16) (b : FVec Ideal ⟨2, ![1, N]⟩ .f32)
    (hb : (⟨2, ![1, N]⟩ : Shape).Broadcasts ⟨2, ![8192, N]⟩) (r : Fin 8192) (o : Fin N)
    (L Wf : Fin K → EReal) (Bf : EReal)
    (hl : ∀ k, l (ix2 r k) = L k) (hw : ∀ k, w (ix2 k o) = Wf k) (hbv : b (ix2 (0 : Fin 1) o) = Bf) :
    denseRelu D l w b hb (ix2 r o) = Cert.Spec.relu (∑ k : Fin K, L k * Wf k + Bf) := by
  unfold denseRelu
  rw [dense_relu_apply D hlc hrc hln hrn hlb hrb, hbv]
  simp only [hl, hw]
  rfl

/-- The batched neighbourhood product at `(p, i, h)`: row `i` of the stacked adjacency blocks of batch element `p`
    against column `h` of its node features. -/
theorem nbrProd_apply (adjc adjo : Vec Ideal S128x64x64 .f32) (f : FVec Ideal S8192x64 .f32) (p i : Fin 128) (h : Fin 64) :
    nbrProd adjc adjo f (ix3 p i h)
      = ∑ j : Fin 64, (if hi : i.val < 64 then adjc (ix3 p ⟨i.val, hi⟩ j) else adjo (ix3 p ⟨i.val - 64, by have := i.isLt; omega⟩ j))
          * f (ix2 (row p j) h) := by
  unfold nbrProd
  rw [bmm_apply]
  refine Finset.sum_congr rfl fun j _ => ?_
  rw [truncf_apply, truncf_apply, stack_rows_apply, unflat64_apply]

/-- The two neighbourhood sums side by side at a row: the first 64 columns are rows `n` of the product, the last 64
    rows `64 + n`. -/
theorem nbrFlat_apply (adjc adjo : Vec Ideal S128x64x64 .f32) (f : FVec Ideal S8192x64 .f32) (p : Fin 128) (n : Fin 64) (k : Fin 128) :
    nbrFlat adjc adjo f (ix2 (row p n) k)
      = if hk : k.val < 64 then nbrProd adjc adjo f (ix3 p ⟨n.val, by have := n.isLt; omega⟩ ⟨k.val, hk⟩)
        else nbrProd adjc adjo f (ix3 p ⟨64 + n.val, by have := n.isLt; omega⟩ ⟨k.val - 64, by have := k.isLt; omega⟩) := by
  unfold nbrFlat
  rw [flat128_apply, cat_feat_apply]
  split
  · next hk => exact slice3_axis1_apply 0 _ _ p n ⟨k.val, hk⟩ ⟨n.val, by have := n.isLt; omega⟩ (Nat.zero_add _).symm
  · next hk => exact slice3_axis1_apply 64 _ _ p n ⟨k.val - 64, by have := k.isLt; omega⟩ ⟨64 + n.val, by have := n.isLt; omega⟩ rfl

/-- A weight matrix as the body reads it: the loaded block itself (a cast to its own shape, then a change of format). -/
theorem wcast_apply {s : Shape} (x : Vec Ideal s .f32) (h : s.ShapeCasts s) (hlt : FTy.bits .bf16 < FTy.bits .f32) (i : s.Idx) :
    (truncf .bf16 (shapeCast s x h) hlt : FVec Ideal s .bf16) i = x i := by
  rw [truncf_apply, shapeCast_self]

theorem pay3_apply (x : Vec Ideal S64x64 .f32) (i : S64x64.Idx) : k0_pay3 (F := Ideal) x i = x i := wcast_apply x _ _ i
theorem pay5_apply (x : Vec Ideal S64x64 .f32) (i : S64x64.Idx) : k0_pay5 (F := Ideal) x i = x i := wcast_apply x _ _ i
theorem pay7_apply (x : Vec Ideal S128x128 .f32) (i : S128x128.Idx) : k0_pay7 (F := Ideal) x i = x i := wcast_apply x _ _ i
theorem pay9_apply (x : Vec Ideal S192x64 .f32) (i : S192x64.Idx) : k0_pay9 (F := Ideal) x i = x i := wcast_apply x _ _ i
theorem pay11_apply (x : Vec Ideal S128x257 .f32) (i : S128x257.Idx) : k0_pay11 (F := Ideal) x i = x i := wcast_apply x _ _ i
theorem pay4_apply (x : Vec Ideal S1x64 .f32) (i : S1x64.Idx) : k0_pay4 (F := Ideal) x i = x i := congrFun (shapeCast_self x _) i
theorem pay6_apply (x : Vec Ideal S1x64 .f32) (i : S1x64.Idx) : k0_pay6 (F := Ideal) x i = x i := congrFun (shapeCast_self x _) i
theorem pay8_apply (x : Vec Ideal S1x128 .f32) (i : S1x128.Idx) : k0_pay8 (F := Ideal) x i = x i := congrFun (shapeCast_self x _) i
theorem pay10_apply (x : Vec Ideal S1x64 .f32) (i : S1x64.Idx) : k0_pay10 (F := Ideal) x i = x i := congrFun (shapeCast_self x _) i
/-- The flattened hidden block at a row. -/
theorem pay12_apply (x : Vec Ideal S128x64x64 .f32) (p : Fin 128) (n k : Fin 64) :
    k0_pay12 (F := Ideal) x (ix2 (row p n) k) = x (ix3 p n k) := flat64_apply x _ p n k

/-! ## The ladder: each named vector at row `p * 64 + n` is the fused spelling's layer at node `n` of batch element `p` -/

section Ladder

variable (x0 x1 x2 x3 : Vec Ideal S128x64x64 .f32) (x4 : Vec Ideal S64x64 .f32) (x5 : Vec Ideal S1x64 .f32) (x6 : Vec Ideal S64x64 .f32)
  (x7 : Vec Ideal S1x64 .f32) (x8 : Vec Ideal S128x128 .f32) (x9 : Vec Ideal S1x128 .f32) (x10 : Vec Ideal S192x64 .f32)
  (x11 : Vec Ideal S1x64 .f32) (x12 : Vec Ideal S128x257 .f32) (x13 : Vec Ideal S1x257 .f32) (p : Fin 128)

/-- The first dense layer. -/
theorem a35_row (n o : Fin 64) :
    a35 x0 (k0_pay3 x4) (k0_pay4 x5) (ix2 (row p n) o) = Cert.Spec.kx1 (Q x4 x5 x6 x7 x8 x9 x10 x11 x12 x13) (bslab x0 p) n o := by
  unfold a35
  exact denseRelu_row dot_S8192x64_S64x64_S8192x64_1_0_0_1_n_n rfl rfl rfl rfl rfl rfl _ _ _ _ (row p n) o (bslab x0 p n) (fun k => x4 (ix2 k o)) (x5 (ix2 (0 : Fin 1) o))
    (fun k => flat64_apply x0 _ p n k) (fun k => pay3_apply x4 _) (pay4_apply x5 _)

/-- The second dense layer: the node features. -/
theorem a41_row (n o : Fin 64) :
    a41 x0 (k0_pay3 x4) (k0_pay4 x5) (k0_pay5 x6) (k0_pay6 x7) (ix2 (row p n) o) = Cert.Spec.kx2 (Q x4 x5 x6 x7 x8 x9 x10 x11 x12 x13) (bslab x0 p) n o := by
  unfold a41
  exact denseRelu_row dot_S8192x64_S64x64_S8192x64_1_0_0_1_n_n rfl rfl rfl rfl rfl rfl _ _ _ _ (row p n) o (Cert.Spec.kx1 (Q x4 x5 x6 x7 x8 x9 x10 x11 x12 x13) (bslab x0 p) n) (fun k => x6 (ix2 k o)) (x7 (ix2 (0 : Fin 1) o))
    (fun k => a35_row x0 x4 x5 x6 x7 x8 x9 x10 x11 x12 x13 p n k) (fun k => pay5_apply x6 _) (pay6_apply x7 _)

/-- The batched product against the node features is the stacked neighbourhood sum. -/
theorem nbrProd_row (i : Fin 128) (h : Fin 64) :
    nbrProd x1 x2 (a41 x0 (k0_pay3 x4) (k0_pay4 x5) (k0_pay5 x6) (k0_pay6 x7)) (ix3 p i h) = Cert.Spec.kagg (Q x4 x5 x6 x7 x8 x9 x10 x11 x12 x13) (bslab x0 p) (bslab x1 p) (bslab x2 p) i h := by
  rw [nbrProd_apply]
  unfold Cert.Spec.kagg
  refine Finset.sum_congr rfl fun j _ => ?_
  rw [a41_row x0 x4 x5 x6 x7 x8 x9 x10 x11 x12 x13 p j h]
  rfl

/-- The two neighbourhood sums side by side. -/
theorem nbr_row (n : Fin 64) (k : Fin 128) :
    nbrFlat x1 x2 (a41 x0 (k0_pay3 x4) (k0_pay4 x5) (k0_pay5 x6) (k0_pay6 x7)) (ix2 (row p n) k) = Cert.Spec.kaggcat (Q x4 x5 x6 x7 x8 x9 x10 x11 x12 x13) (bslab x0 p) (bslab x1 p) (bslab x2 p) n k := by
  rw [nbrFlat_apply]
  unfold Cert.Spec.kaggcat
  by_cases hk : k.val < 64
  · rw [dif_pos hk, dif_pos hk]; exact nbrProd_row x0 x1 x2 x4 x5 x6 x7 x8 x9 x10 x11 x12 x13 p _ _
  · rw [dif_neg hk, dif_neg hk]; exact nbrProd_row x0 x1 x2 x4 x5 x6 x7 x8 x9 x10 x11 x12 x13 p _ _

/-- The block-diagonal layer. -/
theorem a56_row (n : Fin 64) (c : Fin 128) :
    a56 x0 x1 x2 (k0_pay3 x4) (k0_pay4 x5) (k0_pay5 x6) (k0_pay6 x7) (k0_pay7 x8) (k0_pay8 x9) (ix2 (row p n) c) = Cert.Spec.kcc (Q x4 x5 x6 x7 x8 x9 x10 x11 x12 x13) (bslab x0 p) (bslab x1 p) (bslab x2 p) n c := by
  unfold a56
  exact denseRelu_row dot_S8192x128_S128x128_S8192x128_1_0_0_1_n_n rfl rfl rfl rfl rfl rfl _ _ _ _ (row p n) c (Cert.Spec.kaggcat (Q x4 x5 x6 x7 x8 x9 x10 x11 x12 x13) (bslab x0 p) (bslab x1 p) (bslab x2 p) n) (fun k => x8 (ix2 k c)) (x9 (ix2 (0 : Fin 1) c))
    (fun k => nbr_row x0 x1 x2 x4 x5 x6 x7 x8 x9 x10 x11 x12 x13 p n k) (fun k => pay7_apply x8 _) (pay8_apply x9 _)

/-- Node features and neighbourhood features side by side. -/
theorem a57_row (n : Fin 64) (k : Fin 192) :
    a57 x0 x1 x2 (k0_pay3 x4) (k0_pay4 x5) (k0_pay5 x6) (k0_pay6 x7) (k0_pay7 x8) (k0_pay8 x9) (ix2 (row p n) k) = Cert.Spec.kcomb (Q x4 x5 x6 x7 x8 x9 x10 x11 x12 x13) (bslab x0 p) (bslab x1 p) (bslab x2 p) n k := by
  unfold a57
  refine (cat_cols_apply (A := 64) (B := 128) (C := 192) rfl _ _ _ (row p n) k).trans ?_
  unfold Cert.Spec.kcomb
  by_cases hk : k.val < 64
  · rw [dif_pos hk, dif_pos hk]; exact a41_row x0 x4 x5 x6 x7 x8 x9 x10 x11 x12 x13 p _ _
  · rw [dif_neg hk, dif_neg hk]; exact a56_row x0 x1 x2 x4 x5 x6 x7 x8 x9 x10 x11 x12 x13 p _ _

/-- The third dense layer. -/
theorem a63_row (n o : Fin 64) :
    a63 x0 x1 x2 (k0_pay3 x4) (k0_pay4 x5) (k0_pay5 x6) (k0_pay6 x7) (k0_pay7 x8) (k0_pay8 x9) (k0_pay9 x10) (k0_pay10 x11) (ix2 (row p n) o) = Cert.Spec.kx3 (Q x4 x5 x6 x7 x8 x9 x10 x11 x12 x13) (bslab x0 p) (bslab x1 p) (bslab x2 p) n o := by
  unfold a63
  exact denseRelu_row dot_S8192x192_S192x64_S8192x64_1_0_0_1_n_n rfl rfl rfl rfl rfl rfl _ _ _ _ (row p n) o (Cert.Spec.kcomb (Q x4 x5 x6 x7 x8 x9 x10 x11 x12 x13) (bslab x0 p) (bslab x1 p) (bslab x2 p) n) (fun k => x10 (ix2 k o)) (x11 (ix2 (0 : Fin 1) o))
    (fun k => a57_row x0 x1 x2 x4 x5 x6 x7 x8 x9 x10 x11 x12 x13 p n k) (fun k => pay9_apply x10 _) (pay10_apply x11 _)

/-- Features and hidden vector side by side. -/
theorem a65_row (n : Fin 64) (k : Fin 128) :
    a65 x0 x3 x1 x2 (k0_pay3 x4) (k0_pay4 x5) (k0_pay5 x6) (k0_pay6 x7) (k0_pay7 x8) (k0_pay8 x9) (k0_pay9 x10) (k0_pay10 x11) (ix2 (row p n) k) = Cert.Spec.kxh (Q x4 x5 x6 x7 x8 x9 x10 x11 x12 x13) (bslab x0 p) (bslab x1 p) (bslab x2 p) (bslab x3 p) n k := by
  unfold a65
  refine (cat_cols_apply (A := 64) (B := 64) (C := 128) rfl _ _ _ (row p n) k).trans ?_
  unfold Cert.Spec.kxh
  by_cases hk : k.val < 64
  · rw [dif_pos hk, dif_pos hk]; exact a63_row x0 x1 x2 x4 x5 x6 x7 x8 x9 x10 x11 x12 x13 p _ _
  · rw [dif_neg hk, dif_neg hk]; exact pay12_apply x3 p n _

/-- The one product of the recurrent step and the head. -/
theorem gate_row (n : Fin 64) (c : Fin 257) :
    k0_pay13 (F := Ideal) x0 x3 x1 x2 (k0_pay3 x4) (k0_pay4 x5) (k0_pay5 x6) (k0_pay6 x7) (k0_pay7 x8) (k0_pay8 x9) (k0_pay9 x10) (k0_pay10 x11) (k0_pay11 x12) x13 (ix2 (row p n) c) = Cert.Spec.kgate (Q x4 x5 x6 x7 x8 x9 x10 x11 x12 x13) (bslab x0 p) (bslab x1 p) (bslab x2 p) (bslab x3 p) n c := by
  rw [pay13_eq, addf_apply, Cert.LibDot.matmul_plain_apply dot_S8192x128_S128x257_S8192x257_1_0_0_1_n_n rfl rfl rfl rfl rfl rfl, broadcastTo_1b_ab_apply, shapeCast_self]
  unfold Cert.Spec.kgate
  refine congrArg₂ (· + ·) (Finset.sum_congr rfl fun k _ => ?_) rfl
  rw [truncf_apply, a65_row x0 x1 x2 x3 x4 x5 x6 x7 x8 x9 x10 x11 x12 x13 p n k, pay11_apply]
  rfl

end Ladder

/-! ## The five column ranges of the gate product, and the two stored values -/

/-- A 64-column range of the gate product starting at column `o`. -/
theorem gslice_apply (o : Nat) (g : FVec Ideal S8192x257 .f32) (hs : S8192x257.Slices ![0, o] S8192x64) (r : Fin 8192) (h : Fin 64)
    (c : Fin 257) (hc : c.val = o + h.val) :
    extractStridedSlice S8192x64 ![0, o] g hs (ix2 r h) = g (ix2 r c) :=
  slice2_axis1_apply o g hs r h c hc

/-- The reset gate's columns, through the logistic function. -/
theorem pay14_apply (v0 v1 v2 v3 : Vec Ideal S128x64x64 .f32) (v6 : FVec Ideal S64x64 .bf16) (v8 : FVec Ideal S1x64 .f32) (v11 : FVec Ideal S64x64 .bf16) (v13 : FVec Ideal S1x64 .f32) (v16 : FVec Ideal S128x128 .bf16) (v18 : FVec Ideal S1x128 .f32) (v21 : FVec Ideal S192x64 .bf16) (v23 : FVec Ideal S1x64 .f32) (v26 : FVec Ideal S128x257 .bf16) (v27 : Vec Ideal S1x257 .f32) (r : Fin 8192) (h : Fin 64) :
    k0_pay14 (F := Ideal) v0 v1 v2 v3 v6 v8 v11 v13 v16 v18 v21 v23 v26 v27 (ix2 r h) = Cert.Spec.sg (k0_pay13 (F := Ideal) v0 v1 v2 v3 v6 v8 v11 v13 v16 v18 v21 v23 v26 v27 (ix2 r ⟨h.val, by have := h.isLt; omega⟩)) := by
  unfold k0_pay14
  exact congrArg Ideal.logistic (gslice_apply 0 _ _ r h ⟨h.val, by have := h.isLt; omega⟩ (Nat.zero_add _).symm)

/-- The update gate's columns, through the logistic function. -/
theorem pay15_apply (v0 v1 v2 v3 : Vec Ideal S128x64x64 .f32) (v6 : FVec Ideal S64x64 .bf16) (v8 : FVec Ideal S1x64 .f32) (v11 : FVec Ideal S64x64 .bf16) (v13 : FVec Ideal S1x64 .f32) (v16 : FVec Ideal S128x128 .bf16) (v18 : FVec Ideal S1x128 .f32) (v21 : FVec Ideal S192x64 .bf16) (v23 : FVec Ideal S1x64 .f32) (v26 : FVec Ideal S128x257 .bf16) (v27 : Vec Ideal S1x257 .f32) (r : Fin 8192) (h : Fin 64) :
    k0_pay15 (F := Ideal) v0 v1 v2 v3 v6 v8 v11 v13 v16 v18 v21 v23 v26 v27 (ix2 r h) = Cert.Spec.sg (k0_pay13 (F := Ideal) v0 v1 v2 v3 v6 v8 v11 v13 v16 v18 v21 v23 v26 v27 (ix2 r ⟨64 + h.val, by have := h.isLt; omega⟩)) := by
  unfold k0_pay15
  exact congrArg Ideal.logistic (gslice_apply 64 _ _ r h ⟨64 + h.val, by have := h.isLt; omega⟩ rfl)

/-- The hidden part of the candidate. -/
theorem pay16_apply (v0 v1 v2 v3 : Vec Ideal S128x64x64 .f32) (v6 : FVec Ideal S64x64 .bf16) (v8 : FVec Ideal S1x64 .f32) (v11 : FVec Ideal S64x64 .bf16) (v13 : FVec Ideal S1x64 .f32) (v16 : FVec Ideal S128x128 .bf16) (v18 : FVec Ideal S1x128 .f32) (v21 : FVec Ideal S192x64 .bf16) (v23 : FVec Ideal S1x64 .f32) (v26 : FVec Ideal S128x257 .bf16) (v27 : Vec Ideal S1x257 .f32) (r : Fin 8192) (h : Fin 64) :
    k0_pay16 (F := Ideal) v0 v1 v2 v3 v6 v8 v11 v13 v16 v18 v21 v23 v26 v27 (ix2 r h) = k0_pay13 (F := Ideal) v0 v1 v2 v3 v6 v8 v11 v13 v16 v18 v21 v23 v26 v27 (ix2 r ⟨128 + h.val, by have := h.isLt; omega⟩) := by
  unfold k0_pay16
  exact gslice_apply 128 _ _ r h ⟨128 + h.val, by have := h.isLt; omega⟩ rfl

/-- The input part of the candidate. -/
theorem pay17_apply (v0 v1 v2 v3 : Vec Ideal S128x64x64 .f32) (v6 : FVec Ideal S64x64 .bf16) (v8 : FVec Ideal S1x64 .f32) (v11 : FVec Ideal S64x64 .bf16) (v13 : FVec Ideal S1x64 .f32) (v16 : FVec Ideal S128x128 .bf16) (v18 : FVec Ideal S1x128 .f32) (v21 : FVec Ideal S192x64 .bf16) (v23 : FVec Ideal S1x64 .f32) (v26 : FVec Ideal S128x257 .bf16) (v27 : Vec Ideal S1x257 .f32) (r : Fin 8192) (h : Fin 64) :
    k0_pay17 (F := Ideal) v0 v1 v2 v3 v6 v8 v11 v13 v16 v18 v21 v23 v26 v27 (ix2 r h) = k0_pay13 (F := Ideal) v0 v1 v2 v3 v6 v8 v11 v13 v16 v18 v21 v23 v26 v27 (ix2 r ⟨192 + h.val, by have := h.isLt; omega⟩) := by
  unfold k0_pay17
  exact gslice_apply 192 _ _ r h ⟨192 + h.val, by have := h.isLt; omega⟩ rfl

/-- The head's column. -/
theorem pay18_apply (v0 v1 v2 v3 : Vec Ideal S128x64x64 .f32) (v6 : FVec Ideal S64x64 .bf16) (v8 : FVec Ideal S1x64 .f32) (v11 : FVec Ideal S64x64 .bf16) (v13 : FVec Ideal S1x64 .f32) (v16 : FVec Ideal S128x128 .bf16) (v18 : FVec Ideal S1x128 .f32) (v21 : FVec Ideal S192x64 .bf16) (v23 : FVec Ideal S1x64 .f32) (v26 : FVec Ideal S128x257 .bf16) (v27 : Vec Ideal S1x257 .f32) (r : Fin 8192) :
    k0_pay18 (F := Ideal) v0 v1 v2 v3 v6 v8 v11 v13 v16 v18 v21 v23 v26 v27 (ix2 r (0 : Fin 1)) = k0_pay13 (F := Ideal) v0 v1 v2 v3 v6 v8 v11 v13 v16 v18 v21 v23 v26 v27 (ix2 r ⟨256, by omega⟩) := by
  unfold k0_pay18
  exact slice2_axis1_apply 256 _ _ r (0 : Fin 1) ⟨256, by omega⟩ rfl

/-- The stored hidden block from the flattened hidden vectors, the two gates and the two parts of the candidate. -/
theorem pay1_apply (v64 v71 v73 v74 v75 : FVec Ideal S8192x64 .f32) (p : Fin 128) (n h : Fin 64) :
    k0_pay1 (F := Ideal) v64 v71 v73 v74 v75 (ix3 p n h)
      = (1 - v73 (ix2 (row p n) h)) * Cert.Spec.th (v75 (ix2 (row p n) h) + v71 (ix2 (row p n) h) * v74 (ix2 (row p n) h))
          + v73 (ix2 (row p n) h) * v64 (ix2 (row p n) h) := by
  unfold k0_pay1
  refine (unflat64_apply _ _ p n h).trans ?_
  show (Ideal.ofBits .f32 0x3F800000#32 - v73 (ix2 (row p n) h)) * Ideal.tanh (v75 (ix2 (row p n) h) + v71 (ix2 (row p n) h) * v74 (ix2 (row p n) h))
      + v73 (ix2 (row p n) h) * v64 (ix2 (row p n) h) = _
  rw [Ideal.ofBits_one_f32]
  rfl

/-- The stored head block from the head's column. -/
theorem pay2_apply (v76 : FVec Ideal S8192x1 .f32) (p : Fin 128) (n : Fin 64) :
    k0_pay2 (F := Ideal) v76 (ix2 p n) = Cert.Spec.sg (v76 (ix2 (row p n) (0 : Fin 1))) := by
  unfold k0_pay2
  exact uncol_apply _ _ p n

/-- The stored hidden-vector block at `(p, n, h)`. -/
theorem hBlk_apply (x0 x1 x2 x3 : Vec Ideal S128x64x64 .f32) (x4 : Vec Ideal S64x64 .f32) (x5 : Vec Ideal S1x64 .f32) (x6 : Vec Ideal S64x64 .f32) (x7 : Vec Ideal S1x64 .f32) (x8 : Vec Ideal S128x128 .f32) (x9 : Vec Ideal S1x128 .f32) (x10 : Vec Ideal S192x64 .f32) (x11 : Vec Ideal S1x64 .f32) (x12 : Vec Ideal S128x257 .f32) (x13 : Vec Ideal S1x257 .f32) (p : Fin 128) (n h : Fin 64) :
    hBlk (F := Ideal) x0 x1 x2 x3 x4 x5 x6 x7 x8 x9 x10 x11 x12 x13 (ix3 p n h)
      = Cert.Spec.khNew (Q x4 x5 x6 x7 x8 x9 x10 x11 x12 x13) (bslab x0 p) (bslab x1 p) (bslab x2 p) (bslab x3 p) n h := by
  unfold hBlk
  rw [pay1_apply, pay14_apply, pay15_apply, pay16_apply, pay17_apply, pay12_apply]
  simp only [gate_row x0 x1 x2 x3 x4 x5 x6 x7 x8 x9 x10 x11 x12 x13 p]
  rfl

/-- The stored output-head block at `(p, n)`. -/
theorem aBlk_apply (x0 x1 x2 x3 : Vec Ideal S128x64x64 .f32) (x4 : Vec Ideal S64x64 .f32) (x5 : Vec Ideal S1x64 .f32) (x6 : Vec Ideal S64x64 .f32) (x7 : Vec Ideal S1x64 .f32) (x8 : Vec Ideal S128x128 .f32) (x9 : Vec Ideal S1x128 .f32) (x10 : Vec Ideal S192x64 .f32) (x11 : Vec Ideal S1x64 .f32) (x12 : Vec Ideal S128x257 .f32) (x13 : Vec Ideal S1x257 .f32) (p : Fin 128) (n : Fin 64) :
    aBlk (F := Ideal) x0 x1 x2 x3 x4 x5 x6 x7 x8 x9 x10 x11 x12 x13 (ix2 p n)
      = Cert.Spec.kact (Q x4 x5 x6 x7 x8 x9 x10 x11 x12 x13) (bslab x0 p) (bslab x1 p) (bslab x2 p) (bslab x3 p) n := by
  unfold aBlk
  rw [pay2_apply, pay18_apply, gate_row x0 x1 x2 x3 x4 x5 x6 x7 x8 x9 x10 x11 x12 x13 p]
  rfl

end Cert.KernelIdeal.KBlock

end
-- ==== Proof.ArgsI.lean ====
/-
  The twenty argument arrays of the kernel's program, as it finds them in memory on one core, bundled in the order
  the specification takes them.
-/
import proofs.«402217_j80994493268285_3_alg».proof.Proof.Gen.KernelIdeal
import proofs.«402217_j80994493268285_3_alg».proof.Proof.Spec

noncomputable section

namespace Cert.KernelIdeal.KA

open Idealize.ShloMosaic Idealize.ShloMosaic.TcCoe Idealize.SL.Sem Cert.KernelIdeal

/-- The argument arrays on core `c` in the memory `m`. -/
def args (m : (ℓ : Loc nD τ sig) → Buf (Elt Ideal) ℓ) (c : Dev nD) : Cert.Spec.Args where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)
  a11 := m ((c.tc : Thread nD τ).loc main_arg11)
  a12 := m ((c.tc : Thread nD τ).loc main_arg12)
  a13 := m ((c.tc : Thread nD τ).loc main_arg13)
  a14 := m ((c.tc : Thread nD τ).loc main_arg14)
  a15 := m ((c.tc : Thread nD τ).loc main_arg15)
  a16 := m ((c.tc : Thread nD τ).loc main_arg16)
  a17 := m ((c.tc : Thread nD τ).loc main_arg17)
  a18 := m ((c.tc : Thread nD τ).loc main_arg18)
  a19 := m ((c.tc : Thread nD τ).loc main_arg19)

end Cert.KernelIdeal.KA

end
-- ==== Proof.LibNary5.lean ====
/-
  The result of an operation over a LITERAL family of five operand references (a five-piece concatenation).
-/
import Idealize.ShloMosaic.Lib.StableHlo.Run

noncomputable section

namespace Cert.LibNary5

open Idealize.ShloMosaic Idealize.ShloMosaic.StableHlo

variable {τ : Topo} {sig : RefSig} {Val : EltTy → Type} {x0 x1 x2 x3 x4 y : Ref sig .tc}

/-- An operation over the literal family `![x0, x1, x2, x3, x4]` writes, at its result reference, its function at the
    five operands' contents, each read at its own reference. -/
theorem nary5_result
    (f : ((k : Fin 5) → ((![x0, x1, x2, x3, x4] : Fin 5 → Ref sig .tc) k).ty.Contents Val) → y.ty.Contents Val) (hxs hy)
    (F : Valuation τ sig Val) :
    (nary (τ := τ) ![x0, x1, x2, x3, x4] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (fun i => i.elim0)))))) := by
  rw [nary_result]; congr 1; funext k; fin_cases k <;> rfl

/-- The same with the result reference un-indexed, the form a simplification pass fires on. -/
theorem nary5_result'
    (f : ((k : Fin 5) → ((![x0, x1, x2, x3, x4] : Fin 5 → Ref sig .tc) k).ty.Contents Val) → y.ty.Contents Val) (hxs hy)
    (F : Valuation τ sig Val) :
    (nary (τ := τ) ![x0, x1, x2, x3, x4] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (fun i => i.elim0)))))) :=
  nary5_result f hxs hy F

end Cert.LibNary5

end
-- ==== Proof.HostW.lean ====
/-
  The parameter arrays the host lines before the kernel's region build, read at an index.

  Before the region the program transposes the dense layers' weights, reshapes the biases to rows, builds the
  block-diagonal matrix of the two neighbourhood layers and the 128 × 257 matrix of the recurrent step and the head by
  concatenating transposed blocks and zero blocks, and the 257-wide bias row by concatenating sums and slices of the two
  recurrent bias vectors. Each array the region then finds is, entry by entry, the fused weight the specification
  names.
-/
import proofs.«402217_j80994493268285_3_alg».proof.Proof.Gen.KernelIdeal.Launch
import proofs.«402217_j80994493268285_3_alg».proof.Proof.ArgsI
import proofs.«402217_j80994493268285_3_alg».proof.Proof.LibNary5
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HostW

open Idealize.ShloMosaic Idealize.ShloMosaic.TcCoe Idealize.ShloMosaic.ValueIdx Idealize.SL.Sem
open Cert.KernelIdeal Cert.KernelIdeal.Gen Cert.KernelIdeal.KA

variable (m : (ℓ : Loc nD τ sig) → Buf (Elt Ideal) ℓ) (c : Dev nD)

/-- Core `c`'s contents of a TensorCore buffer after the host lines before the region. -/
abbrev VV (b : Ref sig .tc) : Buf (Elt Ideal) ((c : Thread nD τ).loc b) :=
  StableHlo.after (List.flatten [hostOps0 (F := Ideal)]) (fun b => m (c, b)) (Proc.devRef .tc b)

/-- The parameter arrays on core `c`, each at its own shape. -/
abbrev a4 : S64x64.Idx → EReal := m ((c.tc : Thread nD τ).loc main_arg4)
abbrev a5 : S64.Idx → EReal := m ((c.tc : Thread nD τ).loc main_arg5)
abbrev a6 : S64x64.Idx → EReal := m ((c.tc : Thread nD τ).loc main_arg6)
abbrev a7 : S64.Idx → EReal := m ((c.tc : Thread nD τ).loc main_arg7)
abbrev a8 : S64x64.Idx → EReal := m ((c.tc : Thread nD τ).loc main_arg8)
abbrev a9 : S64.Idx → EReal := m ((c.tc : Thread nD τ).loc main_arg9)
abbrev a10 : S64x64.Idx → EReal := m ((c.tc : Thread nD τ).loc main_arg10)
abbrev a11 : S64.Idx → EReal := m ((c.tc : Thread nD τ).loc main_arg11)
abbrev a12 : S64x192.Idx → EReal := m ((c.tc : Thread nD τ).loc main_arg12)
abbrev a13 : S64.Idx → EReal := m ((c.tc : Thread nD τ).loc main_arg13)
abbrev a14 : S1x64.Idx → EReal := m ((c.tc : Thread nD τ).loc main_arg14)
abbrev a15 : S1.Idx → EReal := m ((c.tc : Thread nD τ).loc main_arg15)
abbrev a16 : S192x64.Idx → EReal := m ((c.tc : Thread nD τ).loc main_arg16)
abbrev a17 : S192x64.Idx → EReal := m ((c.tc : Thread nD τ).loc main_arg17)
abbrev a18 : S192.Idx → EReal := m ((c.tc : Thread nD τ).loc main_arg18)
abbrev a19 : S192.Idx → EReal := m ((c.tc : Thread nD τ).loc main_arg19)

/-! ## Concatenations with their pieces as plain arguments

A concatenation takes its pieces as a list of (shape, array) pairs. The two forms below are the two-piece and the
five-piece concatenation with the same arrays as plain arguments. -/

section Cats
variable {α : Type}

/-- A two-piece concatenation. -/
def cat2 (T : Shape) (a : Fin T.rank) (S0 S1 : Shape) (x0 : S0.Idx → α) (x1 : S1.Idx → α)
    (h : Shape.Concatenates [S0, S1] T a) : T.Idx → α :=
  concatenate T a [⟨S0, x0⟩, ⟨S1, x1⟩] h

/-- A five-piece concatenation. -/
def cat5 (T : Shape) (a : Fin T.rank) (S0 S1 S2 S3 S4 : Shape) (x0 : S0.Idx → α) (x1 : S1.Idx → α) (x2 : S2.Idx → α)
    (x3 : S3.Idx → α) (x4 : S4.Idx → α) (h : Shape.Concatenates [S0, S1, S2, S3, S4] T a) : T.Idx → α :=
  concatenate T a [⟨S0, x0⟩, ⟨S1, x1⟩, ⟨S2, x2⟩, ⟨S3, x3⟩, ⟨S4, x4⟩] h

theorem cat2_fold (T : Shape) (a : Fin T.rank) (S0 S1 : Shape) (x0 : S0.Idx → α) (x1 : S1.Idx → α)
    (h : Shape.Concatenates [S0, S1] T a) : concatenate T a [⟨S0, x0⟩, ⟨S1, x1⟩] h = cat2 T a S0 S1 x0 x1 h := rfl

end Cats

/-! ## The three five-piece host operations' results -/

section Nary
variable (F : Valuation τ sig (Elt Ideal))

theorem r_v25 (hxs hy) :
    (StableHlo.nary (τ := τ) ![main_v16, main_v17, main_v23, main_v18, main_v22] main_v25
        (fun u => concatenate S64x257 1 [⟨S64x64, u 0⟩, ⟨S64x64, u 1⟩, ⟨S64x64, u 2⟩, ⟨S64x64, u 3⟩, ⟨S64x1, u 4⟩]
          concatenates_S64x64_S64x64_S64x64_S64x64_S64x1_S64x257_d1) hxs hy).result F (no_index (Proc.devRef .tc main_v25))
      = cat5 S64x257 1 S64x64 S64x64 S64x64 S64x64 S64x1 (F (Proc.devRef .tc main_v16)) (F (Proc.devRef .tc main_v17))
          (F (Proc.devRef .tc main_v23)) (F (Proc.devRef .tc main_v18)) (F (Proc.devRef .tc main_v22))
          concatenates_S64x64_S64x64_S64x64_S64x64_S64x1_S64x257_d1 := by
  rw [Cert.LibNary5.nary5_result']; rfl

theorem r_v26 (hxs hy) :
    (StableHlo.nary (τ := τ) ![main_v19, main_v20, main_v21, main_v23, main_v24] main_v26
        (fun u => concatenate S64x257 1 [⟨S64x64, u 0⟩, ⟨S64x64, u 1⟩, ⟨S64x64, u 2⟩, ⟨S64x64, u 3⟩, ⟨S64x1, u 4⟩]
          concatenates_S64x64_S64x64_S64x64_S64x64_S64x1_S64x257_d1) hxs hy).result F (no_index (Proc.devRef .tc main_v26))
      = cat5 S64x257 1 S64x64 S64x64 S64x64 S64x64 S64x1 (F (Proc.devRef .tc main_v19)) (F (Proc.devRef .tc main_v20))
          (F (Proc.devRef .tc main_v21)) (F (Proc.devRef .tc main_v23)) (F (Proc.devRef .tc main_v24))
          concatenates_S64x64_S64x64_S64x64_S64x64_S64x1_S64x257_d1 := by
  rw [Cert.LibNary5.nary5_result']; rfl

theorem r_v36 (hxs hy) :
    (StableHlo.nary (τ := τ) ![main_v30, main_v33, main_v34, main_v35, main_arg15] main_v36
        (fun u => concatenate S257 0 [⟨S64, u 0⟩, ⟨S64, u 1⟩, ⟨S64, u 2⟩, ⟨S64, u 3⟩, ⟨S1, u 4⟩]
          concatenates_S64_S64_S64_S64_S1_S257_d0) hxs hy).result F (no_index (Proc.devRef .tc main_v36))
      = cat5 S257 0 S64 S64 S64 S64 S1 (F (Proc.devRef .tc main_v30)) (F (Proc.devRef .tc main_v33))
          (F (Proc.devRef .tc main_v34)) (F (Proc.devRef .tc main_v35)) (F (Proc.devRef .tc main_arg15))
          concatenates_S64_S64_S64_S64_S1_S257_d0 := by
  rw [Cert.LibNary5.nary5_result']; rfl

end Nary

/-- One buffer's contents after the host lines, as the composed term of the argument arrays: every operation's result at
    its own buffer is its function at its operands' contents, any other buffer keeps what it held. -/
macro "host_results" : tactic =>
  `(tactic| (simp (disch := decide) only [StableHlo.after_cons, StableHlo.after_nil,
      StableHlo.nullary_result', StableHlo.unary_result', StableHlo.binary_result', StableHlo.reshape_result',
      r_v25, r_v26, r_v36,
      StableHlo.nullary_result_ne', StableHlo.unary_result_ne', StableHlo.binary_result_ne', StableHlo.reshape_result_ne',
      StableHlo.nary_result_ne', cat2_fold]))

/-! ## The layout operations read at an index -/

section Reads

/-- A broadcast of the constant zero is zero everywhere. -/
theorem zero_block64 (j : S64x64.Idx) :
    broadcastInDim S64x64 ![] bcast_S_S64x64 (constant (F := Ideal) S_ .f32 0x00000000#32) j = (0 : EReal) :=
  Ideal.ofBits_zero_f32

theorem zero_col64 (j : S64x1.Idx) :
    broadcastInDim S64x1 ![] bcast_S_S64x1 (constant (F := Ideal) S_ .f32 0x00000000#32) j = (0 : EReal) :=
  Ideal.ofBits_zero_f32

/-- A slice of a 192-vector from `o` reads the vector at `o + j`. -/
theorem slice1_apply (o : Nat) (X : S192.Idx → EReal) (h : S192.Slices ![o] S64) (j : Fin 64) (k : Fin 192)
    (hk : k.val = o + j.val) : extractStridedSlice S64 ![o] X h (ix1 j) = X (ix1 k) :=
  extractStridedSlice_apply _ _ _ _ _ (fun ax => by match ax with | ⟨0, _⟩ => exact hk)

/-- Two 64 × 64 blocks side by side: the left block's columns. -/
theorem cols2_left (a b : S64x64.Idx → EReal) (k : Fin 64) (c' : Fin 128) (hc : c'.val < 64) :
    cat2 S64x128 1 S64x64 S64x64 a b concatenates_S64x64_S64x64_S64x128_d1 (ix2 k c') = a (ix2 k ⟨c'.val, hc⟩) :=
  concatenate_pair_apply_left (t := S64x128) 1 a b concatenates_S64x64_S64x64_S64x128_d1 (ix2 k c') rfl (ix2 k ⟨c'.val, hc⟩)
    (fun d => match d with | ⟨0, _⟩ => rfl | ⟨1, _⟩ => rfl)

/-- Two 64 × 64 blocks side by side: the right block's columns. -/
theorem cols2_right (a b : S64x64.Idx → EReal) (k : Fin 64) (c' : Fin 128) (hc : ¬ c'.val < 64) :
    cat2 S64x128 1 S64x64 S64x64 a b concatenates_S64x64_S64x64_S64x128_d1 (ix2 k c')
      = b (ix2 k ⟨c'.val - 64, by omega⟩) :=
  concatenate_pair_apply_right (t := S64x128) 1 a b concatenates_S64x64_S64x64_S64x128_d1 (ix2 k c') rfl rfl
    (ix2 k ⟨c'.val - 64, by omega⟩) (fun d hd => match d, hd with | ⟨0, _⟩, _ => rfl | ⟨1, _⟩, hd => absurd rfl hd)
    (by show c'.val - 64 + 64 = c'.val; omega)

/-- Two 64 × 128 blocks one above the other. -/
theorem rows128_top (a b : S64x128.Idx → EReal) (k c' : Fin 128) (hk : k.val < 64) :
    cat2 S128x128 0 S64x128 S64x128 a b concatenates_S64x128_S64x128_S128x128_d0 (ix2 k c') = a (ix2 ⟨k.val, hk⟩ c') :=
  concatenate_pair_apply_left (t := S128x128) 0 a b concatenates_S64x128_S64x128_S128x128_d0 (ix2 k c') rfl (ix2 ⟨k.val, hk⟩ c')
    (fun d => match d with | ⟨0, _⟩ => rfl | ⟨1, _⟩ => rfl)

theorem rows128_bottom (a b : S64x128.Idx → EReal) (k c' : Fin 128) (hk : ¬ k.val < 64) :
    cat2 S128x128 0 S64x128 S64x128 a b concatenates_S64x128_S64x128_S128x128_d0 (ix2 k c')
      = b (ix2 ⟨k.val - 64, by omega⟩ c') :=
  concatenate_pair_apply_right (t := S128x128) 0 a b concatenates_S64x128_S64x128_S128x128_d0 (ix2 k c') rfl rfl
    (ix2 ⟨k.val - 64, by omega⟩ c') (fun d hd => match d, hd with | ⟨0, _⟩, hd => absurd rfl hd | ⟨1, _⟩, _ => rfl)
    (by show k.val - 64 + 64 = k.val; omega)

/-- Two 64 × 257 blocks one above the other. -/
theorem rows257_top (a b : S64x257.Idx → EReal) (k : Fin 128) (c' : Fin 257) (hk : k.val < 64) :
    cat2 S128x257 0 S64x257 S64x257 a b concatenates_S64x257_S64x257_S128x257_d0 (ix2 k c') = a (ix2 ⟨k.val, hk⟩ c') :=
  concatenate_pair_apply_left (t := S128x257) 0 a b concatenates_S64x257_S64x257_S128x257_d0 (ix2 k c') rfl (ix2 ⟨k.val, hk⟩ c')
    (fun d => match d with | ⟨0, _⟩ => rfl | ⟨1, _⟩ => rfl)

theorem rows257_bottom (a b : S64x257.Idx → EReal) (k : Fin 128) (c' : Fin 257) (hk : ¬ k.val < 64) :
    cat2 S128x257 0 S64x257 S64x257 a b concatenates_S64x257_S64x257_S128x257_d0 (ix2 k c')
      = b (ix2 ⟨k.val - 64, by omega⟩ c') :=
  concatenate_pair_apply_right (t := S128x257) 0 a b concatenates_S64x257_S64x257_S128x257_d0 (ix2 k c') rfl rfl
    (ix2 ⟨k.val - 64, by omega⟩ c') (fun d hd => match d, hd with | ⟨0, _⟩, hd => absurd rfl hd | ⟨1, _⟩, _ => rfl)
    (by show k.val - 64 + 64 = k.val; omega)

/-- Two 64-vectors end to end. -/
theorem vec2_left (a b : S64.Idx → EReal) (c' : Fin 128) (hc : c'.val < 64) :
    cat2 S128 0 S64 S64 a b concatenates_S64_S64_S128_d0 (ix1 c') = a (ix1 ⟨c'.val, hc⟩) :=
  concatenate_pair_apply_left (t := S128) 0 a b concatenates_S64_S64_S128_d0 (ix1 c') rfl (ix1 ⟨c'.val, hc⟩)
    (fun d => match d with | ⟨0, _⟩ => rfl)

theorem vec2_right (a b : S64.Idx → EReal) (c' : Fin 128) (hc : ¬ c'.val < 64) :
    cat2 S128 0 S64 S64 a b concatenates_S64_S64_S128_d0 (ix1 c') = b (ix1 ⟨c'.val - 64, by omega⟩) :=
  concatenate_pair_apply_right (t := S128) 0 a b concatenates_S64_S64_S128_d0 (ix1 c') rfl rfl
    (ix1 ⟨c'.val - 64, by omega⟩) (fun d hd => match d, hd with | ⟨0, _⟩, hd => absurd rfl hd)
    (by show c'.val - 64 + 64 = c'.val; omega)

/-! Four 64 × 64 blocks and a 64 × 1 column side by side: the piece that holds column `c'`. -/

theorem cols5_0 (x0 x1 x2 x3 : S64x64.Idx → EReal) (x4 : S64x1.Idx → EReal) (k : Fin 64) (c' : Fin 257) (h2 : c'.val < 64) :
    cat5 S64x257 1 S64x64 S64x64 S64x64 S64x64 S64x1 x0 x1 x2 x3 x4
      concatenates_S64x64_S64x64_S64x64_S64x64_S64x1_S64x257_d1 (ix2 k c') = x0 (ix2 k ⟨c'.val - 0, by omega⟩) :=
  concatenate_apply_piece (t := S64x257) 1 [⟨S64x64, x0⟩, ⟨S64x64, x1⟩, ⟨S64x64, x2⟩, ⟨S64x64, x3⟩, ⟨S64x1, x4⟩]
    concatenates_S64x64_S64x64_S64x64_S64x64_S64x1_S64x257_d1 (ix2 k c')
    0 (by show (0 : Nat) < 5; omega) S64x64 x0 rfl rfl 0 rfl (ix2 k ⟨c'.val - 0, by omega⟩)
    (fun d hd => match d, hd with | ⟨0, _⟩, _ => rfl | ⟨1, _⟩, hd => absurd rfl hd)
    (by show 0 + (c'.val - 0) = c'.val; omega)

theorem cols5_1 (x0 x1 x2 x3 : S64x64.Idx → EReal) (x4 : S64x1.Idx → EReal) (k : Fin 64) (c' : Fin 257) (h1 : 64 ≤ c'.val) (h2 : c'.val < 128) :
    cat5 S64x257 1 S64x64 S64x64 S64x64 S64x64 S64x1 x0 x1 x2 x3 x4
      concatenates_S64x64_S64x64_S64x64_S64x64_S64x1_S64x257_d1 (ix2 k c') = x1 (ix2 k ⟨c'.val - 64, by omega⟩) :=
  concatenate_apply_piece (t := S64x257) 1 [⟨S64x64, x0⟩, ⟨S64x64, x1⟩, ⟨S64x64, x2⟩, ⟨S64x64, x3⟩, ⟨S64x1, x4⟩]
    concatenates_S64x64_S64x64_S64x64_S64x64_S64x1_S64x257_d1 (ix2 k c')
    1 (by show (1 : Nat) < 5; omega) S64x64 x1 rfl rfl 64 rfl (ix2 k ⟨c'.val - 64, by omega⟩)
    (fun d hd => match d, hd with | ⟨0, _⟩, _ => rfl | ⟨1, _⟩, hd => absurd rfl hd)
    (by show 64 + (c'.val - 64) = c'.val; omega)

theorem cols5_2 (x0 x1 x2 x3 : S64x64.Idx → EReal) (x4 : S64x1.Idx → EReal) (k : Fin 64) (c' : Fin 257) (h1 : 128 ≤ c'.val) (h2 : c'.val < 192) :
    cat5 S64x257 1 S64x64 S64x64 S64x64 S64x64 S64x1 x0 x1 x2 x3 x4
      concatenates_S64x64_S64x64_S64x64_S64x64_S64x1_S64x257_d1 (ix2 k c') = x2 (ix2 k ⟨c'.val - 128, by omega⟩) :=
  concatenate_apply_piece (t := S64x257) 1 [⟨S64x64, x0⟩, ⟨S64x64, x1⟩, ⟨S64x64, x2⟩, ⟨S64x64, x3⟩, ⟨S64x1, x4⟩]
    concatenates_S64x64_S64x64_S64x64_S64x64_S64x1_S64x257_d1 (ix2 k c')
    2 (by show (2 : Nat) < 5; omega) S64x64 x2 rfl rfl 128 rfl (ix2 k ⟨c'.val - 128, by omega⟩)
    (fun d hd => match d, hd with | ⟨0, _⟩, _ => rfl | ⟨1, _⟩, hd => absurd rfl hd)
    (by show 128 + (c'.val - 128) = c'.val; omega)

theorem cols5_3 (x0 x1 x2 x3 : S64x64.Idx → EReal) (x4 : S64x1.Idx → EReal) (k : Fin 64) (c' : Fin 257) (h1 : 192 ≤ c'.val) (h2 : c'.val < 256) :
    cat5 S64x257 1 S64x64 S64x64 S64x64 S64x64 S64x1 x0 x1 x2 x3 x4
      concatenates_S64x64_S64x64_S64x64_S64x64_S64x1_S64x257_d1 (ix2 k c') = x3 (ix2 k ⟨c'.val - 192, by omega⟩) :=
  concatenate_apply_piece (t := S64x257) 1 [⟨S64x64, x0⟩, ⟨S64x64, x1⟩, ⟨S64x64, x2⟩, ⟨S64x64, x3⟩, ⟨S64x1, x4⟩]
    concatenates_S64x64_S64x64_S64x64_S64x64_S64x1_S64x257_d1 (ix2 k c')
    3 (by show (3 : Nat) < 5; omega) S64x64 x3 rfl rfl 192 rfl (ix2 k ⟨c'.val - 192, by omega⟩)
    (fun d hd => match d, hd with | ⟨0, _⟩, _ => rfl | ⟨1, _⟩, hd => absurd rfl hd)
    (by show 192 + (c'.val - 192) = c'.val; omega)

theorem cols5_4 (x0 x1 x2 x3 : S64x64.Idx → EReal) (x4 : S64x1.Idx → EReal) (k : Fin 64) (c' : Fin 257) (h1 : 256 ≤ c'.val) :
    cat5 S64x257 1 S64x64 S64x64 S64x64 S64x64 S64x1 x0 x1 x2 x3 x4
      concatenates_S64x64_S64x64_S64x64_S64x64_S64x1_S64x257_d1 (ix2 k c') = x4 (ix2 k (0 : Fin 1)) :=
  concatenate_apply_piece (t := S64x257) 1 [⟨S64x64, x0⟩, ⟨S64x64, x1⟩, ⟨S64x64, x2⟩, ⟨S64x64, x3⟩, ⟨S64x1, x4⟩]
    concatenates_S64x64_S64x64_S64x64_S64x64_S64x1_S64x257_d1 (ix2 k c')
    4 (by show (4 : Nat) < 5; omega) S64x1 x4 rfl rfl 256 rfl (ix2 k (0 : Fin 1))
    (fun d hd => match d, hd with | ⟨0, _⟩, _ => rfl | ⟨1, _⟩, hd => absurd rfl hd)
    (by have := c'.isLt; show 256 + 0 = c'.val; omega)

/-! Four 64-vectors and one entry end to end: the piece that holds position `c'`. -/

theorem vec5_0 (x0 x1 x2 x3 : S64.Idx → EReal) (x4 : S1.Idx → EReal) (c' : Fin 257) (h2 : c'.val < 64) :
    cat5 S257 0 S64 S64 S64 S64 S1 x0 x1 x2 x3 x4 concatenates_S64_S64_S64_S64_S1_S257_d0 (ix1 c') = x0 (ix1 ⟨c'.val - 0, by omega⟩) :=
  concatenate_apply_piece (t := S257) 0 [⟨S64, x0⟩, ⟨S64, x1⟩, ⟨S64, x2⟩, ⟨S64, x3⟩, ⟨S1, x4⟩]
    concatenates_S64_S64_S64_S64_S1_S257_d0 (ix1 c')
    0 (by show (0 : Nat) < 5; omega) S64 x0 rfl rfl 0 rfl (ix1 ⟨c'.val - 0, by omega⟩)
    (fun d hd => match d, hd with | ⟨0, _⟩, hd => absurd rfl hd)
    (by show 0 + (c'.val - 0) = c'.val; omega)

theorem vec5_1 (x0 x1 x2 x3 : S64.Idx → EReal) (x4 : S1.Idx → EReal) (c' : Fin 257) (h1 : 64 ≤ c'.val) (h2 : c'.val < 128) :
    cat5 S257 0 S64 S64 S64 S64 S1 x0 x1 x2 x3 x4 concatenates_S64_S64_S64_S64_S1_S257_d0 (ix1 c') = x1 (ix1 ⟨c'.val - 64, by omega⟩) :=
  concatenate_apply_piece (t := S257) 0 [⟨S64, x0⟩, ⟨S64, x1⟩, ⟨S64, x2⟩, ⟨S64, x3⟩, ⟨S1, x4⟩]
    concatenates_S64_S64_S64_S64_S1_S257_d0 (ix1 c')
    1 (by show (1 : Nat) < 5; omega) S64 x1 rfl rfl 64 rfl (ix1 ⟨c'.val - 64, by omega⟩)
    (fun d hd => match d, hd with | ⟨0, _⟩, hd => absurd rfl hd)
    (by show 64 + (c'.val - 64) = c'.val; omega)

theorem vec5_2 (x0 x1 x2 x3 : S64.Idx → EReal) (x4 : S1.Idx → EReal) (c' : Fin 257) (h1 : 128 ≤ c'.val) (h2 : c'.val < 192) :
    cat5 S257 0 S64 S64 S64 S64 S1 x0 x1 x2 x3 x4 concatenates_S64_S64_S64_S64_S1_S257_d0 (ix1 c') = x2 (ix1 ⟨c'.val - 128, by omega⟩) :=
  concatenate_apply_piece (t := S257) 0 [⟨S64, x0⟩, ⟨S64, x1⟩, ⟨S64, x2⟩, ⟨S64, x3⟩, ⟨S1, x4⟩]
    concatenates_S64_S64_S64_S64_S1_S257_d0 (ix1 c')
    2 (by show (2 : Nat) < 5; omega) S64 x2 rfl rfl 128 rfl (ix1 ⟨c'.val - 128, by omega⟩)
    (fun d hd => match d, hd with | ⟨0, _⟩, hd => absurd rfl hd)
    (by show 128 + (c'.val - 128) = c'.val; omega)

theorem vec5_3 (x0 x1 x2 x3 : S64.Idx → EReal) (x4 : S1.Idx → EReal) (c' : Fin 257) (h1 : 192 ≤ c'.val) (h2 : c'.val < 256) :
    cat5 S257 0 S64 S64 S64 S64 S1 x0 x1 x2 x3 x4 concatenates_S64_S64_S64_S64_S1_S257_d0 (ix1 c') = x3 (ix1 ⟨c'.val - 192, by omega⟩) :=
  concatenate_apply_piece (t := S257) 0 [⟨S64, x0⟩, ⟨S64, x1⟩, ⟨S64, x2⟩, ⟨S64, x3⟩, ⟨S1, x4⟩]
    concatenates_S64_S64_S64_S64_S1_S257_d0 (ix1 c')
    3 (by show (3 : Nat) < 5; omega) S64 x3 rfl rfl 192 rfl (ix1 ⟨c'.val - 192, by omega⟩)
    (fun d hd => match d, hd with | ⟨0, _⟩, hd => absurd rfl hd)
    (by show 192 + (c'.val - 192) = c'.val; omega)

theorem vec5_4 (x0 x1 x2 x3 : S64.Idx → EReal) (x4 : S1.Idx → EReal) (c' : Fin 257) (h1 : 256 ≤ c'.val) :
    cat5 S257 0 S64 S64 S64 S64 S1 x0 x1 x2 x3 x4 concatenates_S64_S64_S64_S64_S1_S257_d0 (ix1 c') = x4 (ix1 (0 : Fin 1)) :=
  concatenate_apply_piece (t := S257) 0 [⟨S64, x0⟩, ⟨S64, x1⟩, ⟨S64, x2⟩, ⟨S64, x3⟩, ⟨S1, x4⟩]
    concatenates_S64_S64_S64_S64_S1_S257_d0 (ix1 c')
    4 (by show (4 : Nat) < 5; omega) S1 x4 rfl rfl 256 rfl (ix1 (0 : Fin 1))
    (fun d hd => match d, hd with | ⟨0, _⟩, hd => absurd rfl hd)
    (by have := c'.isLt; show 256 + 0 = c'.val; omega)

end Reads

/-! ## Each buffer the region reads, as the composed term of the argument arrays -/

/-- Unfolds the host lines and computes one buffer's contents after them. -/
macro "host_term" : tactic =>
  `(tactic| (dsimp only [VV]
             simp only [List.flatten_cons, List.flatten_nil, List.append_nil]
             unfold hostOps0
             host_results))

/-- The zero block and the zero column the host lines broadcast. -/
abbrev Z64 : S64x64.Idx → EReal := broadcastInDim S64x64 ![] bcast_S_S64x64 (constant (F := Ideal) S_ .f32 0x00000000#32)
abbrev Zc64 : S64x1.Idx → EReal := broadcastInDim S64x1 ![] bcast_S_S64x1 (constant (F := Ideal) S_ .f32 0x00000000#32)

/-- The recurrent step's input weights and hidden weights, transposed. -/
def t16 : S64x192.Idx → EReal := transpose S64x192 [1, 0] (a16 m c) transposes_S192x64_S64x192_1_0
def t17 : S64x192.Idx → EReal := transpose S64x192 [1, 0] (a17 m c) transposes_S192x64_S64x192_1_0

/-- Rows 0 … 63 of the fused recurrent matrix. -/
def w25 : S64x257.Idx → EReal :=
  cat5 S64x257 1 S64x64 S64x64 S64x64 S64x64 S64x1
    (extractStridedSlice S64x64 ![0, 0] (t16 m c) slices_S64x192_S64x64_0_0)
    (extractStridedSlice S64x64 ![0, 64] (t16 m c) slices_S64x192_S64x64_0_64)
    Z64
    (extractStridedSlice S64x64 ![0, 128] (t16 m c) slices_S64x192_S64x64_0_128)
    (transpose S64x1 [1, 0] (a14 m c) transposes_S1x64_S64x1_1_0)
    concatenates_S64x64_S64x64_S64x64_S64x64_S64x1_S64x257_d1

/-- Rows 64 … 127 of the fused recurrent matrix. -/
def w26 : S64x257.Idx → EReal :=
  cat5 S64x257 1 S64x64 S64x64 S64x64 S64x64 S64x1
    (extractStridedSlice S64x64 ![0, 0] (t17 m c) slices_S64x192_S64x64_0_0)
    (extractStridedSlice S64x64 ![0, 64] (t17 m c) slices_S64x192_S64x64_0_64)
    (extractStridedSlice S64x64 ![0, 128] (t17 m c) slices_S64x192_S64x64_0_128)
    Z64
    Zc64
    concatenates_S64x64_S64x64_S64x64_S64x64_S64x1_S64x257_d1

/-- The fused bias vector before it is reshaped to a row. -/
def w36 : S257.Idx → EReal :=
  cat5 S257 0 S64 S64 S64 S64 S1
    (addf (F := Ideal) (φ := .f32) (extractStridedSlice S64 ![0] (a18 m c) slices_S192_S64_0)
      (extractStridedSlice S64 ![0] (a19 m c) slices_S192_S64_0))
    (addf (F := Ideal) (φ := .f32) (extractStridedSlice S64 ![64] (a18 m c) slices_S192_S64_64)
      (extractStridedSlice S64 ![64] (a19 m c) slices_S192_S64_64))
    (extractStridedSlice S64 ![128] (a19 m c) slices_S192_S64_128)
    (extractStridedSlice S64 ![128] (a18 m c) slices_S192_S64_128)
    (a15 m c)
    concatenates_S64_S64_S64_S64_S1_S257_d0

/-- The two rows of blocks of the neighbourhood layers' block-diagonal matrix. -/
def w7 : S64x128.Idx → EReal :=
  cat2 S64x128 1 S64x64 S64x64 (transpose S64x64 [1, 0] (a8 m c) transposes_S64x64_S64x64_1_0) Z64
    concatenates_S64x64_S64x64_S64x128_d1
def w8 : S64x128.Idx → EReal :=
  cat2 S64x128 1 S64x64 S64x64 Z64 (transpose S64x64 [1, 0] (a10 m c) transposes_S64x64_S64x64_1_0)
    concatenates_S64x64_S64x64_S64x128_d1

theorem e_v0 : (VV m c main_v0 : S64x64.Idx → EReal) = transpose S64x64 [1, 0] (a4 m c) transposes_S64x64_S64x64_1_0 := by
  host_term
theorem e_v1 : (VV m c main_v1 : S1x64.Idx → EReal) = shapeCast S1x64 (a5 m c) shapeCasts_S64_S1x64 := by
  host_term
  rfl
theorem e_v2 : (VV m c main_v2 : S64x64.Idx → EReal) = transpose S64x64 [1, 0] (a6 m c) transposes_S64x64_S64x64_1_0 := by
  host_term
theorem e_v3 : (VV m c main_v3 : S1x64.Idx → EReal) = shapeCast S1x64 (a7 m c) shapeCasts_S64_S1x64 := by
  host_term
  rfl
theorem e_v9 : (VV m c main_v9 : S128x128.Idx → EReal)
    = cat2 S128x128 0 S64x128 S64x128 (w7 m c) (w8 m c) concatenates_S64x128_S64x128_S128x128_d0 := by
  host_term
  rfl
theorem e_v11 : (VV m c main_v11 : S1x128.Idx → EReal)
    = shapeCast S1x128 (cat2 S128 0 S64 S64 (a9 m c) (a11 m c) concatenates_S64_S64_S128_d0) shapeCasts_S128_S1x128 := by
  host_term
  rfl
theorem e_v12 : (VV m c main_v12 : S192x64.Idx → EReal) = transpose S192x64 [1, 0] (a12 m c) transposes_S64x192_S192x64_1_0 := by
  host_term
theorem e_v13 : (VV m c main_v13 : S1x64.Idx → EReal) = shapeCast S1x64 (a13 m c) shapeCasts_S64_S1x64 := by
  host_term
  rfl
theorem e_v27 : (VV m c main_v27 : S128x257.Idx → EReal)
    = cat2 S128x257 0 S64x257 S64x257 (w25 m c) (w26 m c) concatenates_S64x257_S64x257_S128x257_d0 := by
  host_term
  rfl
theorem e_v37 : (VV m c main_v37 : S1x257.Idx → EReal) = shapeCast S1x257 (w36 m c) shapeCasts_S257_S1x257 := by
  host_term
  rfl

/-! ## The composed terms read at an index -/

/-- Rows 0 … 63 of the fused recurrent matrix: the input weights of the reset and update gates, a zero block, the input
    weights of the candidate, and the head's weights. -/
theorem w25_at (k : Fin 64) (c' : Fin 257) : w25 m c (ix2 k c') =
    if h1 : c'.val < 128 then a16 m c (ix2 ⟨c'.val, by omega⟩ k)
    else if h2 : c'.val < 192 then 0
    else if h3 : c'.val < 256 then a16 m c (ix2 ⟨c'.val - 64, by omega⟩ k)
    else a14 m c (ix2 (0 : Fin 1) k) := by
  unfold w25
  by_cases h1 : c'.val < 128
  · rw [dif_pos h1]
    by_cases h0 : c'.val < 64
    · rw [cols5_0 _ _ _ _ _ k c' h0,
        slice2_axis1_apply 0 (t16 m c) slices_S64x192_S64x64_0_0 k ⟨c'.val - 0, by omega⟩ ⟨c'.val, by omega⟩
          (by show c'.val = 0 + (c'.val - 0); omega)]
      exact transpose_ix2_apply _ _ _ _
    · rw [cols5_1 _ _ _ _ _ k c' (by omega) h1,
        slice2_axis1_apply 64 (t16 m c) slices_S64x192_S64x64_0_64 k ⟨c'.val - 64, by omega⟩ ⟨c'.val, by omega⟩
          (by show c'.val = 64 + (c'.val - 64); omega)]
      exact transpose_ix2_apply _ _ _ _
  · rw [dif_neg h1]
    by_cases h2 : c'.val < 192
    · rw [dif_pos h2, cols5_2 _ _ _ _ _ k c' (by omega) h2]
      exact zero_block64 _
    · rw [dif_neg h2]
      by_cases h3 : c'.val < 256
      · rw [dif_pos h3, cols5_3 _ _ _ _ _ k c' (by omega) h3,
          slice2_axis1_apply 128 (t16 m c) slices_S64x192_S64x64_0_128 k ⟨c'.val - 192, by omega⟩ ⟨c'.val - 64, by omega⟩
          (by show c'.val - 64 = 128 + (c'.val - 192); omega)]
        exact transpose_ix2_apply _ _ _ _
      · rw [dif_neg h3, cols5_4 _ _ _ _ _ k c' (by omega)]
        exact transpose_ix2_apply _ _ _ _

/-- Rows 64 … 127 of the fused recurrent matrix: the hidden weights of the three gates, then zeros. -/
theorem w26_at (k : Fin 64) (c' : Fin 257) : w26 m c (ix2 k c') =
    if h1 : c'.val < 192 then a17 m c (ix2 ⟨c'.val, h1⟩ k) else 0 := by
  unfold w26
  by_cases h1 : c'.val < 192
  · rw [dif_pos h1]
    by_cases h0 : c'.val < 64
    · rw [cols5_0 _ _ _ _ _ k c' h0,
        slice2_axis1_apply 0 (t17 m c) slices_S64x192_S64x64_0_0 k ⟨c'.val - 0, by omega⟩ ⟨c'.val, by omega⟩
          (by show c'.val = 0 + (c'.val - 0); omega)]
      exact transpose_ix2_apply _ _ _ _
    · by_cases h0' : c'.val < 128
      · rw [cols5_1 _ _ _ _ _ k c' (by omega) h0',
          slice2_axis1_apply 64 (t17 m c) slices_S64x192_S64x64_0_64 k ⟨c'.val - 64, by omega⟩ ⟨c'.val, by omega⟩
          (by show c'.val = 64 + (c'.val - 64); omega)]
        exact transpose_ix2_apply _ _ _ _
      · rw [cols5_2 _ _ _ _ _ k c' (by omega) h1,
          slice2_axis1_apply 128 (t17 m c) slices_S64x192_S64x64_0_128 k ⟨c'.val - 128, by omega⟩ ⟨c'.val, by omega⟩
          (by show c'.val = 128 + (c'.val - 128); omega)]
        exact transpose_ix2_apply _ _ _ _
  · rw [dif_neg h1]
    by_cases h3 : c'.val < 256
    · rw [cols5_3 _ _ _ _ _ k c' (by omega) h3]
      exact zero_block64 _
    · rw [cols5_4 _ _ _ _ _ k c' (by omega)]
      exact zero_col64 _

/-- The fused bias vector: the two recurrent biases summed on the reset and update gates' positions, then the hidden bias
    and the input bias of the candidate, then the head's bias. -/
theorem w36_at (c' : Fin 257) : w36 m c (ix1 c') =
    if h1 : c'.val < 128 then a18 m c (ix1 ⟨c'.val, by omega⟩) + a19 m c (ix1 ⟨c'.val, by omega⟩)
    else if h2 : c'.val < 192 then a19 m c (ix1 ⟨c'.val, h2⟩)
    else if h3 : c'.val < 256 then a18 m c (ix1 ⟨c'.val - 64, by omega⟩)
    else a15 m c (ix1 (0 : Fin 1)) := by
  unfold w36
  by_cases h1 : c'.val < 128
  · rw [dif_pos h1]
    by_cases h0 : c'.val < 64
    · rw [vec5_0 _ _ _ _ _ c' h0, addf_apply,
        slice1_apply 0 (a18 m c) slices_S192_S64_0 ⟨c'.val - 0, by omega⟩ ⟨c'.val, by omega⟩
          (by show c'.val = 0 + (c'.val - 0); omega),
        slice1_apply 0 (a19 m c) slices_S192_S64_0 ⟨c'.val - 0, by omega⟩ ⟨c'.val, by omega⟩
          (by show c'.val = 0 + (c'.val - 0); omega)]
    · rw [vec5_1 _ _ _ _ _ c' (by omega) h1, addf_apply,
        slice1_apply 64 (a18 m c) slices_S192_S64_64 ⟨c'.val - 64, by omega⟩ ⟨c'.val, by omega⟩
          (by show c'.val = 64 + (c'.val - 64); omega),
        slice1_apply 64 (a19 m c) slices_S192_S64_64 ⟨c'.val - 64, by omega⟩ ⟨c'.val, by omega⟩
          (by show c'.val = 64 + (c'.val - 64); omega)]
  · rw [dif_neg h1]
    by_cases h2 : c'.val < 192
    · rw [dif_pos h2, vec5_2 _ _ _ _ _ c' (by omega) h2,
        slice1_apply 128 (a19 m c) slices_S192_S64_128 ⟨c'.val - 128, by omega⟩ ⟨c'.val, by omega⟩
          (by show c'.val = 128 + (c'.val - 128); omega)]
    · rw [dif_neg h2]
      by_cases h3 : c'.val < 256
      · rw [dif_pos h3, vec5_3 _ _ _ _ _ c' (by omega) h3,
          slice1_apply 128 (a18 m c) slices_S192_S64_128 ⟨c'.val - 192, by omega⟩ ⟨c'.val - 64, by omega⟩
          (by show c'.val - 64 = 128 + (c'.val - 192); omega)]
      · rw [dif_neg h3, vec5_4 _ _ _ _ _ c' (by omega)]

/-! ## The arrays the region finds are the fused weights -/

theorem V_v0 (k o : Fin 64) : (VV m c main_v0 : S64x64.Idx → EReal) (ix2 k o) = (Cert.Spec.fuse (args m c).weights).w1 k o := by
  rw [e_v0, transpose_ix2_apply]; rfl
theorem V_v1 (o : Fin 64) : (VV m c main_v1 : S1x64.Idx → EReal) (ix2 (0 : Fin 1) o) = (Cert.Spec.fuse (args m c).weights).b1 o := by
  rw [e_v1, shapeCast_a_1a_apply]; rfl
theorem V_v2 (k o : Fin 64) : (VV m c main_v2 : S64x64.Idx → EReal) (ix2 k o) = (Cert.Spec.fuse (args m c).weights).w2 k o := by
  rw [e_v2, transpose_ix2_apply]; rfl
theorem V_v3 (o : Fin 64) : (VV m c main_v3 : S1x64.Idx → EReal) (ix2 (0 : Fin 1) o) = (Cert.Spec.fuse (args m c).weights).b2 o := by
  rw [e_v3, shapeCast_a_1a_apply]; rfl
theorem V_v9 (k c' : Fin 128) : (VV m c main_v9 : S128x128.Idx → EReal) (ix2 k c') = (Cert.Spec.fuse (args m c).weights).wcc k c' := by
  rw [e_v9]
  show _ = if hk : k.val < 64 then (if hc : c'.val < 64 then a8 m c (ix2 ⟨c'.val, hc⟩ ⟨k.val, hk⟩) else 0)
    else (if hc : c'.val < 64 then 0 else a10 m c (ix2 ⟨c'.val - 64, by omega⟩ ⟨k.val - 64, by omega⟩))
  by_cases hk : k.val < 64
  · rw [dif_pos hk, rows128_top _ _ k c' hk]
    unfold w7
    by_cases hc : c'.val < 64
    · rw [dif_pos hc, cols2_left _ _ _ c' hc, transpose_ix2_apply]
    · rw [dif_neg hc, cols2_right _ _ _ c' hc]
      exact zero_block64 _
  · rw [dif_neg hk, rows128_bottom _ _ k c' hk]
    unfold w8
    by_cases hc : c'.val < 64
    · rw [dif_pos hc, cols2_left _ _ _ c' hc]
      exact zero_block64 _
    · rw [dif_neg hc, cols2_right _ _ _ c' hc, transpose_ix2_apply]
theorem V_v11 (c' : Fin 128) : (VV m c main_v11 : S1x128.Idx → EReal) (ix2 (0 : Fin 1) c') = (Cert.Spec.fuse (args m c).weights).bcc c' := by
  rw [e_v11, shapeCast_a_1a_apply]
  show _ = if hc : c'.val < 64 then a9 m c (ix1 ⟨c'.val, hc⟩) else a11 m c (ix1 ⟨c'.val - 64, by omega⟩)
  by_cases hc : c'.val < 64
  · rw [dif_pos hc, vec2_left _ _ c' hc]
  · rw [dif_neg hc, vec2_right _ _ c' hc]
theorem V_v12 (k : Fin 192) (o : Fin 64) : (VV m c main_v12 : S192x64.Idx → EReal) (ix2 k o) = (Cert.Spec.fuse (args m c).weights).w3 k o := by
  rw [e_v12, transpose_ix2_apply]; rfl
theorem V_v13 (o : Fin 64) : (VV m c main_v13 : S1x64.Idx → EReal) (ix2 (0 : Fin 1) o) = (Cert.Spec.fuse (args m c).weights).b3 o := by
  rw [e_v13, shapeCast_a_1a_apply]; rfl
theorem V_v27 (k : Fin 128) (c' : Fin 257) : (VV m c main_v27 : S128x257.Idx → EReal) (ix2 k c') = (Cert.Spec.fuse (args m c).weights).wcomb k c' := by
  rw [e_v27]
  show _ = if hk : k.val < 64 then
      (if h1 : c'.val < 128 then a16 m c (ix2 ⟨c'.val, by omega⟩ ⟨k.val, hk⟩)
       else if h2 : c'.val < 192 then 0
       else if h3 : c'.val < 256 then a16 m c (ix2 ⟨c'.val - 64, by omega⟩ ⟨k.val, hk⟩)
       else a14 m c (ix2 (0 : Fin 1) ⟨k.val, hk⟩))
    else (if h1 : c'.val < 192 then a17 m c (ix2 ⟨c'.val, h1⟩ ⟨k.val - 64, by omega⟩) else 0)
  by_cases hk : k.val < 64
  · rw [dif_pos hk, rows257_top _ _ k c' hk, w25_at]
  · rw [dif_neg hk, rows257_bottom _ _ k c' hk, w26_at]
theorem V_v37 (c' : Fin 257) : (VV m c main_v37 : S1x257.Idx → EReal) (ix2 (0 : Fin 1) c') = (Cert.Spec.fuse (args m c).weights).bcomb c' := by
  rw [e_v37, shapeCast_a_1a_apply, w36_at]
  rfl

end Cert.KernelIdeal.HostW

end
-- ==== Proof.KValue.lean ====
/-
  The two output arrays after the kernel's run, entry by entry, are the network's two results.

  Point `t` of the grid handles batch elements `128 t … 128 t + 127`: its blocks of the four big arrays are those
  batch elements, the ten parameter blocks are the whole parameter arrays the host lines built (the fused weights), and
  what it writes back is the stored value of those blocks — the fused spelling of the network at each of its batch
  elements, which is the layer-by-layer spelling. The 32 points' blocks tile each output array along the batch axis,
  so each array ends, everywhere, at the network's result. The last host line only adds a unit axis to the output
  head.
-/
import proofs.«402217_j80994493268285_3_alg».proof.Proof.FrameI
import proofs.«402217_j80994493268285_3_alg».proof.Proof.KBlock
import proofs.«402217_j80994493268285_3_alg».proof.Proof.HostW
import proofs.«402217_j80994493268285_3_alg».proof.Proof.ArgsI
import Idealize.ShloMosaic.Lib.Pipeline.Value
import Idealize.ShloMosaic.Lib.ValueIdx
import Idealize.ShloMosaic.Lib.StableHlo.Run

set_option maxRecDepth 16384

noncomputable section

namespace Cert.KernelIdeal.KV

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.KD Cert.KernelIdeal.Fr Cert.KernelIdeal.KA

variable (m : (ℓ : Loc nD τ sig) → Buf (Elt Ideal) ℓ) (ρ : Dev nD → PrngReg)

/-- The new hidden vectors as an array. -/
def Harr (c : Dev nD) : S4096x64x64.Idx → EReal := fun i => Cert.Spec.Hout (args m c) (i 0) (i 1) (i 2)
/-- The output head as a 4096 × 64 array. -/
def Aarr (c : Dev nD) : S4096x64.Idx → EReal := fun i => Cert.Spec.Aout (args m c) (i 0) (i 1)
/-- The output head with its unit axis. -/
def Aarr3 (c : Dev nD) : S4096x64x1.Idx → EReal := fun i => Cert.Spec.Aout (args m c) (i 0) (i 1)

theorem hz3 : (![0, 0, 0] : Fin 3 → Nat) = fun _ => 0 := funext fun a => by fin_cases a <;> rfl
theorem hz2 : (![0, 0] : Fin 2 → Nat) = fun _ => 0 := funext fun a => by fin_cases a <;> rfl

/-! ## What a point's output buffers hold: the stored values -/

theorem out0_15_eq (x0 x1 x2 x3 : Vec Ideal S128x64x64 .f32) (x4 : Vec Ideal S64x64 .f32) (x5 : Vec Ideal S1x64 .f32) (x6 : Vec Ideal S64x64 .f32) (x7 : Vec Ideal S1x64 .f32) (x8 : Vec Ideal S128x128 .f32) (x9 : Vec Ideal S1x128 .f32) (x10 : Vec Ideal S192x64 .f32) (x11 : Vec Ideal S1x64 .f32) (x12 : Vec Ideal S128x257 .f32) (x13 : Vec Ideal S1x257 .f32) :
    out0_15 x0 x1 x2 x3 x4 x5 x6 x7 x8 x9 x10 x11 x12 x13 = hBlk x0 x1 x2 x3 x4 x5 x6 x7 x8 x9 x10 x11 x12 x13 := by
  unfold out0_15
  rw [View.canon_unit_zero hz3]
  simp only [View.ld_unit_zero (S := S128x64x64) hz3, View.ld_unit_zero (S := S64x64) hz2, View.ld_unit_zero (S := S1x64) hz2,
    View.ld_unit_zero (S := S128x128) hz2, View.ld_unit_zero (S := S1x128) hz2, View.ld_unit_zero (S := S192x64) hz2,
    View.ld_unit_zero (S := S128x257) hz2, View.ld_unit_zero (S := S1x257) hz2]

theorem out0_14_eq (x0 x1 x2 x3 : Vec Ideal S128x64x64 .f32) (x4 : Vec Ideal S64x64 .f32) (x5 : Vec Ideal S1x64 .f32) (x6 : Vec Ideal S64x64 .f32) (x7 : Vec Ideal S1x64 .f32) (x8 : Vec Ideal S128x128 .f32) (x9 : Vec Ideal S1x128 .f32) (x10 : Vec Ideal S192x64 .f32) (x11 : Vec Ideal S1x64 .f32) (x12 : Vec Ideal S128x257 .f32) (x13 : Vec Ideal S1x257 .f32) :
    out0_14 x0 x1 x2 x3 x4 x5 x6 x7 x8 x9 x10 x11 x12 x13 = aBlk x0 x1 x2 x3 x4 x5 x6 x7 x8 x9 x10 x11 x12 x13 := by
  unfold out0_14
  rw [View.canon_unit_zero hz2]
  simp only [View.ld_unit_zero (S := S128x64x64) hz3, View.ld_unit_zero (S := S64x64) hz2, View.ld_unit_zero (S := S1x64) hz2,
    View.ld_unit_zero (S := S128x128) hz2, View.ld_unit_zero (S := S1x128) hz2, View.ld_unit_zero (S := S192x64) hz2,
    View.ld_unit_zero (S := S128x257) hz2, View.ld_unit_zero (S := S1x257) hz2]

/-! ## The index maps, decided over the grid -/

/-- The four big input windows and the two output windows move along the batch axis with the point; every other block index is 0. -/
theorem idx_big : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_14.index t (0 : Fin 2) = t.val ∧ win0_14.index t (1 : Fin 2) = 0)
    ∧ (win0_15.index t (0 : Fin 3) = t.val ∧ win0_15.index t (1 : Fin 3) = 0 ∧ win0_15.index t (2 : Fin 3) = 0) :=
  (by decide +kernel : ∀ t : Fin grid0.N, _)

/-- The ten parameter windows sit at block 0 at every point. -/
theorem idx_const : ∀ t : Fin cfg0.N,
    (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0) :=
  (by decide +kernel : ∀ t : Fin grid0.N, _)

/-- The grid has 32 points. -/
theorem lt32 (t : Fin cfg0.N) : t.val < 32 := lt_of_lt_of_eq t.isLt N_0

/-- The input blocks of point `t`, each at its literal type. -/
abbrev B0 (c : Dev nD) (t : Fin cfg0.N) : Vec Ideal S128x64x64 .f32 := iblk m c 0 t
abbrev B1 (c : Dev nD) (t : Fin cfg0.N) : Vec Ideal S128x64x64 .f32 := iblk m c 1 t
abbrev B2 (c : Dev nD) (t : Fin cfg0.N) : Vec Ideal S128x64x64 .f32 := iblk m c 2 t
abbrev B3 (c : Dev nD) (t : Fin cfg0.N) : Vec Ideal S128x64x64 .f32 := iblk m c 3 t
abbrev B4 (c : Dev nD) (t : Fin cfg0.N) : Vec Ideal S64x64 .f32 := iblk m c 4 t
abbrev B5 (c : Dev nD) (t : Fin cfg0.N) : Vec Ideal S1x64 .f32 := iblk m c 5 t
abbrev B6 (c : Dev nD) (t : Fin cfg0.N) : Vec Ideal S64x64 .f32 := iblk m c 6 t
abbrev B7 (c : Dev nD) (t : Fin cfg0.N) : Vec Ideal S1x64 .f32 := iblk m c 7 t
abbrev B8 (c : Dev nD) (t : Fin cfg0.N) : Vec Ideal S128x128 .f32 := iblk m c 8 t
abbrev B9 (c : Dev nD) (t : Fin cfg0.N) : Vec Ideal S1x128 .f32 := iblk m c 9 t
abbrev B10 (c : Dev nD) (t : Fin cfg0.N) : Vec Ideal S192x64 .f32 := iblk m c 10 t
abbrev B11 (c : Dev nD) (t : Fin cfg0.N) : Vec Ideal S1x64 .f32 := iblk m c 11 t
abbrev B12 (c : Dev nD) (t : Fin cfg0.N) : Vec Ideal S128x257 .f32 := iblk m c 12 t
abbrev B13 (c : Dev nD) (t : Fin cfg0.N) : Vec Ideal S1x257 .f32 := iblk m c 13 t

/-! ## The input blocks -/

/-- Point `t`'s block of big array 0 at `(p, n, k)` is the launched array at batch element `128 t + p`. -/
theorem iblk0_apply (c : Dev nD) (t : Fin cfg0.N) (p : Fin 128) (n k : Fin 64) :
    iblk m c 0 t (ix3 p n k) = m ((c : Thread nD τ).loc main_arg0) (ix3 (⟨t.val * 128 + p.val, by have := lt32 t; have := p.isLt; omega⟩ : Fin 4096) n k) := by
  unfold iblk
  show V m c main_arg0 (((cfg0.win 0).blk t).view.emb (ix3 p n k)) = _
  rw [V_main_arg0]
  congr 1
  funext a; apply Fin.ext
  obtain ⟨e0, e1, e2, e3, e14, e15⟩ := idx_big t
  match a with
  | ⟨0, _⟩ => show win0_0.index t (0 : Fin 3) * 128 + 1 * p.val = t.val * 128 + p.val; omega
  | ⟨1, _⟩ => show win0_0.index t (1 : Fin 3) * 64 + 1 * n.val = n.val; omega
  | ⟨2, _⟩ => show win0_0.index t (2 : Fin 3) * 64 + 1 * k.val = k.val; omega

/-- Point `t`'s block of big array 1 at `(p, n, k)` is the launched array at batch element `128 t + p`. -/
theorem iblk1_apply (c : Dev nD) (t : Fin cfg0.N) (p : Fin 128) (n k : Fin 64) :
    iblk m c 1 t (ix3 p n k) = m ((c : Thread nD τ).loc main_arg1) (ix3 (⟨t.val * 128 + p.val, by have := lt32 t; have := p.isLt; omega⟩ : Fin 4096) n k) := by
  unfold iblk
  show V m c main_arg1 (((cfg0.win 1).blk t).view.emb (ix3 p n k)) = _
  rw [V_main_arg1]
  congr 1
  funext a; apply Fin.ext
  obtain ⟨e0, e1, e2, e3, e14, e15⟩ := idx_big t
  match a with
  | ⟨0, _⟩ => show win0_1.index t (0 : Fin 3) * 128 + 1 * p.val = t.val * 128 + p.val; omega
  | ⟨1, _⟩ => show win0_1.index t (1 : Fin 3) * 64 + 1 * n.val = n.val; omega
  | ⟨2, _⟩ => show win0_1.index t (2 : Fin 3) * 64 + 1 * k.val = k.val; omega

/-- Point `t`'s block of big array 2 at `(p, n, k)` is the launched array at batch element `128 t + p`. -/
theorem iblk2_apply (c : Dev nD) (t : Fin cfg0.N) (p : Fin 128) (n k : Fin 64) :
    iblk m c 2 t (ix3 p n k) = m ((c : Thread nD τ).loc main_arg2) (ix3 (⟨t.val * 128 + p.val, by have := lt32 t; have := p.isLt; omega⟩ : Fin 4096) n k) := by
  unfold iblk
  show V m c main_arg2 (((cfg0.win 2).blk t).view.emb (ix3 p n k)) = _
  rw [V_main_arg2]
  congr 1
  funext a; apply Fin.ext
  obtain ⟨e0, e1, e2, e3, e14, e15⟩ := idx_big t
  match a with
  | ⟨0, _⟩ => show win0_2.index t (0 : Fin 3) * 128 + 1 * p.val = t.val * 128 + p.val; omega
  | ⟨1, _⟩ => show win0_2.index t (1 : Fin 3) * 64 + 1 * n.val = n.val; omega
  | ⟨2, _⟩ => show win0_2.index t (2 : Fin 3) * 64 + 1 * k.val = k.val; omega

/-- Point `t`'s block of big array 3 at `(p, n, k)` is the launched array at batch element `128 t + p`. -/
theorem iblk3_apply (c : Dev nD) (t : Fin cfg0.N) (p : Fin 128) (n k : Fin 64) :
    iblk m c 3 t (ix3 p n k) = m ((c : Thread nD τ).loc main_arg3) (ix3 (⟨t.val * 128 + p.val, by have := lt32 t; have := p.isLt; omega⟩ : Fin 4096) n k) := by
  unfold iblk
  show V m c main_arg3 (((cfg0.win 3).blk t).view.emb (ix3 p n k)) = _
  rw [V_main_arg3]
  congr 1
  funext a; apply Fin.ext
  obtain ⟨e0, e1, e2, e3, e14, e15⟩ := idx_big t
  match a with
  | ⟨0, _⟩ => show win0_3.index t (0 : Fin 3) * 128 + 1 * p.val = t.val * 128 + p.val; omega
  | ⟨1, _⟩ => show win0_3.index t (1 : Fin 3) * 64 + 1 * n.val = n.val; omega
  | ⟨2, _⟩ => show win0_3.index t (2 : Fin 3) * 64 + 1 * k.val = k.val; omega

/-- Parameter window 4's block is its whole array. -/
theorem iblk4_eq (c : Dev nD) (t : Fin cfg0.N) : iblk m c 4 t = (HostW.VV m c main_v0 : S64x64.Idx → EReal) := by
  funext y
  unfold iblk
  show V m c main_v0 (((cfg0.win 4).blk t).view.emb y) = V m c main_v0 y
  congr 1
  funext a; apply Fin.ext
  have hc := idx_const t
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- Parameter window 5's block is its whole array. -/
theorem iblk5_eq (c : Dev nD) (t : Fin cfg0.N) : iblk m c 5 t = (HostW.VV m c main_v1 : S1x64.Idx → EReal) := by
  funext y
  unfold iblk
  show V m c main_v1 (((cfg0.win 5).blk t).view.emb y) = V m c main_v1 y
  congr 1
  funext a; apply Fin.ext
  have hc := idx_const t
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- Parameter window 6's block is its whole array. -/
theorem iblk6_eq (c : Dev nD) (t : Fin cfg0.N) : iblk m c 6 t = (HostW.VV m c main_v2 : S64x64.Idx → EReal) := by
  funext y
  unfold iblk
  show V m c main_v2 (((cfg0.win 6).blk t).view.emb y) = V m c main_v2 y
  congr 1
  funext a; apply Fin.ext
  have hc := idx_const t
  match a with
  | ⟨0, _⟩ => show win0_6.index t (0 : Fin 2) * 64 + 1 * (y 0).val = (y 0).val; omega
  | ⟨1, _⟩ => show win0_6.index t (1 : Fin 2) * 64 + 1 * (y 1).val = (y 1).val; omega

/-- Parameter window 7's block is its whole array. -/
theorem iblk7_eq (c : Dev nD) (t : Fin cfg0.N) : iblk m c 7 t = (HostW.VV m c main_v3 : S1x64.Idx → EReal) := by
  funext y
  unfold iblk
  show V m c main_v3 (((cfg0.win 7).blk t).view.emb y) = V m c main_v3 y
  congr 1
  funext a; apply Fin.ext
  have hc := idx_const t
  match a with
  | ⟨0, _⟩ => show win0_7.index t (0 : Fin 2) * 1 + 1 * (y 0).val = (y 0).val; omega
  | ⟨1, _⟩ => show win0_7.index t (1 : Fin 2) * 64 + 1 * (y 1).val = (y 1).val; omega

/-- Parameter window 8's block is its whole array. -/
theorem iblk8_eq (c : Dev nD) (t : Fin cfg0.N) : iblk m c 8 t = (HostW.VV m c main_v9 : S128x128.Idx → EReal) := by
  funext y
  unfold iblk
  show V m c main_v9 (((cfg0.win 8).blk t).view.emb y) = V m c main_v9 y
  congr 1
  funext a; apply Fin.ext
  have hc := idx_const t
  match a with
  | ⟨0, _⟩ => show win0_8.index t (0 : Fin 2) * 128 + 1 * (y 0).val = (y 0).val; omega
  | ⟨1, _⟩ => show win0_8.index t (1 : Fin 2) * 128 + 1 * (y 1).val = (y 1).val; omega

/-- Parameter window 9's block is its whole array. -/
theorem iblk9_eq (c : Dev nD) (t : Fin cfg0.N) : iblk m c 9 t = (HostW.VV m c main_v11 : S1x128.Idx → EReal) := by
  funext y
  unfold iblk
  show V m c main_v11 (((cfg0.win 9).blk t).view.emb y) = V m c main_v11 y
  congr 1
  funext a; apply Fin.ext
  have hc := idx_const t
  match a with
  | ⟨0, _⟩ => show win0_9.index t (0 : Fin 2) * 1 + 1 * (y 0).val = (y 0).val; omega
  | ⟨1, _⟩ => show win0_9.index t (1 : Fin 2) * 128 + 1 * (y 1).val = (y 1).val; omega

/-- Parameter window 10's block is its whole array. -/
theorem iblk10_eq (c : Dev nD) (t : Fin cfg0.N) : iblk m c 10 t = (HostW.VV m c main_v12 : S192x64.Idx → EReal) := by
  funext y
  unfold iblk
  show V m c main_v12 (((cfg0.win 10).blk t).view.emb y) = V m c main_v12 y
  congr 1
  funext a; apply Fin.ext
  have hc := idx_const t
  match a with
  | ⟨0, _⟩ => show win0_10.index t (0 : Fin 2) * 192 + 1 * (y 0).val = (y 0).val; omega
  | ⟨1, _⟩ => show win0_10.index t (1 : Fin 2) * 64 + 1 * (y 1).val = (y 1).val; omega

/-- Parameter window 11's block is its whole array. -/
theorem iblk11_eq (c : Dev nD) (t : Fin cfg0.N) : iblk m c 11 t = (HostW.VV m c main_v13 : S1x64.Idx → EReal) := by
  funext y
  unfold iblk
  show V m c main_v13 (((cfg0.win 11).blk t).view.emb y) = V m c main_v13 y
  congr 1
  funext a; apply Fin.ext
  have hc := idx_const t
  match a with
  | ⟨0, _⟩ => show win0_11.index t (0 : Fin 2) * 1 + 1 * (y 0).val = (y 0).val; omega
  | ⟨1, _⟩ => show win0_11.index t (1 : Fin 2) * 64 + 1 * (y 1).val = (y 1).val; omega

/-- Parameter window 12's block is its whole array. -/
theorem iblk12_eq (c : Dev nD) (t : Fin cfg0.N) : iblk m c 12 t = (HostW.VV m c main_v27 : S128x257.Idx → EReal) := by
  funext y
  unfold iblk
  show V m c main_v27 (((cfg0.win 12).blk t).view.emb y) = V m c main_v27 y
  congr 1
  funext a; apply Fin.ext
  have hc := idx_const t
  match a with
  | ⟨0, _⟩ => show win0_12.index t (0 : Fin 2) * 128 + 1 * (y 0).val = (y 0).val; omega
  | ⟨1, _⟩ => show win0_12.index t (1 : Fin 2) * 257 + 1 * (y 1).val = (y 1).val; omega

/-- Parameter window 13's block is its whole array. -/
theorem iblk13_eq (c : Dev nD) (t : Fin cfg0.N) : iblk m c 13 t = (HostW.VV m c main_v37 : S1x257.Idx → EReal) := by
  funext y
  unfold iblk
  show V m c main_v37 (((cfg0.win 13).blk t).view.emb y) = V m c main_v37 y
  congr 1
  funext a; apply Fin.ext
  have hc := idx_const t
  match a with
  | ⟨0, _⟩ => show win0_13.index t (0 : Fin 2) * 1 + 1 * (y 0).val = (y 0).val; omega
  | ⟨1, _⟩ => show win0_13.index t (1 : Fin 2) * 257 + 1 * (y 1).val = (y 1).val; omega

/-! ## The fused weights and the batch elements a point sees -/

theorem kweights_ext (a b : Cert.Spec.KWeights) (h1 : a.w1 = b.w1) (h2 : a.b1 = b.b1) (h3 : a.w2 = b.w2) (h4 : a.b2 = b.b2)
    (h5 : a.wcc = b.wcc) (h6 : a.bcc = b.bcc) (h7 : a.w3 = b.w3) (h8 : a.b3 = b.b3) (h9 : a.wcomb = b.wcomb) (h10 : a.bcomb = b.bcomb) :
    a = b := by
  cases a; cases b; simp only at *; subst h1 h2 h3 h4 h5 h6 h7 h8 h9 h10; rfl

set_option maxHeartbeats 2000000 in
/-- The parameter blocks a point sees are the fused weights of the launched parameters. -/
theorem Q_eq (c : Dev nD) (t : Fin cfg0.N) :
    KBlock.Q (B4 m c t) (B5 m c t) (B6 m c t) (B7 m c t) (B8 m c t) (B9 m c t) (B10 m c t) (B11 m c t) (B12 m c t) (B13 m c t)
      = Cert.Spec.fuse (args m c).weights := by
  refine kweights_ext _ _ ?_ ?_ ?_ ?_ ?_ ?_ ?_ ?_ ?_ ?_
  · funext k o; exact (congrFun (iblk4_eq m c t) (ix2 k o)).trans (HostW.V_v0 m c k o)
  · funext o; exact (congrFun (iblk5_eq m c t) (ix2 (0 : Fin 1) o)).trans (HostW.V_v1 m c o)
  · funext k o; exact (congrFun (iblk6_eq m c t) (ix2 k o)).trans (HostW.V_v2 m c k o)
  · funext o; exact (congrFun (iblk7_eq m c t) (ix2 (0 : Fin 1) o)).trans (HostW.V_v3 m c o)
  · funext k o; exact (congrFun (iblk8_eq m c t) (ix2 k o)).trans (HostW.V_v9 m c k o)
  · funext o; exact (congrFun (iblk9_eq m c t) (ix2 (0 : Fin 1) o)).trans (HostW.V_v11 m c o)
  · funext k o; exact (congrFun (iblk10_eq m c t) (ix2 k o)).trans (HostW.V_v12 m c k o)
  · funext o; exact (congrFun (iblk11_eq m c t) (ix2 (0 : Fin 1) o)).trans (HostW.V_v13 m c o)
  · funext k o; exact (congrFun (iblk12_eq m c t) (ix2 k o)).trans (HostW.V_v27 m c k o)
  · funext o; exact (congrFun (iblk13_eq m c t) (ix2 (0 : Fin 1) o)).trans (HostW.V_v37 m c o)

theorem bslab0_eq (c : Dev nD) (t : Fin cfg0.N) (p : Fin 128) :
    KBlock.bslab (B0 m c t) p = Cert.Spec.slab (args m c).a0 (⟨t.val * 128 + p.val, by have := lt32 t; have := p.isLt; omega⟩ : Fin 4096) := by
  funext n k; exact iblk0_apply m c t p n k
theorem bslab1_eq (c : Dev nD) (t : Fin cfg0.N) (p : Fin 128) :
    KBlock.bslab (B1 m c t) p = Cert.Spec.slab (args m c).a1 (⟨t.val * 128 + p.val, by have := lt32 t; have := p.isLt; omega⟩ : Fin 4096) := by
  funext n k; exact iblk1_apply m c t p n k
theorem bslab2_eq (c : Dev nD) (t : Fin cfg0.N) (p : Fin 128) :
    KBlock.bslab (B2 m c t) p = Cert.Spec.slab (args m c).a2 (⟨t.val * 128 + p.val, by have := lt32 t; have := p.isLt; omega⟩ : Fin 4096) := by
  funext n k; exact iblk2_apply m c t p n k
theorem bslab3_eq (c : Dev nD) (t : Fin cfg0.N) (p : Fin 128) :
    KBlock.bslab (B3 m c t) p = Cert.Spec.slab (args m c).a3 (⟨t.val * 128 + p.val, by have := lt32 t; have := p.isLt; omega⟩ : Fin 4096) := by
  funext n k; exact iblk3_apply m c t p n k

/-! ## What a point writes back -/

set_option maxHeartbeats 2000000 in
/-- Point `t` writes back, into the hidden-vector array, its block of the network's result. -/
theorem flushed15_eq (c : Dev nD) (t : Fin cfg0.N) :
    (dats m 0 c).flushed 15 t = ((cfg0.win 15).blk t).view.read (Elt Ideal) (Harr m c) := by
  show (cfg0.win 15).cut (grid0.coords t) ((dats m 0 c).after 15 t) = _
  rw [after0_15, out0_15_eq]
  funext j
  obtain ⟨p, n, h, rfl⟩ : ∃ (p : Fin 128) (n h : Fin 64), j = ix3 p n h := ⟨j 0, j 1, j 2, eq_ix3 j⟩
  show hBlk (B0 m c t) (B1 m c t) (B2 m c t) (B3 m c t) (B4 m c t) (B5 m c t) (B6 m c t) (B7 m c t) (B8 m c t) (B9 m c t) (B10 m c t) (B11 m c t) (B12 m c t) (B13 m c t) (ix3 p n h) = Harr m c (((cfg0.win 15).blk t).view.emb (ix3 p n h))
  rw [KBlock.hBlk_apply, Q_eq, bslab0_eq, bslab1_eq, bslab2_eq, bslab3_eq, Cert.Spec.Hout_eq_fused]
  obtain ⟨e0, e1, e2, e3, e14, e15⟩ := idx_big t
  have hb : (((cfg0.win 15).blk t).view.emb (ix3 p n h)) 0 = (⟨t.val * 128 + p.val, by have := lt32 t; have := p.isLt; omega⟩ : Fin 4096) :=
    Fin.ext (by show win0_15.index t (0 : Fin 3) * 128 + 1 * p.val = t.val * 128 + p.val; omega)
  have hn : (((cfg0.win 15).blk t).view.emb (ix3 p n h)) 1 = n :=
    Fin.ext (by show win0_15.index t (1 : Fin 3) * 64 + 1 * n.val = n.val; omega)
  have hh : (((cfg0.win 15).blk t).view.emb (ix3 p n h)) 2 = h :=
    Fin.ext (by show win0_15.index t (2 : Fin 3) * 64 + 1 * h.val = h.val; omega)
  unfold Harr
  show _ = Cert.Spec.Hout (args m c) ((((cfg0.win 15).blk t).view.emb (ix3 p n h)) 0) ((((cfg0.win 15).blk t).view.emb (ix3 p n h)) 1) ((((cfg0.win 15).blk t).view.emb (ix3 p n h)) 2)
  rw [hb, hn, hh]

set_option maxHeartbeats 2000000 in
/-- Point `t` writes back, into the output-head array, its block of the network's result. -/
theorem flushed14_eq (c : Dev nD) (t : Fin cfg0.N) :
    (dats m 0 c).flushed 14 t = ((cfg0.win 14).blk t).view.read (Elt Ideal) (Aarr m c) := by
  show (cfg0.win 14).cut (grid0.coords t) ((dats m 0 c).after 14 t) = _
  rw [after0_14, out0_14_eq]
  funext j
  obtain ⟨p, n, rfl⟩ : ∃ (p : Fin 128) (n : Fin 64), j = ix2 p n := ⟨j 0, j 1, eq_ix2 j⟩
  show aBlk (B0 m c t) (B1 m c t) (B2 m c t) (B3 m c t) (B4 m c t) (B5 m c t) (B6 m c t) (B7 m c t) (B8 m c t) (B9 m c t) (B10 m c t) (B11 m c t) (B12 m c t) (B13 m c t) (ix2 p n) = Aarr m c (((cfg0.win 14).blk t).view.emb (ix2 p n))
  rw [KBlock.aBlk_apply, Q_eq, bslab0_eq, bslab1_eq, bslab2_eq, bslab3_eq, Cert.Spec.Aout_eq_fused]
  obtain ⟨e0, e1, e2, e3, e14, e15⟩ := idx_big t
  have hb : (((cfg0.win 14).blk t).view.emb (ix2 p n)) 0 = (⟨t.val * 128 + p.val, by have := lt32 t; have := p.isLt; omega⟩ : Fin 4096) :=
    Fin.ext (by show win0_14.index t (0 : Fin 2) * 128 + 1 * p.val = t.val * 128 + p.val; omega)
  have hn : (((cfg0.win 14).blk t).view.emb (ix2 p n)) 1 = n :=
    Fin.ext (by show win0_14.index t (1 : Fin 2) * 64 + 1 * n.val = n.val; omega)
  unfold Aarr
  show _ = Cert.Spec.Aout (args m c) ((((cfg0.win 14).blk t).view.emb (ix2 p n)) 0) ((((cfg0.win 14).blk t).view.emb (ix2 p n)) 1)
  rw [hb, hn]

/-! ## The points' blocks tile the output arrays -/

theorem mem_blk15 (t : Fin cfg0.N) (i : S4096x64x64.Idx) :
    i ∈ ((cfg0.win 15).blk t).view.set ↔ ∀ a : Fin 3, win0_15.index t a * S128x64x64.size a ≤ (i a).val ∧ (i a).val < win0_15.index t a * S128x64x64.size a + S128x64x64.size a := by
  show i ∈ ((View.whole main_v38_1).slice (win0_15.rect t)).set ↔ _
  rw [View.set_slice_whole, Rect.mem_set_unit]
  exact Iff.rfl

theorem mem_blk14 (t : Fin cfg0.N) (i : S4096x64.Idx) :
    i ∈ ((cfg0.win 14).blk t).view.set ↔ ∀ a : Fin 2, win0_14.index t a * S128x64.size a ≤ (i a).val ∧ (i a).val < win0_14.index t a * S128x64.size a + S128x64.size a := by
  show i ∈ ((View.whole main_v38_0).slice (win0_14.rect t)).set ↔ _
  rw [View.set_slice_whole, Rect.mem_set_unit]
  exact Iff.rfl

/-- Entry `(b, n, h)` lies in the block of point `b / 128`. -/
theorem cover15 (i : S4096x64x64.Idx) : ∃ t : Fin cfg0.N, (cfg0.win 15).flush t = true ∧ i ∈ ((cfg0.win 15).blk t).view.set := by
  have hi0 : (i 0).val < 4096 := (i 0).isLt
  have hi1 : (i 1).val < 64 := (i 1).isLt
  have hi2 : (i 2).val < 64 := (i 2).isLt
  have hN : (i 0).val / 128 < cfg0.N := by rw [show cfg0.N = 32 from N_0]; omega
  obtain ⟨e0, e1, e2, e3, e14, e15⟩ := idx_big ⟨(i 0).val / 128, hN⟩
  refine ⟨⟨(i 0).val / 128, hN⟩, flush0_15 _, ?_⟩
  rw [mem_blk15]
  intro a
  match a with
  | ⟨0, _⟩ => show win0_15.index ⟨(i 0).val / 128, hN⟩ (0 : Fin 3) * 128 ≤ (i 0).val ∧ (i 0).val < win0_15.index ⟨(i 0).val / 128, hN⟩ (0 : Fin 3) * 128 + 128; have := e15.1; simp only at this; omega
  | ⟨1, _⟩ => show win0_15.index ⟨(i 0).val / 128, hN⟩ (1 : Fin 3) * 64 ≤ (i 1).val ∧ (i 1).val < win0_15.index ⟨(i 0).val / 128, hN⟩ (1 : Fin 3) * 64 + 64; have := e15.2.1; omega
  | ⟨2, _⟩ => show win0_15.index ⟨(i 0).val / 128, hN⟩ (2 : Fin 3) * 64 ≤ (i 2).val ∧ (i 2).val < win0_15.index ⟨(i 0).val / 128, hN⟩ (2 : Fin 3) * 64 + 64; have := e15.2.2; omega

theorem cover14 (i : S4096x64.Idx) : ∃ t : Fin cfg0.N, (cfg0.win 14).flush t = true ∧ i ∈ ((cfg0.win 14).blk t).view.set := by
  have hi0 : (i 0).val < 4096 := (i 0).isLt
  have hi1 : (i 1).val < 64 := (i 1).isLt
  have hN : (i 0).val / 128 < cfg0.N := by rw [show cfg0.N = 32 from N_0]; omega
  obtain ⟨e0, e1, e2, e3, e14, e15⟩ := idx_big ⟨(i 0).val / 128, hN⟩
  refine ⟨⟨(i 0).val / 128, hN⟩, flush0_14 _, ?_⟩
  rw [mem_blk14]
  intro a
  match a with
  | ⟨0, _⟩ => show win0_14.index ⟨(i 0).val / 128, hN⟩ (0 : Fin 2) * 128 ≤ (i 0).val ∧ (i 0).val < win0_14.index ⟨(i 0).val / 128, hN⟩ (0 : Fin 2) * 128 + 128; have := e14.1; simp only at this; omega
  | ⟨1, _⟩ => show win0_14.index ⟨(i 0).val / 128, hN⟩ (1 : Fin 2) * 64 ≤ (i 1).val ∧ (i 1).val < win0_14.index ⟨(i 0).val / 128, hN⟩ (1 : Fin 2) * 64 + 64; have := e14.2; omega

/-! ## The arrays after the run -/

/-- The hidden-vector array ends at the network's result. -/
theorem final15 (c : Dev nD) : (dats m 0 c).arrAt 15 cfg0.N = Harr m c :=
  (dats m 0 c).arrAt_eq_of_cover 15 (Harr m c) (fun t _ => flushed15_eq m c t) (cover15)

/-- The output-head array ends at the network's result. -/
theorem final14 (c : Dev nD) : (dats m 0 c).arrAt 14 cfg0.N = Aarr m c :=
  (dats m 0 c).arrAt_eq_of_cover 14 (Aarr m c) (fun t _ => flushed14_eq m c t) (cover14)

/-! ## The last host line, and the run read at the results -/

/-- A cast that appends a unit axis reads the same entry. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- After the last host line the three-axis output head is the network's result. -/
theorem tail39 (c : Dev nD) : Pipeline.afterTail₀ cfgs (dats m) 0 (V0 m) [hostOps1] c main_v39 = Aarr3 m c := by
  unfold Pipeline.afterTail₀
  show StableHlo.after hostOps1 _ (Proc.devRef .tc main_v39) = _
  after_results
  funext i
  obtain ⟨b, n, u, rfl⟩ : ∃ (b : Fin 4096) (n : Fin 64) (u : Fin 1), i = ix3 b n u := ⟨i 0, i 1, i 2, eq_ix3 i⟩
  show shapeCast S4096x64x1 (Pipeline.withArrays (cfgs 0).spec c (V0 m c) (fun w => (dats m 0 c).arrAt w (cfgs 0).N) (Proc.devRef .tc main_v38_0))
      shapeCasts_S4096x64_S4096x64x1 (ix3 b n u) = _
  rw [shapeCast_ab_ab1_apply]
  have e := Pipeline.withArrays_arr spec0 launch0.win.arr_inj c (V0 m c) (fun w => (dats m 0 c).arrAt w (cfgs 0).N) 14
  have e' : Pipeline.withArrays (cfgs 0).spec c (V0 m c) (fun w => (dats m 0 c).arrAt w (cfgs 0).N) (Proc.devRef .tc main_v38_0)
      = (dats m 0 c).arrAt 14 cfg0.N := e
  rw [e', final14]
  rfl

/-- The run, read at the two results and the twenty argument arrays. -/
theorem run_values : θ_run defs (onTc (τ := τ) (main (F := Ideal))) ⟨m, fun _ => 0, ρ⟩ (fun r => ∀ c : Dev nD,
      r.2.mem ((c.tc : Thread nD τ).loc main_v39) = Aarr3 m c
      ∧ r.2.mem ((c.tc : Thread nD τ).loc main_v38_1) = Harr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨((h c).2 main_v39 (Pipeline.mem_restRefs_of main_v39 (by decide) (by decide))).trans (tail39 m c),
    ((h c).1 15).trans (final15 m c),
    ((h c).1 0).trans ((((dats m) 0 c).arrAt_in 0 rfl _).trans ((A_eq m c 0).trans (V_main_arg0 m c))),
    ((h c).1 1).trans ((((dats m) 0 c).arrAt_in 1 rfl _).trans ((A_eq m c 1).trans (V_main_arg1 m c))),
    ((h c).1 2).trans ((((dats m) 0 c).arrAt_in 2 rfl _).trans ((A_eq m c 2).trans (V_main_arg2 m c))),
    ((h c).1 3).trans ((((dats m) 0 c).arrAt_in 3 rfl _).trans ((A_eq m c 3).trans (V_main_arg3 m c))),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c),
    ((h c).2 main_arg15 (Pipeline.mem_restRefs_of main_arg15 (by decide) (by decide))).trans (W_main_arg15 m (dats m) c),
    ((h c).2 main_arg16 (Pipeline.mem_restRefs_of main_arg16 (by decide) (by decide))).trans (W_main_arg16 m (dats m) c),
    ((h c).2 main_arg17 (Pipeline.mem_restRefs_of main_arg17 (by decide) (by decide))).trans (W_main_arg17 m (dats m) c),
    ((h c).2 main_arg18 (Pipeline.mem_restRefs_of main_arg18 (by decide) (by decide))).trans (W_main_arg18 m (dats m) c),
    ((h c).2 main_arg19 (Pipeline.mem_restRefs_of main_arg19 (by decide) (by decide))).trans (W_main_arg19 m (dats m) c)⟩) (run_main m ρ)

end Cert.KernelIdeal.KV

end
-- ==== Proof.RefSpec.lean ====
/-
  The reference program's two results, entry by entry, are the layer-by-layer spelling of the network.

  Each host operation's result is read at an index from its operands at an index: a product contracts the last axis
  of its left operand with the last axis of the weight matrix, a bias is broadcast along the leading axes, the rectifier
  is a maximum with zero, the three feature arrays are joined along the last axis, the recurrent products are sliced in
  three along the last axis, and the logistic function is spelt `1 / (1 + e⁻ˣ)`, which is the extended reals'
  logistic function.
-/
import proofs.«402217_j80994493268285_3_alg».proof.Proof.Gen.ReferenceIdeal.Read
import proofs.«402217_j80994493268285_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.RefSpec

open Idealize.ShloMosaic Idealize.ShloMosaic.ValueIdx
open Cert.ReferenceIdeal Cert.ReferenceIdeal.Read

/-- The argument arrays bundled in the order the specification takes them. -/
def A (x0 x1 x2 x3 : (⟨S4096x64x64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x192, .f32⟩ : BufTy).Contents (Elt Ideal)) (x13 : (⟨S64, .f32⟩ : BufTy).Contents (Elt Ideal)) (x14 : (⟨S1x64, .f32⟩ : BufTy).Contents (Elt Ideal)) (x15 : (⟨S1, .f32⟩ : BufTy).Contents (Elt Ideal)) (x16 x17 : (⟨S192x64, .f32⟩ : BufTy).Contents (Elt Ideal)) (x18 x19 : (⟨S192, .f32⟩ : BufTy).Contents (Elt Ideal)) : Cert.Spec.Args :=
  ⟨x0, x1, x2, x3, x4, x5, x6, x7, x8, x9, x10, x11, x12, x13, x14, x15, x16, x17, x18, x19⟩

section Ladder

variable (x0 x1 x2 x3 : (⟨S4096x64x64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x192, .f32⟩ : BufTy).Contents (Elt Ideal)) (x13 : (⟨S64, .f32⟩ : BufTy).Contents (Elt Ideal)) (x14 : (⟨S1x64, .f32⟩ : BufTy).Contents (Elt Ideal)) (x15 : (⟨S1, .f32⟩ : BufTy).Contents (Elt Ideal)) (x16 x17 : (⟨S192x64, .f32⟩ : BufTy).Contents (Elt Ideal)) (x18 x19 : (⟨S192, .f32⟩ : BufTy).Contents (Elt Ideal))

local notation "𝔸" => A x0 x1 x2 x3 x4 x5 x6 x7 x8 x9 x10 x11 x12 x13 x14 x15 x16 x17 x18 x19

theorem lidx_v0 (b : Fin 4096) (n o k : Fin 64) : lidx_main_v0 (ix3 b n o) k = ix3 b n k :=
  funext fun a => Fin.ext (by match a with | ⟨0, _⟩ => rfl | ⟨1, _⟩ => rfl | ⟨2, _⟩ => rfl)
theorem ridx_v0 (b : Fin 4096) (n o k : Fin 64) : ridx_main_v0 (ix3 b n o) k = ix2 o k :=
  funext fun a => Fin.ext (by match a with | ⟨0, _⟩ => rfl | ⟨1, _⟩ => rfl)
theorem lidx_v5 (b : Fin 4096) (n o k : Fin 64) : lidx_main_v5 (ix3 b n o) k = ix3 b n k :=
  funext fun a => Fin.ext (by match a with | ⟨0, _⟩ => rfl | ⟨1, _⟩ => rfl | ⟨2, _⟩ => rfl)
theorem ridx_v5 (b : Fin 4096) (n o k : Fin 64) : ridx_main_v5 (ix3 b n o) k = ix2 o k :=
  funext fun a => Fin.ext (by match a with | ⟨0, _⟩ => rfl | ⟨1, _⟩ => rfl)
theorem lidx_v11 (b : Fin 4096) (n o k : Fin 64) : lidx_main_v11 (ix3 b n o) k = ix3 b n k :=
  funext fun a => Fin.ext (by match a with | ⟨0, _⟩ => rfl | ⟨1, _⟩ => rfl | ⟨2, _⟩ => rfl)
theorem ridx_v11 (b : Fin 4096) (n o k : Fin 64) : ridx_main_v11 (ix3 b n o) k = ix2 o k :=
  funext fun a => Fin.ext (by match a with | ⟨0, _⟩ => rfl | ⟨1, _⟩ => rfl)
theorem lidx_v17 (b : Fin 4096) (n o k : Fin 64) : lidx_main_v17 (ix3 b n o) k = ix3 b n k :=
  funext fun a => Fin.ext (by match a with | ⟨0, _⟩ => rfl | ⟨1, _⟩ => rfl | ⟨2, _⟩ => rfl)
theorem ridx_v17 (b : Fin 4096) (n o k : Fin 64) : ridx_main_v17 (ix3 b n o) k = ix2 o k :=
  funext fun a => Fin.ext (by match a with | ⟨0, _⟩ => rfl | ⟨1, _⟩ => rfl)
theorem bidx_v2 (b : Fin 4096) (n o : Fin 64) : idx_main_v1 (idx_main_v2 (ix3 b n o)) = ix1 o :=
  funext fun a => Fin.ext (by match a with | ⟨0, _⟩ => rfl)
theorem bidx_v7 (b : Fin 4096) (n o : Fin 64) : idx_main_v6 (idx_main_v7 (ix3 b n o)) = ix1 o :=
  funext fun a => Fin.ext (by match a with | ⟨0, _⟩ => rfl)
theorem bidx_v13 (b : Fin 4096) (n o : Fin 64) : idx_main_v12 (idx_main_v13 (ix3 b n o)) = ix1 o :=
  funext fun a => Fin.ext (by match a with | ⟨0, _⟩ => rfl)
theorem bidx_v19 (b : Fin 4096) (n o : Fin 64) : idx_main_v18 (idx_main_v19 (ix3 b n o)) = ix1 o :=
  funext fun a => Fin.ext (by match a with | ⟨0, _⟩ => rfl)
theorem bidx_v25 (b : Fin 4096) (n o : Fin 64) : idx_main_v24 (idx_main_v25 (ix3 b n o)) = ix1 o :=
  funext fun a => Fin.ext (by match a with | ⟨0, _⟩ => rfl)
theorem lidx_v10 (b : Fin 4096) (i h k : Fin 64) : lidx_main_v10 (ix3 b i h) k = ix3 b i k :=
  funext fun a => Fin.ext (by match a with | ⟨0, _⟩ => rfl | ⟨1, _⟩ => rfl | ⟨2, _⟩ => rfl)
theorem ridx_v10 (b : Fin 4096) (i h k : Fin 64) : ridx_main_v10 (ix3 b i h) k = ix3 b k h :=
  funext fun a => Fin.ext (by match a with | ⟨0, _⟩ => rfl | ⟨1, _⟩ => rfl | ⟨2, _⟩ => rfl)
theorem lidx_v16 (b : Fin 4096) (i h k : Fin 64) : lidx_main_v16 (ix3 b i h) k = ix3 b i k :=
  funext fun a => Fin.ext (by match a with | ⟨0, _⟩ => rfl | ⟨1, _⟩ => rfl | ⟨2, _⟩ => rfl)
theorem ridx_v16 (b : Fin 4096) (i h k : Fin 64) : ridx_main_v16 (ix3 b i h) k = ix3 b k h :=
  funext fun a => Fin.ext (by match a with | ⟨0, _⟩ => rfl | ⟨1, _⟩ => rfl | ⟨2, _⟩ => rfl)

/-- First dense layer, rectified. -/
theorem r_v4 (b : Fin 4096) (n o : Fin 64) :
    val_main_v4 (F := Ideal) x0 x4 x5 (ix3 b n o) = Cert.Spec.x1 (𝔸).weights (Cert.Spec.slab x0 b) n o := by
  rw [val_main_v4_apply, val_main_v3_apply, val_main_v0_apply, val_main_v2_apply, val_main_v1_apply,
    val_main_call0_v0_apply, val_main_call0_cst_apply]
  simp only [Ideal.maximumf_def, Ideal.addf_def, Ideal.ofBits_def, Ideal.ofBits_zero_f32, lidx_v0, ridx_v0, bidx_v2]
  rfl

/-- Second dense layer, rectified. -/
theorem r_v9 (b : Fin 4096) (n o : Fin 64) :
    val_main_v9 (F := Ideal) x0 x4 x5 x6 x7 (ix3 b n o) = Cert.Spec.x2 (𝔸).weights (Cert.Spec.slab x0 b) n o := by
  rw [val_main_v9_apply, val_main_v8_apply, val_main_v5_apply, val_main_v7_apply, val_main_v6_apply,
    val_main_call1_v0_apply, val_main_call1_cst_apply]
  simp only [Ideal.maximumf_def, Ideal.addf_def, Ideal.ofBits_def, Ideal.ofBits_zero_f32, lidx_v5, ridx_v5, bidx_v7, r_v4 x0 x1 x2 x3 x4 x5 x6 x7 x8 x9 x10 x11 x12 x13 x14 x15 x16 x17 x18 x19]
  rfl

/-- The neighbourhood sum under the first adjacency array. -/
theorem r_v10 (b : Fin 4096) (i h : Fin 64) :
    val_main_v10 (F := Ideal) x0 x1 x4 x5 x6 x7 (ix3 b i h)
      = Cert.Spec.agg (𝔸).weights (Cert.Spec.slab x0 b) (Cert.Spec.slab x1 b) i h := by
  rw [val_main_v10_apply]
  simp only [lidx_v10, ridx_v10, r_v9 x0 x1 x2 x3 x4 x5 x6 x7 x8 x9 x10 x11 x12 x13 x14 x15 x16 x17 x18 x19]
  rfl

/-- The dense layer on the first neighbourhood sum, rectified. -/
theorem r_v15 (b : Fin 4096) (n o : Fin 64) :
    val_main_v15 (F := Ideal) x0 x1 x4 x5 x6 x7 x8 x9 (ix3 b n o)
      = Cert.Spec.xc (𝔸).weights (Cert.Spec.slab x0 b) (Cert.Spec.slab x1 b) n o := by
  rw [val_main_v15_apply, val_main_v14_apply, val_main_v11_apply, val_main_v13_apply, val_main_v12_apply,
    val_main_call2_v0_apply, val_main_call2_cst_apply]
  simp only [Ideal.maximumf_def, Ideal.addf_def, Ideal.ofBits_def, Ideal.ofBits_zero_f32, lidx_v11, ridx_v11, bidx_v13, r_v10 x0 x1 x2 x3 x4 x5 x6 x7 x8 x9 x10 x11 x12 x13 x14 x15 x16 x17 x18 x19]
  rfl

/-- The neighbourhood sum under the second adjacency array. -/
theorem r_v16 (b : Fin 4096) (i h : Fin 64) :
    val_main_v16 (F := Ideal) x0 x2 x4 x5 x6 x7 (ix3 b i h)
      = Cert.Spec.agg (𝔸).weights (Cert.Spec.slab x0 b) (Cert.Spec.slab x2 b) i h := by
  rw [val_main_v16_apply]
  simp only [lidx_v16, ridx_v16, r_v9 x0 x1 x2 x3 x4 x5 x6 x7 x8 x9 x10 x11 x12 x13 x14 x15 x16 x17 x18 x19]
  rfl

/-- The dense layer on the second neighbourhood sum, rectified. -/
theorem r_v21 (b : Fin 4096) (n o : Fin 64) :
    val_main_v21 (F := Ideal) x0 x2 x4 x5 x6 x7 x10 x11 (ix3 b n o)
      = Cert.Spec.xo (𝔸).weights (Cert.Spec.slab x0 b) (Cert.Spec.slab x2 b) n o := by
  rw [val_main_v21_apply, val_main_v20_apply, val_main_v17_apply, val_main_v19_apply, val_main_v18_apply,
    val_main_call3_v0_apply, val_main_call3_cst_apply]
  simp only [Ideal.maximumf_def, Ideal.addf_def, Ideal.ofBits_def, Ideal.ofBits_zero_f32, lidx_v17, ridx_v17, bidx_v19, r_v16 x0 x1 x2 x3 x4 x5 x6 x7 x8 x9 x10 x11 x12 x13 x14 x15 x16 x17 x18 x19]
  rfl

theorem lidx_v23 (b : Fin 4096) (n o : Fin 64) (k : Fin 192) : lidx_main_v23 (ix3 b n o) k = ix3 b n k :=
  funext fun a => Fin.ext (by match a with | ⟨0, _⟩ => rfl | ⟨1, _⟩ => rfl | ⟨2, _⟩ => rfl)
theorem ridx_v23 (b : Fin 4096) (n o : Fin 64) (k : Fin 192) : ridx_main_v23 (ix3 b n o) k = ix2 o k :=
  funext fun a => Fin.ext (by match a with | ⟨0, _⟩ => rfl | ⟨1, _⟩ => rfl)
theorem lidx_v28 (b : Fin 4096) (n : Fin 64) (g : Fin 192) (k : Fin 64) : lidx_main_v28 (ix3 b n g) k = ix3 b n k :=
  funext fun a => Fin.ext (by match a with | ⟨0, _⟩ => rfl | ⟨1, _⟩ => rfl | ⟨2, _⟩ => rfl)
theorem ridx_v28 (b : Fin 4096) (n : Fin 64) (g : Fin 192) (k : Fin 64) : ridx_main_v28 (ix3 b n g) k = ix2 g k :=
  funext fun a => Fin.ext (by match a with | ⟨0, _⟩ => rfl | ⟨1, _⟩ => rfl)
theorem lidx_v32 (b : Fin 4096) (n : Fin 64) (g : Fin 192) (k : Fin 64) : lidx_main_v32 (ix3 b n g) k = ix3 b n k :=
  funext fun a => Fin.ext (by match a with | ⟨0, _⟩ => rfl | ⟨1, _⟩ => rfl | ⟨2, _⟩ => rfl)
theorem ridx_v32 (b : Fin 4096) (n : Fin 64) (g : Fin 192) (k : Fin 64) : ridx_main_v32 (ix3 b n g) k = ix2 g k :=
  funext fun a => Fin.ext (by match a with | ⟨0, _⟩ => rfl | ⟨1, _⟩ => rfl)
theorem bidx_v30 (b : Fin 4096) (n : Fin 64) (g : Fin 192) : idx_main_v29 (idx_main_v30 (ix3 b n g)) = ix1 g :=
  funext fun a => Fin.ext (by match a with | ⟨0, _⟩ => rfl)
theorem bidx_v34 (b : Fin 4096) (n : Fin 64) (g : Fin 192) : idx_main_v33 (idx_main_v34 (ix3 b n g)) = ix1 g :=
  funext fun a => Fin.ext (by match a with | ⟨0, _⟩ => rfl)

/-- The three feature arrays joined along the last axis: the piece is chosen by the range of the last coordinate. -/
theorem r_v22 (b : Fin 4096) (n : Fin 64) (k : Fin 192) :
    val_main_v22 (F := Ideal) x0 x1 x2 x4 x5 x6 x7 x8 x9 x10 x11 (ix3 b n k)
      = Cert.Spec.cat3 (Cert.Spec.x2 (𝔸).weights (Cert.Spec.slab x0 b) n)
          (Cert.Spec.xc (𝔸).weights (Cert.Spec.slab x0 b) (Cert.Spec.slab x1 b) n)
          (Cert.Spec.xo (𝔸).weights (Cert.Spec.slab x0 b) (Cert.Spec.slab x2 b) n) k := by
  unfold val_main_v22 Cert.Spec.cat3
  by_cases h1 : k.val < 64
  · rw [dif_pos h1]
    refine (concatenate_apply_piece _ _ _ (ix3 b n k) 0 (by show (0 : Nat) < 3; decide) S4096x64x64
      (val_main_v9 (F := Ideal) x0 x4 x5 x6 x7) rfl rfl 0 rfl (ix3 b n ⟨k.val, h1⟩)
      (fun c hc => by match c, hc with | ⟨0, _⟩, _ => rfl | ⟨1, _⟩, _ => rfl | ⟨2, _⟩, hc => exact absurd rfl hc) (by show 0 + k.val = k.val; omega)).trans ?_
    exact r_v9 x0 x1 x2 x3 x4 x5 x6 x7 x8 x9 x10 x11 x12 x13 x14 x15 x16 x17 x18 x19 b n ⟨k.val, h1⟩
  · rw [dif_neg h1]
    by_cases h2 : k.val < 128
    · rw [dif_pos h2]
      refine (concatenate_apply_piece _ _ _ (ix3 b n k) 1 (by show (1 : Nat) < 3; decide) S4096x64x64
        (val_main_v15 (F := Ideal) x0 x1 x4 x5 x6 x7 x8 x9) rfl rfl 64 rfl (ix3 b n ⟨k.val - 64, by omega⟩)
        (fun c hc => by match c, hc with | ⟨0, _⟩, _ => rfl | ⟨1, _⟩, _ => rfl | ⟨2, _⟩, hc => exact absurd rfl hc) (by show 64 + (k.val - 64) = k.val; omega)).trans ?_
      exact r_v15 x0 x1 x2 x3 x4 x5 x6 x7 x8 x9 x10 x11 x12 x13 x14 x15 x16 x17 x18 x19 b n ⟨k.val - 64, by omega⟩
    · rw [dif_neg h2]
      have hk : k.val < 192 := k.isLt
      refine (concatenate_apply_piece _ _ _ (ix3 b n k) 2 (by show (2 : Nat) < 3; decide) S4096x64x64
        (val_main_v21 (F := Ideal) x0 x2 x4 x5 x6 x7 x10 x11) rfl rfl 128 rfl (ix3 b n ⟨k.val - 128, by omega⟩)
        (fun c hc => by match c, hc with | ⟨0, _⟩, _ => rfl | ⟨1, _⟩, _ => rfl | ⟨2, _⟩, hc => exact absurd rfl hc) (by show 128 + (k.val - 128) = k.val; omega)).trans ?_
      exact r_v21 x0 x1 x2 x3 x4 x5 x6 x7 x8 x9 x10 x11 x12 x13 x14 x15 x16 x17 x18 x19 b n ⟨k.val - 128, by omega⟩

/-- The dense layer on the three feature vectors side by side, rectified. -/
theorem r_v27 (b : Fin 4096) (n o : Fin 64) :
    val_main_v27 (F := Ideal) x0 x1 x2 x4 x5 x6 x7 x8 x9 x10 x11 x12 x13 (ix3 b n o)
      = Cert.Spec.x3 (𝔸).weights (Cert.Spec.slab x0 b) (Cert.Spec.slab x1 b) (Cert.Spec.slab x2 b) n o := by
  rw [val_main_v27_apply, val_main_v26_apply, val_main_v23_apply, val_main_v25_apply, val_main_v24_apply,
    val_main_call4_v0_apply, val_main_call4_cst_apply]
  simp only [Ideal.maximumf_def, Ideal.addf_def, Ideal.ofBits_def, Ideal.ofBits_zero_f32, lidx_v23, ridx_v23, bidx_v25, r_v22 x0 x1 x2 x3 x4 x5 x6 x7 x8 x9 x10 x11 x12 x13 x14 x15 x16 x17 x18 x19]
  rfl

/-- The recurrent step's input products. -/
theorem r_v31 (b : Fin 4096) (n : Fin 64) (g : Fin 192) :
    val_main_v31 (F := Ideal) x0 x1 x2 x4 x5 x6 x7 x8 x9 x10 x11 x12 x13 x16 x18 (ix3 b n g)
      = Cert.Spec.gi (𝔸).weights (Cert.Spec.slab x0 b) (Cert.Spec.slab x1 b) (Cert.Spec.slab x2 b) n g := by
  rw [val_main_v31_apply, val_main_v28_apply, val_main_v30_apply, val_main_v29_apply]
  simp only [Ideal.addf_def, lidx_v28, ridx_v28, bidx_v30, r_v27 x0 x1 x2 x3 x4 x5 x6 x7 x8 x9 x10 x11 x12 x13 x14 x15 x16 x17 x18 x19]
  rfl

/-- The recurrent step's hidden products. -/
theorem r_v35 (b : Fin 4096) (n : Fin 64) (g : Fin 192) :
    val_main_v35 (F := Ideal) x3 x17 x19 (ix3 b n g) = Cert.Spec.gh (𝔸).weights (Cert.Spec.slab x3 b) n g := by
  rw [val_main_v35_apply, val_main_v32_apply, val_main_v34_apply, val_main_v33_apply]
  simp only [Ideal.addf_def, lidx_v32, ridx_v32, bidx_v34]
  rfl

theorem sidx_v36 (b : Fin 4096) (n h : Fin 64) : idx_main_v36 (ix3 b n h) = ix3 b n (⟨h.val, by omega⟩ : Fin 192) :=
  funext fun a => Fin.ext (by match a with | ⟨0, _⟩ => rfl | ⟨1, _⟩ => rfl | ⟨2, _⟩ => rfl)
theorem sidx_v37 (b : Fin 4096) (n h : Fin 64) : idx_main_v37 (ix3 b n h) = ix3 b n (⟨64 + h.val, by omega⟩ : Fin 192) :=
  funext fun a => Fin.ext (by match a with | ⟨0, _⟩ => rfl | ⟨1, _⟩ => rfl | ⟨2, _⟩ => rfl)
theorem sidx_v38 (b : Fin 4096) (n h : Fin 64) : idx_main_v38 (ix3 b n h) = ix3 b n (⟨128 + h.val, by omega⟩ : Fin 192) :=
  funext fun a => Fin.ext (by match a with | ⟨0, _⟩ => rfl | ⟨1, _⟩ => rfl | ⟨2, _⟩ => rfl)
theorem sidx_v39 (b : Fin 4096) (n h : Fin 64) : idx_main_v39 (ix3 b n h) = ix3 b n (⟨h.val, by omega⟩ : Fin 192) :=
  funext fun a => Fin.ext (by match a with | ⟨0, _⟩ => rfl | ⟨1, _⟩ => rfl | ⟨2, _⟩ => rfl)
theorem sidx_v40 (b : Fin 4096) (n h : Fin 64) : idx_main_v40 (ix3 b n h) = ix3 b n (⟨64 + h.val, by omega⟩ : Fin 192) :=
  funext fun a => Fin.ext (by match a with | ⟨0, _⟩ => rfl | ⟨1, _⟩ => rfl | ⟨2, _⟩ => rfl)
theorem sidx_v41 (b : Fin 4096) (n h : Fin 64) : idx_main_v41 (ix3 b n h) = ix3 b n (⟨128 + h.val, by omega⟩ : Fin 192) :=
  funext fun a => Fin.ext (by match a with | ⟨0, _⟩ => rfl | ⟨1, _⟩ => rfl | ⟨2, _⟩ => rfl)
theorem lidx_v64 (b : Fin 4096) (n : Fin 64) (k : Fin 64) : lidx_main_v64 (ix3 b n (0 : Fin 1)) k = ix3 b n k :=
  funext fun a => Fin.ext (by match a with | ⟨0, _⟩ => rfl | ⟨1, _⟩ => rfl | ⟨2, _⟩ => rfl)
theorem ridx_v64 (b : Fin 4096) (n : Fin 64) (k : Fin 64) : ridx_main_v64 (ix3 b n (0 : Fin 1)) k = ix2 (0 : Fin 1) k :=
  funext fun a => Fin.ext (by match a with | ⟨0, _⟩ => rfl | ⟨1, _⟩ => rfl)
theorem bidx_v66 (b : Fin 4096) (n : Fin 64) : idx_main_v65 (idx_main_v66 (ix3 b n (0 : Fin 1))) = ix1 (0 : Fin 1) :=
  funext fun a => Fin.ext (by match a with | ⟨0, _⟩ => rfl)

/-- The word `0x3F800000` denotes one. -/
theorem one_f32 : Ideal.ofBits .f32 0x3F800000#32 = 1 := by
  simp [Ideal.ofBits, Ideal.ieee, -EReal.coe_mul]; norm_num

/-! The recurrent products sliced in three along the last axis. -/

theorem r_v36 (b : Fin 4096) (n h : Fin 64) :
    val_main_v36 (F := Ideal) x0 x1 x2 x4 x5 x6 x7 x8 x9 x10 x11 x12 x13 x16 x18 (ix3 b n h)
      = Cert.Spec.gi (𝔸).weights (Cert.Spec.slab x0 b) (Cert.Spec.slab x1 b) (Cert.Spec.slab x2 b) n (⟨h.val, by omega⟩ : Fin 192) := by
  rw [val_main_v36_apply, sidx_v36]
  exact r_v31 x0 x1 x2 x3 x4 x5 x6 x7 x8 x9 x10 x11 x12 x13 x14 x15 x16 x17 x18 x19 b n _

theorem r_v37 (b : Fin 4096) (n h : Fin 64) :
    val_main_v37 (F := Ideal) x0 x1 x2 x4 x5 x6 x7 x8 x9 x10 x11 x12 x13 x16 x18 (ix3 b n h)
      = Cert.Spec.gi (𝔸).weights (Cert.Spec.slab x0 b) (Cert.Spec.slab x1 b) (Cert.Spec.slab x2 b) n (⟨64 + h.val, by omega⟩ : Fin 192) := by
  rw [val_main_v37_apply, sidx_v37]
  exact r_v31 x0 x1 x2 x3 x4 x5 x6 x7 x8 x9 x10 x11 x12 x13 x14 x15 x16 x17 x18 x19 b n _

theorem r_v38 (b : Fin 4096) (n h : Fin 64) :
    val_main_v38 (F := Ideal) x0 x1 x2 x4 x5 x6 x7 x8 x9 x10 x11 x12 x13 x16 x18 (ix3 b n h)
      = Cert.Spec.gi (𝔸).weights (Cert.Spec.slab x0 b) (Cert.Spec.slab x1 b) (Cert.Spec.slab x2 b) n (⟨128 + h.val, by omega⟩ : Fin 192) := by
  rw [val_main_v38_apply, sidx_v38]
  exact r_v31 x0 x1 x2 x3 x4 x5 x6 x7 x8 x9 x10 x11 x12 x13 x14 x15 x16 x17 x18 x19 b n _

theorem r_v39 (b : Fin 4096) (n h : Fin 64) :
    val_main_v39 (F := Ideal) x3 x17 x19 (ix3 b n h)
      = Cert.Spec.gh (𝔸).weights (Cert.Spec.slab x3 b) n (⟨h.val, by omega⟩ : Fin 192) := by
  rw [val_main_v39_apply, sidx_v39]
  exact r_v35 x0 x1 x2 x3 x4 x5 x6 x7 x8 x9 x10 x11 x12 x13 x14 x15 x16 x17 x18 x19 b n _

theorem r_v40 (b : Fin 4096) (n h : Fin 64) :
    val_main_v40 (F := Ideal) x3 x17 x19 (ix3 b n h)
      = Cert.Spec.gh (𝔸).weights (Cert.Spec.slab x3 b) n (⟨64 + h.val, by omega⟩ : Fin 192) := by
  rw [val_main_v40_apply, sidx_v40]
  exact r_v35 x0 x1 x2 x3 x4 x5 x6 x7 x8 x9 x10 x11 x12 x13 x14 x15 x16 x17 x18 x19 b n _

theorem r_v41 (b : Fin 4096) (n h : Fin 64) :
    val_main_v41 (F := Ideal) x3 x17 x19 (ix3 b n h)
      = Cert.Spec.gh (𝔸).weights (Cert.Spec.slab x3 b) n (⟨128 + h.val, by omega⟩ : Fin 192) := by
  rw [val_main_v41_apply, sidx_v41]
  exact r_v35 x0 x1 x2 x3 x4 x5 x6 x7 x8 x9 x10 x11 x12 x13 x14 x15 x16 x17 x18 x19 b n _

/-- Reset gate: negate, exponential, add one, divide one by — the logistic function. -/
theorem r_v48 (b : Fin 4096) (n h : Fin 64) :
    val_main_v48 (F := Ideal) x0 x1 x2 x3 x4 x5 x6 x7 x8 x9 x10 x11 x12 x13 x16 x17 x18 x19 (ix3 b n h) = Cert.Spec.rg (𝔸).weights (Cert.Spec.slab x0 b) (Cert.Spec.slab x1 b) (Cert.Spec.slab x2 b) (Cert.Spec.slab x3 b) n h := by
  rw [val_main_v48_apply, val_main_v47_apply, val_main_cst_0_apply, val_main_v46_apply, val_main_v45_apply,
    val_main_cst_apply, val_main_v44_apply, val_main_v43_apply, val_main_v42_apply, r_v36 x0 x1 x2 x3 x4 x5 x6 x7 x8 x9 x10 x11 x12 x13 x14 x15 x16 x17 x18 x19, r_v39 x0 x1 x2 x3 x4 x5 x6 x7 x8 x9 x10 x11 x12 x13 x14 x15 x16 x17 x18 x19]
  simp only [Ideal.addf_def, Ideal.subf_def, Ideal.mulf_def, Ideal.hostDivf_def, Ideal.hostUnary_exp_def, Ideal.hostUnary_tanh_def, Ideal.hostNegf_def, Ideal.negf_def, Ideal.ofBits_def, one_f32]
  rfl

/-- Update gate. -/
theorem r_v55 (b : Fin 4096) (n h : Fin 64) :
    val_main_v55 (F := Ideal) x0 x1 x2 x3 x4 x5 x6 x7 x8 x9 x10 x11 x12 x13 x16 x17 x18 x19 (ix3 b n h) = Cert.Spec.zg (𝔸).weights (Cert.Spec.slab x0 b) (Cert.Spec.slab x1 b) (Cert.Spec.slab x2 b) (Cert.Spec.slab x3 b) n h := by
  rw [val_main_v55_apply, val_main_v54_apply, val_main_cst_2_apply, val_main_v53_apply, val_main_v52_apply,
    val_main_cst_1_apply, val_main_v51_apply, val_main_v50_apply, val_main_v49_apply, r_v37 x0 x1 x2 x3 x4 x5 x6 x7 x8 x9 x10 x11 x12 x13 x14 x15 x16 x17 x18 x19, r_v40 x0 x1 x2 x3 x4 x5 x6 x7 x8 x9 x10 x11 x12 x13 x14 x15 x16 x17 x18 x19]
  simp only [Ideal.addf_def, Ideal.subf_def, Ideal.mulf_def, Ideal.hostDivf_def, Ideal.hostUnary_exp_def, Ideal.hostUnary_tanh_def, Ideal.hostNegf_def, Ideal.negf_def, Ideal.ofBits_def, one_f32]
  rfl

/-- Candidate. -/
theorem r_v58 (b : Fin 4096) (n h : Fin 64) :
    val_main_v58 (F := Ideal) x0 x1 x2 x3 x4 x5 x6 x7 x8 x9 x10 x11 x12 x13 x16 x17 x18 x19 (ix3 b n h) = Cert.Spec.ng (𝔸).weights (Cert.Spec.slab x0 b) (Cert.Spec.slab x1 b) (Cert.Spec.slab x2 b) (Cert.Spec.slab x3 b) n h := by
  rw [val_main_v58_apply, val_main_v57_apply, val_main_v56_apply, r_v38 x0 x1 x2 x3 x4 x5 x6 x7 x8 x9 x10 x11 x12 x13 x14 x15 x16 x17 x18 x19, r_v48 x0 x1 x2 x3 x4 x5 x6 x7 x8 x9 x10 x11 x12 x13 x14 x15 x16 x17 x18 x19, r_v41 x0 x1 x2 x3 x4 x5 x6 x7 x8 x9 x10 x11 x12 x13 x14 x15 x16 x17 x18 x19]
  simp only [Ideal.addf_def, Ideal.subf_def, Ideal.mulf_def, Ideal.hostDivf_def, Ideal.hostUnary_exp_def, Ideal.hostUnary_tanh_def, Ideal.hostNegf_def, Ideal.negf_def, Ideal.ofBits_def, one_f32]
  rfl

/-- The new hidden vector. -/
theorem r_v63 (b : Fin 4096) (n h : Fin 64) :
    val_main_v63 (F := Ideal) x0 x1 x2 x3 x4 x5 x6 x7 x8 x9 x10 x11 x12 x13 x16 x17 x18 x19 (ix3 b n h) = Cert.Spec.hNew (𝔸).weights (Cert.Spec.slab x0 b) (Cert.Spec.slab x1 b) (Cert.Spec.slab x2 b) (Cert.Spec.slab x3 b) n h := by
  rw [val_main_v63_apply, val_main_v61_apply, val_main_v60_apply, val_main_v59_apply, val_main_cst_3_apply,
    val_main_v62_apply, r_v55 x0 x1 x2 x3 x4 x5 x6 x7 x8 x9 x10 x11 x12 x13 x14 x15 x16 x17 x18 x19, r_v58 x0 x1 x2 x3 x4 x5 x6 x7 x8 x9 x10 x11 x12 x13 x14 x15 x16 x17 x18 x19]
  simp only [Ideal.addf_def, Ideal.subf_def, Ideal.mulf_def, Ideal.hostDivf_def, Ideal.hostUnary_exp_def, Ideal.hostUnary_tanh_def, Ideal.hostNegf_def, Ideal.negf_def, Ideal.ofBits_def, one_f32]
  rfl

/-- The output head. -/
theorem r_v73 (b : Fin 4096) (n : Fin 64) :
    val_main_v73 (F := Ideal) x0 x1 x2 x4 x5 x6 x7 x8 x9 x10 x11 x12 x13 x14 x15 (ix3 b n (0 : Fin 1))
      = Cert.Spec.act (𝔸).weights (Cert.Spec.slab x0 b) (Cert.Spec.slab x1 b) (Cert.Spec.slab x2 b) n := by
  rw [val_main_v73_apply, val_main_v72_apply, val_main_cst_5_apply, val_main_v71_apply, val_main_v70_apply,
    val_main_cst_4_apply, val_main_v69_apply, val_main_v68_apply, val_main_v67_apply, val_main_v64_apply,
    val_main_v66_apply, val_main_v65_apply]
  simp only [Ideal.addf_def, Ideal.subf_def, Ideal.mulf_def, Ideal.hostDivf_def, Ideal.hostUnary_exp_def, Ideal.hostUnary_tanh_def, Ideal.hostNegf_def, Ideal.negf_def, Ideal.ofBits_def, one_f32, lidx_v64, ridx_v64, bidx_v66, r_v27 x0 x1 x2 x3 x4 x5 x6 x7 x8 x9 x10 x11 x12 x13 x14 x15 x16 x17 x18 x19]
  rfl

end Ladder

/-- The reference's hidden-vector result at `(b, n, h)`. -/
theorem ref_h (x0 x1 x2 x3 : (⟨S4096x64x64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x192, .f32⟩ : BufTy).Contents (Elt Ideal)) (x13 : (⟨S64, .f32⟩ : BufTy).Contents (Elt Ideal)) (x14 : (⟨S1x64, .f32⟩ : BufTy).Contents (Elt Ideal)) (x15 : (⟨S1, .f32⟩ : BufTy).Contents (Elt Ideal)) (x16 x17 : (⟨S192x64, .f32⟩ : BufTy).Contents (Elt Ideal)) (x18 x19 : (⟨S192, .f32⟩ : BufTy).Contents (Elt Ideal)) (b : Fin 4096) (n h : Fin 64) :
    val_main_v63 (F := Ideal) x0 x1 x2 x3 x4 x5 x6 x7 x8 x9 x10 x11 x12 x13 x16 x17 x18 x19 (ix3 b n h)
      = Cert.Spec.Hout (A x0 x1 x2 x3 x4 x5 x6 x7 x8 x9 x10 x11 x12 x13 x14 x15 x16 x17 x18 x19) b n h :=
  r_v63 x0 x1 x2 x3 x4 x5 x6 x7 x8 x9 x10 x11 x12 x13 x14 x15 x16 x17 x18 x19 b n h

/-- The reference's output-head result at `(b, n, 0)`. -/
theorem ref_act (x0 x1 x2 x3 : (⟨S4096x64x64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x192, .f32⟩ : BufTy).Contents (Elt Ideal)) (x13 : (⟨S64, .f32⟩ : BufTy).Contents (Elt Ideal)) (x14 : (⟨S1x64, .f32⟩ : BufTy).Contents (Elt Ideal)) (x15 : (⟨S1, .f32⟩ : BufTy).Contents (Elt Ideal)) (x16 x17 : (⟨S192x64, .f32⟩ : BufTy).Contents (Elt Ideal)) (x18 x19 : (⟨S192, .f32⟩ : BufTy).Contents (Elt Ideal)) (b : Fin 4096) (n : Fin 64) :
    val_main_v73 (F := Ideal) x0 x1 x2 x4 x5 x6 x7 x8 x9 x10 x11 x12 x13 x14 x15 (ix3 b n (0 : Fin 1))
      = Cert.Spec.Aout (A x0 x1 x2 x3 x4 x5 x6 x7 x8 x9 x10 x11 x12 x13 x14 x15 x16 x17 x18 x19) b n :=
  r_v73 x0 x1 x2 x3 x4 x5 x6 x7 x8 x9 x10 x11 x12 x13 x14 x15 x16 x17 x18 x19 b n

end Cert.RefSpec

end
-- ==== Proof.lean ====
/-
  The certificate: the kernel's program and its idealization each run to their end without a fault and leave the
  twenty arguments unchanged; so does the reference; the idealization changed nothing; and, at the extended reals, the
  kernel's two results are the reference's.

  Both programs compute one network on each of 4096 graphs of 64 nodes: two dense layers with a rectifier, two
  neighbourhood sums, a dense layer on each, a dense layer on the three feature vectors side by side, a gated
  recurrent step and an output head. The kernel does it on blocks of 128 graphs with FUSED weights that host lines
  build beforehand (a block-diagonal matrix for the two neighbourhood layers; one 128 × 257 matrix, of weight blocks
  and zero blocks, for the five products of the recurrent step and the head, with the biases added once). A product with
  a zero block contributes nothing (`x * 0 = 0` for every extended real), a sum over 128 terms is the sum of its two
  halves, and the extended reals' addition is commutative and associative: so the fused spelling is the layer-by-layer
  one, entry by entry, with no finiteness needed. A change of float format is the identity there, and the logistic
  function is `1 / (1 + e⁻ˣ)` however it is spelt.
-/
import proofs.«402217_j80994493268285_3_alg».proof.Defs
import proofs.«402217_j80994493268285_3_alg».proof.Proof.Gen.Kernel
import proofs.«402217_j80994493268285_3_alg».proof.Proof.Gen.KernelIdeal
import proofs.«402217_j80994493268285_3_alg».proof.Proof.Gen.ReferenceIdeal
import proofs.«402217_j80994493268285_3_alg».proof.Proof.Gen.Pre_finite_inputs
import proofs.«402217_j80994493268285_3_alg».proof.Proof.Gen.ReferenceIdeal.Run
import proofs.«402217_j80994493268285_3_alg».proof.Proof.Gen.ReferenceIdeal.Read
import proofs.«402217_j80994493268285_3_alg».proof.Proof.FrameB
import proofs.«402217_j80994493268285_3_alg».proof.Proof.FrameI
import proofs.«402217_j80994493268285_3_alg».proof.Proof.KValue
import proofs.«402217_j80994493268285_3_alg».proof.Proof.RefSpec
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The kernel's program, at the machine's words. -/
theorem frame_k : Cert.frame_Kernel := fun m ρ _ => Cert.Kernel.Fr.frame m ρ

/-- Its idealization, at the extended reals. -/
theorem frame_ki : Cert.frame_KernelIdeal := fun m ρ _ => Cert.KernelIdeal.Fr.frame m ρ

/-- The reference: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- The reference's argument arrays are the kernel's. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    Cert.RefSpec.A (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19))
      = Cert.KernelIdeal.KA.args m c := by
  obtain ⟨h0, h1, h2, h3, h4, h5, h6, h7, h8, h9, h10, h11, h12, h13, h14, h15, h16, h17, h18, h19⟩ := h
  unfold Cert.RefSpec.A Cert.KernelIdeal.KA.args
  rw [h0, h1, h2, h3, h4, h5, h6, h7, h8, h9, h10, h11, h12, h13, h14, h15, h16, h17, h18, h19]

/-- At the extended reals the kernel's two results are the reference's: both are the network's results. -/
theorem algebraic : Cert.algebraic_KernelIdeal_ReferenceIdeal := by
  intro m ρ m' ρ' _ hagree
  refine ⟨fun c => Cert.KernelIdeal.KV.Aarr3 m c, fun c => Cert.KernelIdeal.KV.Harr m c, Cert.KernelIdeal.KV.run_values m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v73_eq]
    funext i
    obtain ⟨b, n, u, rfl⟩ : ∃ (b : Fin 4096) (n : Fin 64) (u : Fin 1), i = ix3 b n u := ⟨i 0, i 1, i 2, eq_ix3 i⟩
    obtain rfl : u = 0 := Subsingleton.elim _ _
    rw [Cert.RefSpec.ref_act (x3 := m' ((c.tc : Thread Cert.ReferenceIdeal.nD Cert.ReferenceIdeal.τ).loc Cert.ReferenceIdeal.main_arg3))
      (x16 := m' ((c.tc : Thread Cert.ReferenceIdeal.nD Cert.ReferenceIdeal.τ).loc Cert.ReferenceIdeal.main_arg16))
      (x17 := m' ((c.tc : Thread Cert.ReferenceIdeal.nD Cert.ReferenceIdeal.τ).loc Cert.ReferenceIdeal.main_arg17))
      (x18 := m' ((c.tc : Thread Cert.ReferenceIdeal.nD Cert.ReferenceIdeal.τ).loc Cert.ReferenceIdeal.main_arg18))
      (x19 := m' ((c.tc : Thread Cert.ReferenceIdeal.nD Cert.ReferenceIdeal.τ).loc Cert.ReferenceIdeal.main_arg19)),
      args_eq m m' c (hagree c)]
    rfl
  · rw [Cert.ReferenceIdeal.Read.val_main_v63_eq]
    funext i
    obtain ⟨b, n, h, rfl⟩ : ∃ (b : Fin 4096) (n h : Fin 64), i = ix3 b n h := ⟨i 0, i 1, i 2, eq_ix3 i⟩
    rw [Cert.RefSpec.ref_h (x14 := m' ((c.tc : Thread Cert.ReferenceIdeal.nD Cert.ReferenceIdeal.τ).loc Cert.ReferenceIdeal.main_arg14))
      (x15 := m' ((c.tc : Thread Cert.ReferenceIdeal.nD Cert.ReferenceIdeal.τ).loc Cert.ReferenceIdeal.main_arg15)),
      args_eq m m' c (hagree c)]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
